-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S1024x256 : Shape := ⟨2, ![1024, 256]⟩
abbrev S1024x128 : Shape := ⟨2, ![1024, 128]⟩
abbrev S100000 : Shape := ⟨1, ![100000]⟩
abbrev S256x384 : Shape := ⟨2, ![256, 384]⟩
abbrev S256 : Shape := ⟨1, ![256]⟩
abbrev S768x256 : Shape := ⟨2, ![768, 256]⟩
abbrev S768 : Shape := ⟨1, ![768]⟩
abbrev S128x256 : Shape := ⟨2, ![128, 256]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x128 : S_.BroadcastsInDim S1024x128 (![] : Fin 0 → Fin S1024x128.rank)
  reducesTo_S1024x128_S_d0_1 : S1024x128.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_v63 : IVec S_ 1) (main_v67 : IVec S_ 1) : IVec S_ 1 :=
  let main_v68 : IVec S_ 1 := andi main_v63 main_v67
  let main_v69 : IVec S1x1600000 32 := (extractStridedSlice S1x1600000 ![0, 0] · slices_S2x1600000_S1x1600000_0_0) main_arg1
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_v73 : IVec S1x1600000 32 := (extractStridedSlice S1x1600000 ![0, 0] · slices_S2x1600000_S1x1600000_0_0) main_arg1
  let main_v74 : IVec S1600000 32 := shapeCast S1600000 main_v73 shapeCasts_S1x1600000_S1600000
  let main_c_27 : IVec S_ 32 := constantI S_ 32 100000#32
  let main_v75 : IVec S1600000 32 := broadcastInDim S1600000 ![] bcast_S_S1600000 main_c_27
  let main_v76 : IVec S1600000 1 := cmpi .slt main_v74 main_v75
  let main_v77 : IVec S1600000 1 := andi main_v72 main_v76
  let main_c_28 : IVec S_ 1 := constantI S_ 1 1#1
  let main_v78 : IVec S_ 1 := (fun x v => Host.reduce IntOp.andi x v reducesTo_S1600000_S_d0 h_S_) main_v77 main_c_28
  let main_v79 : IVec S_ 1 := andi main_v68 main_v78
  main_v79

def fn_part3 {F : FTy → Type} [FloatOps F] (main_arg1 : IVec S2x1600000 32) (main_arg13 : FVec F S768 .f32) (main_arg14 : FVec F S128x256 .f32) (main_arg15 : FVec F S128 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg13
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x1600000 32) (main_arg9 : FVec F S256 .f32) (main_arg10 : FVec F S768x256 .f32) (main_arg11 : FVec F S768x256 .f32) (main_arg12 : FVec F S768 .f32) (main_arg13 : FVec F S768 .f32) (main_arg14 : FVec F S128x256 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg10
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768x256 .f32 := Host.absf main_arg11
  let main_cst_16 : FVec F S_ .f32 := constant S_ .f32 0x7F800000#32
  let main_v45 : FVec F S768x256 .f32 := broadcastInDim S768x256 ![] bcast_S_S768x256 main_cst_16
  let main_v46 : IVec S768x256 1 := cmpf .olt main_v44 main_v45
  let main_c_17 : IVec S_ 1 := constantI S_ 1 1#1
  let main_v47 : IVec S_ 1 := (fun x v => Host.reduce IntOp.andi x v reducesTo_S768x256_S_d0_1 h_S_) main_v46 main_c_17
  let main_v48 : IVec S_ 1 := andi main_v43 main_v47
  let main_v49 : FVec F S768 .f32 := Host.absf main_arg12
  let main_cst_18 : FVec F S_ .f32 := constant S_ .f32 0x7F800000#32
  let main_v50 : FVec F S768 .f32 := broadcastInDim S768 ![] bcast_S_S768 main_cst_18
  fn_part3 (F := F) main_arg1 main_arg13 main_arg14 main_arg15 main_v48 main_v49 main_v50

def fn_part1 {F : FTy → Type} [FloatOps F] (main_arg1 : IVec S2x1600000 32) (main_arg6 : FVec F S256x384 .f32) (main_arg7 : FVec F S256 .f32) (main_arg8 : FVec F S256 .f32) (main_arg9 : FVec F S256 .f32) (main_arg10 : FVec F S768x256 .f32) (main_arg11 : FVec F S768x256 .f32) (main_arg12 : FVec F S768 .f32) (main_arg13 : FVec F S768 .f32) (main_arg14 : FVec F S128x256 .f32) (main_arg15 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S256x384 .f32 := Host.absf main_arg6
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S100000x128 .f32) (main_arg1 : IVec S2x1600000 32) (main_arg2 : FVec F S1600000x128 .f32) (main_arg3 : FVec F S1024x256 .f32) (main_arg4 : FVec F S1024x128 .f32) (main_arg5 : IVec S100000 32) (main_arg6 : FVec F S256x384 .f32) (main_arg7 : FVec F S256 .f32) (main_arg8 : FVec F S256 .f32) (main_arg9 : FVec F S256 .f32) (main_arg10 : FVec F S768x256 .f32) (main_arg11 : FVec F S768x256 .f32) (main_arg12 : FVec F S768 .f32) (main_arg13 : FVec F S768 .f32) (main_arg14 : FVec F S128x256 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x128 .f32 := Host.absf main_arg4
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S1024x256 : Shape := ⟨2, ![1024, 256]⟩
abbrev S1024x128 : Shape := ⟨2, ![1024, 128]⟩
abbrev S100000 : Shape := ⟨1, ![100000]⟩
abbrev S256x384 : Shape := ⟨2, ![256, 384]⟩
abbrev S256 : Shape := ⟨1, ![256]⟩
abbrev S768x256 : Shape := ⟨2, ![768, 256]⟩
abbrev S768 : Shape := ⟨1, ![768]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1024 : Shape := ⟨1, ![1024]⟩
abbrev S1280x128 : Shape := ⟨2, ![1280, 128]⟩
abbrev S1x1280 : Shape := ⟨2, ![1, 1280]⟩
abbrev S1024x1 : Shape := ⟨2, ![1024, 1]⟩
abbrev S1024x1280 : Shape := ⟨2, ![1024, 1280]⟩
abbrev S1120x128 : Shape := ⟨2, ![1120, 128]⟩
abbrev S101120x128 : Shape := ⟨2, ![101120, 128]⟩
abbrev S1120 : Shape := ⟨1, ![1120]⟩
abbrev S101120 : Shape := ⟨1, ![101120]⟩
abbrev S1x101120 : Shape := ⟨2, ![1, 101120]⟩
abbrev S1x256 : Shape := ⟨2, ![1, 256]⟩
abbrev S1x768 : Shape := ⟨2, ![1, 768]⟩
abbrev S1x128 : Shape := ⟨2, ![1, 128]⟩
abbrev S256x128 : Shape := ⟨2, ![256, 128]⟩
abbrev S256x768 : Shape := ⟨2, ![256, 768]⟩
abbrev S1024x768 : Shape := ⟨2, ![1024, 768]⟩

abbrev nBuf : Space → Nat
  | .hbm => 72
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S1024x256, .f32⟩
  | .hbm, ⟨4, _⟩ => ⟨S1024x128, .f32⟩
  | .hbm, ⟨5, _⟩ => ⟨S100000, .i32⟩
  | .hbm, ⟨6, _⟩ => ⟨S256x384, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S768x256, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S128x256, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1x1600000, .i32⟩
  | .hbm, ⟨41, _⟩ => ⟨S1024x128, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024x128, .f32⟩
  | .hbm, ⟨48, _⟩ => ⟨S1024x128, .f32⟩
  | .hbm, ⟨49, _⟩ => ⟨S_, .f32⟩
  | .hbm, ⟨50, _⟩ => ⟨S1120x128, .f32⟩
  | .hbm, ⟨51, _⟩ => ⟨S101120x128, .f32⟩
  | .hbm, ⟨52, _⟩ => ⟨S_, .i32⟩
  | .hbm, ⟨53, _⟩ => ⟨S1120, .i32⟩
  | .hbm, ⟨54, _⟩ => ⟨S101120, .i32⟩
  | .hbm, ⟨55, _⟩ => ⟨S1x101120, .i32⟩
  | .hbm, ⟨56, _⟩ => ⟨S1024x128, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024x1, .f32⟩
  | .hbm, ⟨62, _⟩ => ⟨S1024x128, .f32⟩
  | .hbm, ⟨63, _⟩ => ⟨S1024x128, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x768, .f32⟩
  | .hbm, ⟨68, _⟩ => ⟨S1x768, .f32⟩
  | .hbm, ⟨69, _⟩ => ⟨S1x128, .f32⟩
  | .hbm, ⟨70, _⟩ => ⟨S1024x128, .f32⟩
  | .hbm, ⟨71, _⟩ => ⟨S1024x256, .f32⟩
  | .local _ .vmem, ⟨0, _⟩ => ⟨S1280x128, .f32⟩
  | .local _ .vmem, ⟨1, _⟩ => ⟨S1280x128, .f32⟩
  | .local _ .vmem, ⟨2, _⟩ => ⟨S1x1280, .i32⟩
  | .local _ .vmem, ⟨3, _⟩ => ⟨S1x1280, .i32⟩
  | .local _ .vmem, ⟨4, _⟩ => ⟨S1024x128, .f32⟩
  | .local _ .vmem, ⟨5, _⟩ => ⟨S1024, .f32⟩
  | .local _ .vmem, ⟨6, _⟩ => ⟨S1280x128, .f32⟩
  | .local _ .vmem, ⟨7, _⟩ => ⟨S1280x128, .f32⟩
  | .local _ .vmem, ⟨8, _⟩ => ⟨S1x1280, .i32⟩
  | .local _ .vmem, ⟨9, _⟩ => ⟨S1x1280, .i32⟩
  | .local _ .vmem, ⟨10, _⟩ => ⟨S1024x128, .f32⟩
  | .local _ .vmem, ⟨11, _⟩ => ⟨S1024, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x256, .f32⟩
  | .local _ .vmem, ⟨16, _⟩ => ⟨S256x384, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S768x256, .f32⟩
  | .local _ .vmem, ⟨21, _⟩ => ⟨S768x256, .f32⟩
  | .local _ .vmem, ⟨22, _⟩ => ⟨S1x768, .f32⟩
  | .local _ .vmem, ⟨23, _⟩ => ⟨S1x768, .f32⟩
  | .local _ .vmem, ⟨24, _⟩ => ⟨S128x256, .f32⟩
  | .local _ .vmem, ⟨25, _⟩ => ⟨S1x128, .f32⟩
  | .local _ .vmem, ⟨26, _⟩ => ⟨S1024x128, .f32⟩
  | .local _ .vmem, ⟨27, _⟩ => ⟨S1024x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_c_4 : Ref sig .tc := ⟨.hbm, 37, rfl⟩
abbrev main_call0_v14 : Ref sig .tc := ⟨.hbm, 38, rfl⟩
abbrev main_v2 : Ref sig .tc := ⟨.hbm, 39, rfl⟩
abbrev main_v3 : Ref sig .tc := ⟨.hbm, 40, rfl⟩
abbrev main_v4_0 : Ref sig .tc := ⟨.hbm, 41, rfl⟩
abbrev main_v4_1 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_cst_0 : Ref sig .tc := ⟨.hbm, 49, rfl⟩
abbrev main_v10 : Ref sig .tc := ⟨.hbm, 50, rfl⟩
abbrev main_v11 : Ref sig .tc := ⟨.hbm, 51, rfl⟩
abbrev main_c : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15_0 : Ref sig .tc := ⟨.hbm, 56, rfl⟩
abbrev main_v15_1 : Ref sig .tc := ⟨.hbm, 57, rfl⟩
abbrev main_cst_1 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27_0 : Ref sig .tc := ⟨.hbm, 70, rfl⟩
abbrev main_v27_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc2_stg14_0 : Ref sig .tc := ⟨.vmem, 26, rfl⟩
abbrev cc2_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc2_sem14_0 : DmaSem sig := 26
abbrev cc2_sem15_0 : DmaSem sig := 27

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1280 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S768x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S768x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x768 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1024x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1024x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S1600000_S1x1600000 : S1600000.ShapeCasts S1x1600000
  inb_S1024x128_S1024x128_0_0 : ∀ a, (![0, 0] : Fin 2 → Nat) a + S1024x128.size a ≤ S1024x128.size a
  h_S1024x128 : 0 < S1024x128.numel
  inb_S1024_S1024_0 : ∀ a, (![0] : Fin 1 → Nat) a + S1024.size a ≤ S1024.size a
  h_S1024 : 0 < S1024.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S1024x1_d0_w32 : S1024x1.Iotas .tc 32 [0]
  broadcasts_S1024x1_S1024x1280 : S1024x1.Broadcasts S1024x1280
  broadcasts_S1x1280_S1024x1280 : S1x1280.Broadcasts S1024x1280
  natLt_1_32 : 1 < 32
  inb_S1280x128_S1280x128_0_0 : ∀ a, (![0, 0] : Fin 2 → Nat) a + S1280x128.size a ≤ S1280x128.size a
  h_S1280x128 : 0 < S1280x128.numel
  bitsLt_bf16_f32 : FTy.bits .bf16 < FTy.bits .f32
  shapeCasts_S1024x128_S1024x128 : S1024x128.ShapeCasts S1024x128
  shapeCasts_S1024_S1024 : S1024.ShapeCasts S1024
  reduces_S1024x1280_S1024 : S1024x1280.Reduces [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S_S1120x128 : S_.BroadcastsInDim S1120x128 (![] : Fin 0 → Fin S1120x128.rank)
  concatenates_S100000x128_S1120x128_S101120x128_d0 : Shape.Concatenates [S100000x128, S1120x128] S101120x128 0
  bcast_S_S1120 : S_.BroadcastsInDim S1120 (![] : Fin 0 → Fin S1120.rank)
  concatenates_S100000_S1120_S101120_d0 : Shape.Concatenates [S100000, S1120] S101120 0
  shapeCasts_S101120_S1x101120 : S101120.ShapeCasts S1x101120
  shapeCasts_S1280x128_S1280x128 : S1280x128.ShapeCasts S1280x128
  shapeCasts_S256_S1x256 : S256.ShapeCasts S1x256
  shapeCasts_S768_S1x768 : S768.ShapeCasts S1x768
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  inb_S256x384_S256x384_0_0 : ∀ a, (![0, 0] : Fin 2 → Nat) a + S256x384.size a ≤ S256x384.size a
  h_S256x384 : 0 < S256x384.numel
  slices_S256x384_o0_0_S256x128 : S256x384.Slices ![0, 0] S256x128
  slices_S256x384_o0_128_S256x128 : S256x384.Slices ![0, 128] S256x128
  slices_S256x384_o0_256_S256x128 : S256x384.Slices ![0, 256] S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S768x256_S768x256_0_0 : ∀ a, (![0, 0] : Fin 2 → Nat) a + S768x256.size a ≤ S768x256.size a
  h_S768x256 : 0 < S768x256.numel
  transposes_S768x256_p1_0_S256x768 : S768x256.Transposes [1, 0] S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  gather_S100000_S1600000x1_S1600000_n_0_n_n_0_1_1_wf : GatherDims.WF S100000 S1600000x1 S1600000 [] [0] [] [0] [] 1 ![1]
  dot_S1024x1280_S1280x128_S1024x128_1_0_0_1_n_n_wf : DotDims.WF S1024x1280 S1280x128 S1024x128 [1] [0] [0] [1] [] []
  dot_S1024x128_S128x256_S1024x256_1_0_0_1_n_n_wf : DotDims.WF S1024x128 S128x256 S1024x256 [1] [0] [0] [1] [] []
  dot_S1024x256_S256x768_S1024x768_1_0_0_1_n_n_wf : DotDims.WF S1024x256 S256x768 S1024x768 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S1600000x128.size a
  hwx0_0 : ∀ i : grid0.Coords, EltTy.bits .f32 = 32 ∨ (Rect.block (s := S1600000x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x1600000.size a
  hwx0_1 : ∀ i : grid0.Coords, EltTy.bits .i32 = 32 ∨ (Rect.block (s := S1x1600000) S1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S101120x128.size a
  hwx1_0 : ∀ i : grid1.Coords, EltTy.bits .f32 = 32 ∨ (Rect.block (s := S101120x128) S1280x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1280.size a ≤ S1x101120.size a
  hwx1_1 : ∀ i : grid1.Coords, EltTy.bits .i32 = 32 ∨ (Rect.block (s := S1x101120) S1x1280.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S1024x256.size a
  hwx2_3 : ∀ i : grid2.Coords, EltTy.bits .f32 = 32 ∨ (Rect.block (s := S1024x256) S1024x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x384.size a ≤ S256x384.size a
  hwx2_4 : ∀ i : grid2.Coords, EltTy.bits .f32 = 32 ∨ (Rect.block (s := S256x384) S256x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S768x256.size a ≤ S768x256.size a
  hwx2_8 : ∀ i : grid2.Coords, EltTy.bits .f32 = 32 ∨ (Rect.block (s := S768x256) S768x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S768x256.size a ≤ S768x256.size a
  hwx2_9 : ∀ i : grid2.Coords, EltTy.bits .f32 = 32 ∨ (Rect.block (s := S768x256) S768x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x768.size a ≤ S1x768.size a
  hwx2_10 : ∀ i : grid2.Coords, EltTy.bits .f32 = 32 ∨ (Rect.block (s := S1x768) S1x768.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x768.size a ≤ S1x768.size a
  hwx2_11 : ∀ i : grid2.Coords, EltTy.bits .f32 = 32 ∨ (Rect.block (s := S1x768) S1x768.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x256.size a ≤ S128x256.size a
  hwx2_12 : ∀ i : grid2.Coords, EltTy.bits .f32 = 32 ∨ (Rect.block (s := S128x256) S128x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1024x128.size a ≤ S1024x128.size a
  hwx2_14 : ∀ i : grid2.Coords, EltTy.bits .f32 = 32 ∨ (Rect.block (s := S1024x128) S1024x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1024x256.size a ≤ S1024x256.size a
  hwx2_15 : ∀ i : grid2.Coords, EltTy.bits .f32 = 32 ∨ (Rect.block (s := S1024x256) S1024x256.size (cc2_transform_15 i) (hinb2_15 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1024x1280_S1280x128_S1024x128_1_0_0_1_n_n : DotDims S1024x1280 S1280x128 S1024x128 where
  lhsContracting := [1]
  rhsContracting := [0]
  lhsNonContracting := [0]
  rhsNonContracting := [1]
  lhsBatch := []
  rhsBatch := []
  wf := dot_S1024x1280_S1280x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg2) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1024x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_0) S1024x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1024x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S256x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S768x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S768x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v24) S1x768.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v25) S1x768.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg14) S128x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v26) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v27_0) S1024x128.size cc2_transform_14 reads2_14 true true 1 stage2_14 sem2_14
    hrank2 hreads2_14 hinb2_14 nbuf2_14 (Memref.isWhole_whole _) hwx2_14 hstage2_14

abbrev win2_15 : Pipeline.Window sig grid2 :=
  Pipeline.Window.ofSpec (Memref.whole main_v27_1) S1024x256.size cc2_transform_15 reads2_15 true true 1 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S1024x256 : Shape := ⟨2, ![1024, 256]⟩
abbrev S1024x128 : Shape := ⟨2, ![1024, 128]⟩
abbrev S100000 : Shape := ⟨1, ![100000]⟩
abbrev S256x384 : Shape := ⟨2, ![256, 384]⟩
abbrev S256 : Shape := ⟨1, ![256]⟩
abbrev S768x256 : Shape := ⟨2, ![768, 256]⟩
abbrev S768 : Shape := ⟨1, ![768]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1024 : Shape := ⟨1, ![1024]⟩
abbrev S1024x1 : Shape := ⟨2, ![1024, 1]⟩
abbrev S100000x1 : Shape := ⟨2, ![100000, 1]⟩
abbrev S1024x384 : Shape := ⟨2, ![1024, 384]⟩
abbrev S384x256 : Shape := ⟨2, ![384, 256]⟩
abbrev S1x256 : Shape := ⟨2, ![1, 256]⟩
abbrev S256x768 : Shape := ⟨2, ![256, 768]⟩
abbrev S1024x768 : Shape := ⟨2, ![1024, 768]⟩
abbrev S1x768 : Shape := ⟨2, ![1, 768]⟩
abbrev S256x128 : Shape := ⟨2, ![256, 128]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S1600000x128, .f32⟩
  | 3 => ⟨S1024x256, .f32⟩
  | 4 => ⟨S1024x128, .f32⟩
  | 5 => ⟨S100000, .i32⟩
  | 6 => ⟨S256x384, .f32⟩
  | 7 => ⟨S256, .f32⟩
  | 8 => ⟨S256, .f32⟩
  | 9 => ⟨S256, .f32⟩
  | 10 => ⟨S768x256, .f32⟩
  | 11 => ⟨S768x256, .f32⟩
  | 12 => ⟨S768, .f32⟩
  | 13 => ⟨S768, .f32⟩
  | 14 => ⟨S128x256, .f32⟩
  | 15 => ⟨S128, .f32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .i32⟩
  | 27 => ⟨S_, .f32⟩
  | 28 => ⟨S1024x128, .f32⟩
  | 29 => ⟨S1600000x1, .i32⟩
  | 30 => ⟨S1024x128, .f32⟩
  | 31 => ⟨S_, .f32⟩
  | 32 => ⟨S1600000, .f32⟩
  | 33 => ⟨S_, .f32⟩
  | 34 => ⟨S1024, .f32⟩
  | 35 => ⟨S1600000x1, .i32⟩
  | 36 => ⟨S1024, .f32⟩
  | 37 => ⟨S_, .f32⟩
  | 38 => ⟨S1024, .f32⟩
  | 39 => ⟨S1024, .f32⟩
  | 40 => ⟨S1024x1, .f32⟩
  | 41 => ⟨S1024x128, .f32⟩
  | 42 => ⟨S1024x128, .f32⟩
  | 43 => ⟨S_, .f32⟩
  | 44 => ⟨S1024x128, .f32⟩
  | 45 => ⟨S100000x1, .i32⟩
  | 46 => ⟨S1024x128, .f32⟩
  | 47 => ⟨S_, .f32⟩
  | 48 => ⟨S100000, .f32⟩
  | 49 => ⟨S_, .f32⟩
  | 50 => ⟨S1024, .f32⟩
  | 51 => ⟨S100000x1, .i32⟩
  | 52 => ⟨S1024, .f32⟩
  | 53 => ⟨S_, .f32⟩
  | 54 => ⟨S1024, .f32⟩
  | 55 => ⟨S1024, .f32⟩
  | 56 => ⟨S1024x1, .f32⟩
  | 57 => ⟨S1024x128, .f32⟩
  | 58 => ⟨S1024x128, .f32⟩
  | 59 => ⟨S1024x384, .f32⟩
  | 60 => ⟨S384x256, .f32⟩
  | 61 => ⟨S1024x256, .f32⟩
  | 62 => ⟨S1x256, .f32⟩
  | 63 => ⟨S1024x256, .f32⟩
  | 64 => ⟨S1024x256, .f32⟩
  | 65 => ⟨S_, .f32⟩
  | 66 => ⟨S1024, .f32⟩
  | 67 => ⟨S1024x1, .f32⟩
  | 68 => ⟨S_, .f32⟩
  | 69 => ⟨S1024x1, .f32⟩
  | 70 => ⟨S1024x1, .f32⟩
  | 71 => ⟨S1024x256, .f32⟩
  | 72 => ⟨S1024x256, .f32⟩
  | 73 => ⟨S1024x256, .f32⟩
  | 74 => ⟨S_, .f32⟩
  | 75 => ⟨S1024, .f32⟩
  | 76 => ⟨S1024x1, .f32⟩
  | 77 => ⟨S_, .f32⟩
  | 78 => ⟨S1024x1, .f32⟩
  | 79 => ⟨S1024x1, .f32⟩
  | 80 => ⟨S1024x256, .f32⟩
  | 81 => ⟨S1024x256, .f32⟩
  | 82 => ⟨S_, .f32⟩
  | 83 => ⟨S1024x1, .f32⟩
  | 84 => ⟨S1024x1, .f32⟩
  | 85 => ⟨S1024x1, .f32⟩
  | 86 => ⟨S1024x256, .f32⟩
  | 87 => ⟨S1024x256, .f32⟩
  | 88 => ⟨S1x256, .f32⟩
  | 89 => ⟨S1024x256, .f32⟩
  | 90 => ⟨S1024x256, .f32⟩
  | 91 => ⟨S1x256, .f32⟩
  | 92 => ⟨S1024x256, .f32⟩
  | 93 => ⟨S1024x256, .f32⟩
  | 94 => ⟨S_, .f32⟩
  | 95 => ⟨S1024x256, .f32⟩
  | 96 => ⟨S1024x256, .f32⟩
  | 97 => ⟨S256x768, .f32⟩
  | 98 => ⟨S1024x768, .f32⟩
  | 99 => ⟨S1x768, .f32⟩
  | 100 => ⟨S1024x768, .f32⟩
  | 101 => ⟨S1024x768, .f32⟩
  | 102 => ⟨S256x768, .f32⟩
  | 103 => ⟨S1024x768, .f32⟩
  | 104 => ⟨S1x768, .f32⟩
  | 105 => ⟨S1024x768, .f32⟩
  | 106 => ⟨S1024x768, .f32⟩
  | 107 => ⟨S1024x256, .f32⟩
  | 108 => ⟨S1024x256, .f32⟩
  | 109 => ⟨S1024x256, .f32⟩
  | 110 => ⟨S1024x256, .f32⟩
  | 111 => ⟨S1024x256, .f32⟩
  | 112 => ⟨S1024x256, .f32⟩
  | 113 => ⟨S1024x256, .f32⟩
  | 114 => ⟨S1024x256, .f32⟩
  | 115 => ⟨S1024x256, .f32⟩
  | 116 => ⟨S_, .f32⟩
  | 117 => ⟨S1024x256, .f32⟩
  | 118 => ⟨S1024x256, .f32⟩
  | 119 => ⟨S_, .f32⟩
  | 120 => ⟨S1024x256, .f32⟩
  | 121 => ⟨S1024x256, .f32⟩
  | 122 => ⟨S1024x256, .f32⟩
  | 123 => ⟨S1024x256, .f32⟩
  | 124 => ⟨S1024x256, .f32⟩
  | 125 => ⟨S_, .f32⟩
  | 126 => ⟨S1024x256, .f32⟩
  | 127 => ⟨S1024x256, .f32⟩
  | _ => ⟨S100000x128, .f32⟩

abbrev hbmTy0_1 (i : Nat) : BufTy := match i % 128 with
  | 0 => ⟨S_, .f32⟩
  | 1 => ⟨S1024x256, .f32⟩
  | 2 => ⟨S1024x256, .f32⟩
  | 3 => ⟨S1024x256, .f32⟩
  | 4 => ⟨S1024x256, .f32⟩
  | 5 => ⟨S1024x256, .f32⟩
  | 6 => ⟨S_, .f32⟩
  | 7 => ⟨S1024x256, .f32⟩
  | 8 => ⟨S1024x256, .f32⟩
  | 9 => ⟨S1024x256, .f32⟩
  | 10 => ⟨S1024x256, .f32⟩
  | 11 => ⟨S1024x256, .f32⟩
  | 12 => ⟨S256x128, .f32⟩
  | 13 => ⟨S1024x128, .f32⟩
  | 14 => ⟨S1x128, .f32⟩
  | 15 => ⟨S1024x128, .f32⟩
  | 16 => ⟨S1024x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call0_cst : Ref sig .tc := ⟨.hbm, 94, rfl⟩
abbrev main_call0_v0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_13 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_cst_16 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S100000_S100000x1_0 : S100000.BroadcastsInDim S100000x1 (![0] : Fin 1 → Fin S100000x1.rank)
  bcast_S_S100000 : S_.BroadcastsInDim S100000 (![] : Fin 0 → Fin S100000.rank)
  concatenates_S1024x128_S1024x128_S1024x128_S1024x384_d1 : Shape.Concatenates [S1024x128, S1024x128, S1024x128] S1024x384 1
  transposes_S256x384_S384x256_1_0 : S256x384.Transposes [1, 0] S384x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  h_S_ : 0 < S_.numel
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  transposes_S768x256_S256x768_1_0 : S768x256.Transposes [1, 0] S256x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  gather_S100000_S1600000x1_S1600000_n_0_n_n_0_1_1_wf : GatherDims.WF S100000 S1600000x1 S1600000 [] [0] [] [0] [] 1 ![1]
  scatter_S1024x128_S1600000x1_S1600000x128_1_0_0_1_wf : ScatterDims.WF S1024x128 S1600000x1 S1600000x128 [1] [0] [0] 1
  scatter_S1024_S1600000x1_S1600000_n_0_0_1_wf : ScatterDims.WF S1024 S1600000x1 S1600000 [] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x384_S384x256_S1024x256_1_0_0_1_n_n_wf : DotDims.WF S1024x384 S384x256 S1024x256 [1] [0] [0] [1] [] []
  dot_S1024x256_S256x768_S1024x768_1_0_0_1_n_n_wf : DotDims.WF S1024x256 S256x768 S1024x768 [1] [0] [0] [1] [] []
  dot_S1024x256_S256x128_S1024x128_1_0_0_1_n_n_wf : DotDims.WF S1024x256 S256x128 S1024x128 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S1024x128_S1600000x1_S1600000x128_1_0_0_1 : ScatterDims S1024x128 S1600000x1 S1600000x128 where
  updateWindowDims := [1]
  insertedWindowDims := [0]
  scatterDimsToOperandDims := [0]
  indexVectorDim := 1
  wf := scatter_S1024x128_S1600000x1_S1600000x128_1_0_0_1_wf
def scatter_S1024_S1600000x1_S1600000_n_0_0_1 : ScatterDims S1024 S1600000x1 S1600000 where
  updateWindowDims := []
  insertedWindowDims := [0]
  scatterDimsToOperandDims := [0]
  indexVectorDim := 1
  wf := scatter_S1024_S1600000x1_S1600000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.Spec.lean ====
/-
  The mathematics both programs compute after the two segment means, as functions over the extended reals, index by
  index: a linear layer `x · wᵀ + b`; the first layer over the three column blocks `[u | aₙ | aₑ]` of its input; the
  row normalisation (mean and variance over the 256 columns, the scale `(var + ε)^(-1/2)`, the affine map) followed by
  `max · 0`; and one step of a gated recurrent cell (reset gate `r`, update gate `z`, candidate `n`,
  `h' = (1 - z) · n + z · h`) over the three 256-column blocks of the two 768-column gate arrays.
-/
import Idealize.ShloMosaic.PureOps.Ideal
import Idealize.ShloMosaic.Lib.ValueIdx

noncomputable section

namespace Cert.Spec

open Idealize.ShloMosaic Idealize.ShloMosaic.ValueIdx
open scoped BigOperators

/-- An `n × m` array of extended reals. -/
abbrev Mat (n m : ℕ) := (⟨2, ![n, m]⟩ : Shape).Idx → EReal
/-- A vector of `n` extended reals. -/
abbrev Vc (n : ℕ) := (⟨1, ![n]⟩ : Shape).Idx → EReal

/-- The column `o + q` of a `d`-column array, for `q` in a block of `w` columns that fits. -/
abbrev col {d : ℕ} (o w : ℕ) (h : o + w ≤ d) (q : Fin w) : Fin d := ⟨o + q.val, by have := q.isLt; omega⟩

/-- A linear layer: row `i₀` of `x` against row `i₁` of `w`, plus the bias. -/
def lin {n k m : ℕ} (x : Mat n k) (w : Mat m k) (b : Vc m) : Mat n m := fun i =>
  (∑ q : Fin k, x (ix2 (i 0) q) * w (ix2 (i 1) q)) + b (ix1 (i 1))

/-- The first layer on the row `[u | aₙ | aₑ]`: three 128-term sums against the three column blocks of `w`. -/
def lin3 (u an ae : Mat 1024 128) (w : Mat 256 384) (b : Vc 256) : Mat 1024 256 := fun i =>
  ((∑ q : Fin 128, u (ix2 (i 0) q) * w (ix2 (i 1) (col 0 128 (by decide) q)))
    + (∑ q : Fin 128, an (ix2 (i 0) q) * w (ix2 (i 1) (col 128 128 (by decide) q)))
    + (∑ q : Fin 128, ae (ix2 (i 0) q) * w (ix2 (i 1) (col 256 128 (by decide) q))))
  + b (ix1 (i 1))

/-- The float words the two programs share: 256, the normalisation's ε, and 1. -/
abbrev c256 : EReal := Ideal.ofBits .f32 0x43800000#32
abbrev ceps : EReal := Ideal.ofBits .f32 0x3727C5AC#32
abbrev cone : EReal := Ideal.ofBits .f32 0x3F800000#32

/-- The mean of row `r`. -/
def mean (z : Mat 1024 256) (r : Fin 1024) : EReal := Ideal.div (∑ q : Fin 256, z (ix2 r q)) c256

/-- The variance of row `r`: the mean of the squared deviations. -/
def var (z : Mat 1024 256) (r : Fin 1024) : EReal :=
  Ideal.div (∑ q : Fin 256, (z (ix2 r q) - mean z r) * (z (ix2 r q) - mean z r)) c256

/-- Row normalisation, affine map, then `max · 0`. -/
def normRelu (z : Mat 1024 256) (g be : Vc 256) : Mat 1024 256 := fun i =>
  max ((z i - mean z (i 0)) * Ideal.rsqrt (var z (i 0) + ceps) * g (ix1 (i 1)) + be (ix1 (i 1))) 0

/-- One step of the gated cell: the gates read the column blocks `[0, 256)`, `[256, 512)`, `[512, 768)`. -/
def cell (gi gh : Mat 1024 768) (h : Mat 1024 256) : Mat 1024 256 := fun i =>
  let r := Ideal.logistic (gi (ix2 (i 0) (col 0 256 (by decide) (i 1))) + gh (ix2 (i 0) (col 0 256 (by decide) (i 1))))
  let zg := Ideal.logistic (gi (ix2 (i 0) (col 256 256 (by decide) (i 1))) + gh (ix2 (i 0) (col 256 256 (by decide) (i 1))))
  let n := Ideal.tanh (gi (ix2 (i 0) (col 512 256 (by decide) (i 1))) + r * gh (ix2 (i 0) (col 512 256 (by decide) (i 1))))
  (cone - zg) * n + zg * h i

/-- The new hidden state, from the three inputs of the first layer, the old state and the parameters. -/
def hnew (u an ae : Mat 1024 128) (h : Mat 1024 256) (w1 : Mat 256 384) (b1 g be : Vc 256)
    (wih whh : Mat 768 256) (bih bhh : Vc 768) : Mat 1024 256 :=
  cell (lin (normRelu (lin3 u an ae w1 b1) g be) wih bih) (lin h whh bhh) h

/-- The output: a linear layer on the new hidden state. -/
def out (u an ae : Mat 1024 128) (h : Mat 1024 256) (w1 : Mat 256 384) (b1 g be : Vc 256)
    (wih whh : Mat 768 256) (bih bhh : Vc 768) (w2 : Mat 128 256) (b2 : Vc 128) : Mat 1024 128 :=
  lin (hnew u an ae h w1 b1 g be wih whh bih bhh) w2 b2

/-- A `1 × n` array read as a vector. -/
def row {n : ℕ} (x : Mat 1 n) : Vc n := fun j => x (ix2 0 (j 0))

/-- The rows `batch[idx e]` of a table of `N` words read at `E` index words that are in range (a word outside the
    range reads `0`; under the precondition there is none). -/
def takeSeg {E N : ℕ} (idx : Fin E → BitVec 32) (batch : Fin N → BitVec 32) (e : Fin E) : BitVec 32 :=
  if h : (idx e).toNat < N then batch ⟨(idx e).toNat, h⟩ else 0#32

/-- A segment mean: the segment's sum over `max (count, 1)`. -/
def segMean (s : Mat 1024 128) (cnt : Vc 1024) : Mat 1024 128 := fun i =>
  Ideal.div (s i) (max (cnt (ix1 (i 0))) cone)

end Cert.Spec

end
-- ==== Proof.PreRange.lean ====
/-
  The precondition's last conjunct, decoded: every word of the first row of `edge_index` is an index into `batch`.
-/
import proofs.«406655_j37177236914577_1_alg».proof.Proof.Gen.Pre_finite_inputs
import proofs.«406655_j37177236914577_1_alg».proof.Proof.Spec
import Idealize.ShloMosaic.Lib.ReduceAll
import Idealize.ShloMosaic.Lib.Pipeline.Value
import Idealize.ShloMosaic.Lib.ValueLayout
import Idealize.ShloMosaic.Lib.StableHlo.Predicate

noncomputable section

namespace Cert.Pre_finite_inputs.Range

open Idealize.ShloMosaic Idealize.ShloMosaic.ValueIdx Cert.Pre_finite_inputs

instance : Subsingleton S_.Idx := ⟨fun a b => funext fun d => d.elim0⟩

/-- A word that tests `0 ≤ w` and `w < 100000` signed has its top bit clear, so its unsigned value is its signed one,
    below 100000. -/
private theorem toNat_lt_of_signed_range (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have hlt : 2 * w.toNat < 2 ^ 32 := BitVec.toInt_pos_iff.1 h0
  rw [BitVec.toInt_eq_toNat_of_lt hlt] at h1
  omega

theorem row_range
    (a0 : FVec Ideal S100000x128 .f32) (a1 : IVec S2x1600000 32) (a2 : FVec Ideal S1600000x128 .f32) (a3 : FVec Ideal S1024x256 .f32)
    (a4 : FVec Ideal S1024x128 .f32) (a5 : IVec S100000 32) (a6 : FVec Ideal S256x384 .f32) (a7 a8 a9 : FVec Ideal S256 .f32)
    (a10 a11 : FVec Ideal S768x256 .f32) (a12 a13 : FVec Ideal S768 .f32) (a14 : FVec Ideal S128x256 .f32) (a15 : FVec Ideal S128 .f32)
    (h : Cert.Pre_finite_inputs.fn (F := Ideal) a0 a1 a2 a3 a4 a5 a6 a7 a8 a9 a10 a11 a12 a13 a14 a15 = fun _ => 1#1)
    (e : Fin 1600000) : (a1 (ix2 0 e)).toNat < 100000 := by
  -- the predicate's one word is the conjunction of the running conjunction with the range test reduced over every e
  have h0 := congrFun h ValueIdx.ix0
  dsimp only [fn, fn_part1, fn_part2, fn_part3, fn_part4] at h0
  have hall := (IntOp.andi_eq_one.1 h0).2
  -- the reduction by `and` is 1, so the test is 1 at e
  have he := Host.reduce_andi_all _ _ _ _ _ hall (ix1 e)
  obtain ⟨hge, hlt⟩ := IntOp.andi_eq_one.1 he
  -- the word both tests compare is row 0 of the index array at column e
  have hw : shapeCast S1600000 (extractStridedSlice S1x1600000 ![0, 0] a1 Facts.slices_S2x1600000_S1x1600000_0_0)
      Facts.shapeCasts_S1x1600000_S1600000 (ix1 e) = a1 (ix2 0 e) := by
    rw [shapeCast_1a_a_apply]
    refine extractStridedSlice_apply _ _ _ _ _ fun a => ?_
    match a with
    | ⟨0, _⟩ => rfl
    | ⟨1, _⟩ => exact (Nat.zero_add _).symm
  exact toNat_lt_of_signed_range _ (hw ▸ hge) (hw ▸ hlt)

end Cert.Pre_finite_inputs.Range

end
-- ==== Proof.SegSum.lean ====
/-
  Segment sums over the extended reals: for `T` rows, each tagged with a 32-bit segment word, the sum of the rows whose
  tag is the word of segment `b`, and the number of such rows; a sum over all rows taken tile by tile; and rows
  appended under a tag no segment has.
-/
import Mathlib.Data.EReal.Basic
import Mathlib.Algebra.BigOperators.Fin

noncomputable section

namespace Cert.SegSum

open scoped BigOperators

/-- The rows of segment `b`, summed: `∑ t, [seg t = b] · v t f`, the test on the 32-bit word of `b`. -/
def segSum {T B D : ℕ} (seg : Fin T → BitVec 32) (v : Fin T → Fin D → EReal) (b : Fin B) (f : Fin D) : EReal :=
  ∑ t : Fin T, if seg t = BitVec.ofNat 32 b.val then v t f else 0

/-- The number of rows of segment `b`, as an extended real. -/
def segCnt {T B : ℕ} (seg : Fin T → BitVec 32) (b : Fin B) : EReal :=
  ∑ t : Fin T, if seg t = BitVec.ofNat 32 b.val then (1 : EReal) else 0

/-- Row `k` of tile `j`, of `J` tiles of `K` rows each. -/
def tileIdx {J K T : ℕ} (hT : T = J * K) (j : Fin J) (k : Fin K) : Fin T :=
  ⟨K * j.val + k.val, by
    have hj := j.isLt; have hk := k.isLt
    calc K * j.val + k.val < K * j.val + K := by omega
      _ = K * (j.val + 1) := by ring
      _ ≤ K * J := Nat.mul_le_mul_left K hj
      _ = T := by rw [hT, Nat.mul_comm]⟩

/-- A sum over all rows is the sum, over the tiles, of the sums over each tile's rows. -/
theorem sum_tiles {M : Type*} [AddCommMonoid M] {J K T : ℕ} (hT : T = J * K) (g : Fin T → M) :
    ∑ j : Fin J, ∑ k : Fin K, g (tileIdx hT j k) = ∑ t : Fin T, g t := by
  subst hT
  rw [← finProdFinEquiv.sum_comp g, Fintype.sum_prod_type]
  refine Finset.sum_congr rfl fun j _ => Finset.sum_congr rfl fun k _ => ?_
  congr 1
  apply Fin.ext
  simp only [tileIdx, finProdFinEquiv_apply_val]
  omega

/-- A sum over `T'` rows whose terms vanish from row `T` on is the sum over the first `T` rows. -/
private theorem sum_pad {M : Type*} [AddCommMonoid M] {T T' : ℕ} (hle : T ≤ T') (h : Fin T' → M)
    (h0 : ∀ t : Fin T', T ≤ t.val → h t = 0) :
    ∑ t : Fin T', h t = ∑ t : Fin T, h ⟨t.val, lt_of_lt_of_le t.isLt hle⟩ := by
  obtain ⟨d, rfl⟩ := Nat.exists_eq_add_of_le hle
  rw [Fin.sum_univ_add]
  have hz : ∑ i : Fin d, h (Fin.natAdd T i) = 0 :=
    Finset.sum_eq_zero fun i _ => h0 _ (by simp [Fin.natAdd])
  rw [hz, add_zero]
  rfl

/-- Rows appended under tags that are no segment's word change no segment's sum. -/
theorem segSum_pad {T T' B D : ℕ} (hle : T ≤ T') (seg : Fin T → BitVec 32) (seg' : Fin T' → BitVec 32)
    (v : Fin T → Fin D → EReal) (v' : Fin T' → Fin D → EReal)
    (hseg : ∀ t : Fin T, seg' ⟨t.val, lt_of_lt_of_le t.isLt hle⟩ = seg t)
    (hv : ∀ (t : Fin T) (f : Fin D), v' ⟨t.val, lt_of_lt_of_le t.isLt hle⟩ f = v t f)
    (hpad : ∀ t : Fin T', T ≤ t.val → ∀ b : Fin B, seg' t ≠ BitVec.ofNat 32 b.val) (b : Fin B) (f : Fin D) :
    segSum seg' v' b f = segSum seg v b f := by
  unfold segSum
  rw [sum_pad hle _ (fun t ht => if_neg (hpad t ht b))]
  refine Finset.sum_congr rfl fun t _ => ?_
  rw [hseg, hv]

/-- … and no segment's count. -/
theorem segCnt_pad {T T' B : ℕ} (hle : T ≤ T') (seg : Fin T → BitVec 32) (seg' : Fin T' → BitVec 32)
    (hseg : ∀ t : Fin T, seg' ⟨t.val, lt_of_lt_of_le t.isLt hle⟩ = seg t)
    (hpad : ∀ t : Fin T', T ≤ t.val → ∀ b : Fin B, seg' t ≠ BitVec.ofNat 32 b.val) (b : Fin B) :
    segCnt seg' b = segCnt seg b := by
  unfold segCnt
  rw [sum_pad hle _ (fun t ht => if_neg (hpad t ht b))]
  refine Finset.sum_congr rfl fun t _ => ?_
  rw [hseg]

end Cert.SegSum

end
-- ==== Proof.Closed.lean ====
/-
  The two segment means both programs feed to the cell, as closed forms of the argument arrays: the node mean over
  `batch`, and the edge mean over `batch` read at the first row of `edge_index`.
-/
import proofs.«406655_j37177236914577_1_alg».proof.Proof.Spec
import proofs.«406655_j37177236914577_1_alg».proof.Proof.SegSum

noncomputable section

namespace Cert.Closed

open Idealize.ShloMosaic Idealize.ShloMosaic.ValueIdx Cert.Spec Cert.SegSum

/-- The node mean: the rows of `x` averaged per segment of `batch`. -/
def aggN (x : Mat 100000 128) (batch : (⟨1, ![100000]⟩ : Shape).Idx → BitVec 32) : Mat 1024 128 :=
  segMean (fun i => segSum (fun t : Fin 100000 => batch (ix1 t)) (fun t f => x (ix2 t f)) (i 0) (i 1))
    (fun i => segCnt (B := 1024) (fun t : Fin 100000 => batch (ix1 t)) (i 0))

/-- The segment word of edge `e`: `batch` at the first-row word of `edge_index`. -/
abbrev eseg (ei : (⟨2, ![2, 1600000]⟩ : Shape).Idx → BitVec 32) (batch : (⟨1, ![100000]⟩ : Shape).Idx → BitVec 32) :
    Fin 1600000 → BitVec 32 :=
  takeSeg (fun e : Fin 1600000 => ei (ix2 0 e)) (fun n : Fin 100000 => batch (ix1 n))

/-- The edge mean: the rows of `ea` averaged per segment of their source node. -/
def aggE (ea : Mat 1600000 128) (ei : (⟨2, ![2, 1600000]⟩ : Shape).Idx → BitVec 32)
    (batch : (⟨1, ![100000]⟩ : Shape).Idx → BitVec 32) : Mat 1024 128 :=
  segMean (fun i => segSum (eseg ei batch) (fun t f => ea (ix2 t f)) (i 0) (i 1))
    (fun i => segCnt (B := 1024) (eseg ei batch) (i 0))

end Cert.Closed

end
-- ==== Proof.SegK0.lean ====
/-
  The edge scatter kernel's value: over its 1250 grid points the two carried output blocks hold the running segment
  sums and segment counts of the tiles seen so far, so after the last point the result arrays are the segment sums
  and counts of all 1,600,000 rows.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.SegK0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The segment word of row `t`, as the region finds it. -/
abbrev seg (c : Dev nD) (t : Fin 1600000) : BitVec 32 := V c main_v3 (ix2 0 t)
/-- Row `t`, column `f` of the values, as the region finds them. -/
abbrev val (c : Dev nD) (t : Fin 1600000) (f : Fin 128) : EReal := V c main_arg2 (ix2 t f)

/-! ## What each case of the body leaves in the two result blocks, for any float values -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A point after the first leaves in the sums block the carried block plus the tile's product. -/
theorem out_B_2 (c : Dev nD) (i : grid0.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : ¬cond0_0 i)
    (x0 : Vec F S1280x128 .f32) (x1 : Vec F S1x1280 .i32) (xo2 : Vec F S1024x128 .f32) (xo3 : Vec F S1024 .f32) :
    out0_B_2 c i a1 h1 a2 h2 a3 h3 a4 h4 hc x0 x1 xo2 xo3 = k0_pay4 x1 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, View.ld_unit_zero (S := S1280x128) hz2,
    View.ld_unit_zero (S := S1x1280) hz2, View.ld_unit_zero (S := S1024x128) hz2, shapeCast_self]

/-- … and in the counts block the carried block plus the tile's row sums. -/
theorem out_B_3 (c : Dev nD) (i : grid0.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : ¬cond0_0 i)
    (x0 : Vec F S1280x128 .f32) (x1 : Vec F S1x1280 .i32) (xo2 : Vec F S1024x128 .f32) (xo3 : Vec F S1024 .f32) :
    out0_B_3 c i a1 h1 a2 h2 a3 h3 a4 h4 hc x0 x1 xo2 xo3 = k0_pay5 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz1]
  simp only [View.readAt_eq_ld, h2.read_unread, h4.read_unread, View.ld_unit_zero (S := S1x1280) hz2,
    View.ld_unit_zero (S := S1024) hz1, shapeCast_self]

/-- The first point stores zeros, reads them back, and leaves in the sums block zero plus the tile's product. -/
theorem out_A_2 (c : Dev nD) (i : grid0.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : cond0_0 i)
    (x0 : Vec F S1280x128 .f32) (x1 : Vec F S1x1280 .i32) :
    out0_A_2 c i a1 h1 a2 h2 a3 h3 a4 h4 hc x0 x1 = k0_pay4 x1 x0 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1024x128) hz2]
  simp only [View.readAt_eq_ld, h1.read_unread, h2.read_unread, View.ld_unit_zero (S := S1280x128) hz2,
    View.ld_unit_zero (S := S1x1280) hz2, View.readCov_unit_zero (S := S1024x128) _ hz2, shapeCast_self]

/-- … and in the counts block zero plus the tile's row sums. -/
theorem out_A_3 (c : Dev nD) (i : grid0.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : cond0_0 i)
    (x0 : Vec F S1280x128 .f32) (x1 : Vec F S1x1280 .i32) :
    out0_A_3 c i a1 h1 a2 h2 a3 h3 a4 h4 hc x0 x1 = k0_pay5 x1 k0_pay2 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1024) hz1]
  simp only [View.readAt_eq_ld, h2.read_unread, View.ld_unit_zero (S := S1x1280) hz2,
    View.readCov_unit_zero (S := S1024) _ hz1, shapeCast_self]

end Pieces

/-! ## The payloads at an index, over the extended reals -/

/-- The compare-widen-convert chain on two words: one when they are equal, else zero. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · have e : IntOp.cmpi .eq x y = 1#1 := by unfold IntOp.cmpi; simp [h]
    rw [e, if_pos h, show ((1#1 : BitVec 1).setWidth 32).toInt = 1 from by decide]
    simp
  · have e : IntOp.cmpi .eq x y = 0#1 := by
      unfold IntOp.cmpi; rw [show (x == y) = false from beq_eq_false_iff_ne.mpr h]; rfl
    rw [e, if_neg h, show ((0#1 : BitVec 1).setWidth 32).toInt = 0 from by decide]
    simp

/-- The iota column broadcast along the lanes reads the row's number. -/
theorem iota_col_apply (b : Fin 1024) (k : Fin 1280) :
    broadcastTo S1024x1280 (iota .tc S1024x1 32 [0] iota_S1024x1_d0_w32) broadcasts_S1024x1_S1024x1280 (ix2 b k)
      = BitVec.ofNat 32 b.val := by
  refine (broadcastTo_apply _ _ (ix2 b k) (ix2 b (0 : Fin 1)) (fun a => ?_)).trans ?_
  · match a with
    | ⟨0, _⟩ => show b.val = if (1024 : Nat) = 1 then 0 else b.val; rw [if_neg (by decide)]
    | ⟨1, _⟩ => show (0 : Nat) = if (1 : Nat) = 1 then 0 else k.val; rw [if_pos rfl]
  · exact iota_single_apply .tc S1024x1 32 0 iota_S1024x1_d0_w32 (ix2 b (0 : Fin 1))

/-- The segment row broadcast along the rows reads the lane's word. -/
theorem seg_row_apply (v : IVec S1x1280 32) (b : Fin 1024) (k : Fin 1280) :
    broadcastTo S1024x1280 v broadcasts_S1x1280_S1024x1280 (ix2 b k) = v (ix2 (0 : Fin 1) k) := by
  refine broadcastTo_apply _ _ (ix2 b k) (ix2 (0 : Fin 1) k) (fun a => ?_)
  match a with
  | ⟨0, _⟩ => show (0 : Nat) = if (1 : Nat) = 1 then 0 else b.val; rw [if_pos rfl]
  | ⟨1, _⟩ => show k.val = if (1280 : Nat) = 1 then 0 else k.val; rw [if_neg (by decide)]

/-- The one-hot matrix: one where the word of row b is the segment word of lane k, else zero. -/
theorem pay3_apply (v3 : Vec Ideal S1x1280 .i32) (b : Fin 1024) (k : Fin 1280) :
    k0_pay3 (F := Ideal) v3 (ix2 b k) = if BitVec.ofNat 32 b.val = v3 (ix2 (0 : Fin 1) k) then (1 : EReal) else 0 := by
  unfold k0_pay3
  simp only [shapeCast_self]
  refine Eq.trans ?_ (onehot_word (BitVec.ofNat 32 b.val) (v3 (ix2 (0 : Fin 1) k)))
  show FloatOps.sitofp (F := Ideal) .f32 ((IntOp.cmpi .eq
      (broadcastTo S1024x1280 (iota .tc S1024x1 32 [0] iota_S1024x1_d0_w32) broadcasts_S1024x1_S1024x1280 (ix2 b k))
      (broadcastTo S1024x1280 v3 broadcasts_S1x1280_S1024x1280 (ix2 b k))).setWidth 32) = _
  rw [iota_col_apply b k, seg_row_apply v3 b k]

/-- The operand indices of the tile product at an output index and a contraction index, axis by axis. -/
theorem lhs_dot_0 (i : S1024x128.Idx) (q : dot_S1024x1280_S1280x128_S1024x128_1_0_0_1_n_n.contr.Idx) :
    (dot_S1024x1280_S1280x128_S1024x128_1_0_0_1_n_n.lhsIdx i q 0).val = (i 0).val := by
  unfold DotDims.lhsIdx
  rw [dif_neg (show ¬(0 : Fin S1024x1280.rank) ∈ dot_S1024x1280_S1280x128_S1024x128_1_0_0_1_n_n.lhsBatch by decide), dif_pos (show (0 : Fin S1024x1280.rank) ∈ dot_S1024x1280_S1280x128_S1024x128_1_0_0_1_n_n.lhsNonContracting by decide)]
  rfl
theorem lhs_dot_1 (i : S1024x128.Idx) (q : dot_S1024x1280_S1280x128_S1024x128_1_0_0_1_n_n.contr.Idx) :
    (dot_S1024x1280_S1280x128_S1024x128_1_0_0_1_n_n.lhsIdx i q 1).val = (q ⟨0, by decide⟩).val :=
  dot_S1024x1280_S1280x128_S1024x128_1_0_0_1_n_n.lhsIdx_val_of_single rfl i q
theorem rhs_dot_0 (i : S1024x128.Idx) (q : dot_S1024x1280_S1280x128_S1024x128_1_0_0_1_n_n.contr.Idx) :
    (dot_S1024x1280_S1280x128_S1024x128_1_0_0_1_n_n.rhsIdx i q 0).val = (q ⟨0, by decide⟩).val :=
  dot_S1024x1280_S1280x128_S1024x128_1_0_0_1_n_n.rhsIdx_val_of_single rfl i q
theorem rhs_dot_1 (i : S1024x128.Idx) (q : dot_S1024x1280_S1280x128_S1024x128_1_0_0_1_n_n.contr.Idx) :
    (dot_S1024x1280_S1280x128_S1024x128_1_0_0_1_n_n.rhsIdx i q 1).val = (i 1).val := by
  unfold DotDims.rhsIdx
  rw [dif_neg (show ¬(1 : Fin S1280x128.rank) ∈ dot_S1024x1280_S1280x128_S1024x128_1_0_0_1_n_n.rhsBatch by decide), dif_pos (show (1 : Fin S1280x128.rank) ∈ dot_S1024x1280_S1280x128_S1024x128_1_0_0_1_n_n.rhsNonContracting by decide)]
  rfl

/-- The tile product into the zero block, at an index: the sum over the 1280 lanes of the operands' products. -/
theorem tile_dot_apply (L : FVec Ideal S1024x1280 .bf16) (R : FVec Ideal S1280x128 .bf16) (b : Fin 1024) (f : Fin 128) :
    matmul (F := Ideal) dot_S1024x1280_S1280x128_S1024x128_1_0_0_1_n_n none L R (constant (F := Ideal) S1024x128 .f32 0x00000000#32) (ix2 b f)
      = ∑ k : Fin 1280, L (ix2 b k) * R (ix2 k f) := by
  simp only [matmul]
  rw [Ideal.matmul_constant_zero_apply, ← Equiv.sum_comp (ValueIdx.contrEquiv1 dot_S1024x1280_S1280x128_S1024x128_1_0_0_1_n_n 1280 rfl rfl).symm]
  refine Finset.sum_congr rfl fun k _ => ?_
  have hk := ValueIdx.contrEquiv1_symm_val dot_S1024x1280_S1280x128_S1024x128_1_0_0_1_n_n 1280 rfl rfl k
  have el : dot_S1024x1280_S1280x128_S1024x128_1_0_0_1_n_n.lhsIdx (ix2 b f) ((ValueIdx.contrEquiv1 dot_S1024x1280_S1280x128_S1024x128_1_0_0_1_n_n 1280 rfl rfl).symm k) = ix2 b k := funext fun a => Fin.ext (by
    match a with
    | ⟨0, _⟩ => exact lhs_dot_0 _ _
    | ⟨1, _⟩ => exact (lhs_dot_1 _ _).trans hk)
  have er : dot_S1024x1280_S1280x128_S1024x128_1_0_0_1_n_n.rhsIdx (ix2 b f) ((ValueIdx.contrEquiv1 dot_S1024x1280_S1280x128_S1024x128_1_0_0_1_n_n 1280 rfl rfl).symm k) = ix2 k f := funext fun a => Fin.ext (by
    match a with
    | ⟨0, _⟩ => exact (rhs_dot_0 _ _).trans hk
    | ⟨1, _⟩ => exact rhs_dot_1 _ _)
  rw [el, er]

/-- The sums payload: the carried block plus the one-hot matrix times the value tile. -/
theorem pay4_apply (v3 : Vec Ideal S1x1280 .i32) (v11 : Vec Ideal S1280x128 .f32) (v13 : Vec Ideal S1024x128 .f32)
    (b : Fin 1024) (f : Fin 128) :
    k0_pay4 (F := Ideal) v3 v11 v13 (ix2 b f)
      = v13 (ix2 b f) + ∑ k : Fin 1280, k0_pay3 (F := Ideal) v3 (ix2 b k) * v11 (ix2 k f) := by
  unfold k0_pay4
  simp only [shapeCast_self]
  refine (addf_apply _ _ (ix2 b f)).trans ?_
  exact congrArg (v13 (ix2 b f) + ·) (tile_dot_apply _ _ b f)

/-- The lane sum of the one-hot matrix, at a row. -/
theorem lane_sum_apply (src : FVec Ideal S1024x1280 .f32) (hφ : FKind.Formats .f32)
    (hacc : (0x00000000#32 : BitVec 32) = FKind.add.neutral .f32 hφ) (b : Fin 1024) :
    multiReduction (F := Ideal) .add [1] S1024 src 0x00000000#32 reduces_S1024x1280_S1024 hφ hacc (ix1 b)
      = ∑ k : Fin 1280, src (ix2 b k) := by
  refine (Ideal.multiReduction_add_single src 0x00000000#32 reduces_S1024x1280_S1024 hφ hacc (ix1 b)).trans ?_
  refine Finset.sum_congr rfl fun k _ => congrArg src (funext fun a => Fin.ext ?_)
  match a with
  | ⟨0, _⟩ => rfl
  | ⟨1, _⟩ => rfl

/-- The counts payload: the carried block plus the row sums of the one-hot matrix. -/
theorem pay5_apply (v3 : Vec Ideal S1x1280 .i32) (v19 : Vec Ideal S1024 .f32) (b : Fin 1024) :
    k0_pay5 (F := Ideal) v3 v19 (ix1 b) = v19 (ix1 b) + ∑ k : Fin 1280, k0_pay3 (F := Ideal) v3 (ix2 b k) := by
  unfold k0_pay5
  simp only [shapeCast_self]
  refine (addf_apply _ _ (ix1 b)).trans ?_
  exact congrArg (v19 (ix1 b) + ·) (lane_sum_apply _ _ _ b)

/-! ## The region's blocks, tile by tile -/

/-- The value tile and the segment-word tile the region's windows hold at a point. -/
abbrev vblk (c : Dev nD) (t : Fin cfg0.N) : Vec Ideal S1280x128 .f32 := iblk0 V c 0 t
abbrev sblk (c : Dev nD) (t : Fin cfg0.N) : Vec Ideal S1x1280 .i32 := iblk0 V c 1 t

/-- A point as a tile number, and row k of tile j among the 1600000 rows. -/
abbrev tileOf (t : Fin cfg0.N) : Fin 1250 := ⟨t.val, lt_of_lt_of_eq t.isLt N_0⟩
abbrev row (j : Fin 1250) (k : Fin 1280) : Fin 1600000 := SegSum.tileIdx (by norm_num) j k

/-- The printed index maps, decided over the grid: the value window moves down the rows, the segment window along the
    lanes, the two result blocks stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 ∧ win0_3.index t (0 : Fin 1) = 0 :=
  (by decide +kernel : ∀ t : Fin grid0.N, _)

/-- The value tile at a point is the tile's rows of the values. -/
theorem vblk_apply (c : Dev nD) (t : Fin cfg0.N) (k : Fin 1280) (f : Fin 128) :
    vblk V c t (ix2 k f) = val V c (row (tileOf t) k) f := by
  obtain ⟨e0, e1, -⟩ := idx_facts t
  show V c main_arg2 (((cfg0.win 0).blk t).view.emb (ix2 k f)) = V c main_arg2 (ix2 (row (tileOf t) k) f)
  refine congrArg (V c main_arg2) (funext fun a => Fin.ext ?_)
  match a with
  | ⟨0, _⟩ => show win0_0.index t (0 : Fin 2) * 1280 + 1 * k.val = 1280 * t.val + k.val; rw [e0]; omega
  | ⟨1, _⟩ => show win0_0.index t (1 : Fin 2) * 128 + 1 * f.val = f.val; rw [e1]; omega

/-- The segment tile at a point is the tile's lanes of the segment row. -/
theorem sblk_apply (c : Dev nD) (t : Fin cfg0.N) (k : Fin 1280) :
    sblk V c t (ix2 (0 : Fin 1) k) = seg V c (row (tileOf t) k) := by
  obtain ⟨-, -, e2, e3, -⟩ := idx_facts t
  show V c main_v3 (((cfg0.win 1).blk t).view.emb (ix2 (0 : Fin 1) k)) = V c main_v3 (ix2 (0 : Fin 1) (row (tileOf t) k))
  refine congrArg (V c main_v3) (funext fun a => Fin.ext ?_)
  match a with
  | ⟨0, _⟩ => show win0_1.index t (0 : Fin 2) * 1 + 1 * 0 = 0; rw [e2]
  | ⟨1, _⟩ => show win0_1.index t (1 : Fin 2) * 1280 + 1 * k.val = 1280 * t.val + k.val; rw [e3]; omega

/-- Tile j's part of the sum of segment b at column f, and of its count. -/
def tileSum (c : Dev nD) (b : Fin 1024) (f : Fin 128) (j : Fin 1250) : EReal :=
  ∑ k : Fin 1280, if seg V c (row j k) = BitVec.ofNat 32 b.val then val V c (row j k) f else 0
def tileCnt (c : Dev nD) (b : Fin 1024) (j : Fin 1250) : EReal :=
  ∑ k : Fin 1280, if seg V c (row j k) = BitVec.ofNat 32 b.val then (1 : EReal) else 0

/-- The same as functions of every natural number: zero past the last tile. -/
def partSum (c : Dev nD) (b : Fin 1024) (f : Fin 128) (j : ℕ) : EReal := if h : j < 1250 then tileSum V c b f ⟨j, h⟩ else 0
def partCnt (c : Dev nD) (b : Fin 1024) (j : ℕ) : EReal := if h : j < 1250 then tileCnt V c b ⟨j, h⟩ else 0

theorem partSum_of_lt (c : Dev nD) (b : Fin 1024) (f : Fin 128) (j : ℕ) (h : j < 1250) :
    partSum V c b f j = tileSum V c b f ⟨j, h⟩ := dif_pos h
theorem partCnt_of_lt (c : Dev nD) (b : Fin 1024) (j : ℕ) (h : j < 1250) :
    partCnt V c b j = tileCnt V c b ⟨j, h⟩ := dif_pos h

/-- The one-hot matrix of a point's segment tile times its value tile, at an index, is the tile's part of the sum. -/
theorem tile_prod (c : Dev nD) (t : Fin cfg0.N) (b : Fin 1024) (f : Fin 128) :
    ∑ k : Fin 1280, k0_pay3 (F := Ideal) (sblk V c t) (ix2 b k) * vblk V c t (ix2 k f) = tileSum V c b f (tileOf t) := by
  unfold tileSum
  refine Finset.sum_congr rfl fun k _ => ?_
  rw [pay3_apply, sblk_apply, vblk_apply]
  by_cases h : seg V c (row (tileOf t) k) = BitVec.ofNat 32 b.val
  · rw [if_pos h.symm, if_pos h, one_mul]
  · rw [if_neg (fun e => h e.symm), if_neg h, zero_mul]

/-- Its row sums are the tile's part of the count. -/
theorem tile_rows (c : Dev nD) (t : Fin cfg0.N) (b : Fin 1024) :
    ∑ k : Fin 1280, k0_pay3 (F := Ideal) (sblk V c t) (ix2 b k) = tileCnt V c b (tileOf t) := by
  unfold tileCnt
  refine Finset.sum_congr rfl fun k _ => ?_
  rw [pay3_apply, sblk_apply]
  by_cases h : seg V c (row (tileOf t) k) = BitVec.ofNat 32 b.val
  · rw [if_pos h.symm, if_pos h]
  · rw [if_neg (fun e => h e.symm), if_neg h]

/-! ## What the result blocks hold after each point -/

/-- At the first point: the payloads over the zero blocks. -/
theorem step_A (c : Dev nD) (t : Fin cfg0.N) (h0 : t.val % 1250 = 0) :
    outsAt0 V c t.val t.isLt
      = (k0_pay4 (sblk V c t) (vblk V c t) (k0_pay1 (F := Ideal)), k0_pay5 (sblk V c t) (k0_pay2 (F := Ideal))) := by
  rw [outsAt0_A V c t h0]
  exact congrArg₂ Prod.mk
    (out_A_2 (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t))
    (out_A_3 (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t))

/-- At a later point: the payloads over what the point before left. -/
theorem step_B (c : Dev nD) (t : Fin cfg0.N) (h0 : ¬t.val % 1250 = 0) :
    outsAt0 V c t.val t.isLt
      = (k0_pay4 (sblk V c t) (vblk V c t) (outsAt0 V c (t.val - 1) (Nat.lt_of_le_of_lt (Nat.sub_le _ _) t.isLt)).1,
         k0_pay5 (sblk V c t) (outsAt0 V c (t.val - 1) (Nat.lt_of_le_of_lt (Nat.sub_le _ _) t.isLt)).2) := by
  rw [outsAt0_B V c t h0]
  exact congrArg₂ Prod.mk
    (out_B_2 (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2)
    (out_B_3 (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2)

/-- After point n the two blocks hold the parts of the tiles 0 … n, summed: by induction on the point. -/
theorem outsAt_eq (c : Dev nD) : ∀ (n : ℕ) (h : n < cfg0.N),
    (∀ (b : Fin 1024) (f : Fin 128), (outsAt0 V c n h).1 (ix2 b f) = ∑ j ∈ Finset.range (n + 1), partSum V c b f j)
    ∧ (∀ b : Fin 1024, (outsAt0 V c n h).2 (ix1 b) = ∑ j ∈ Finset.range (n + 1), partCnt V c b j)
  | 0, h => by
    have e : outsAt0 V c 0 h = _ := step_A V c ⟨0, h⟩ rfl
    rw [e]; dsimp only
    constructor
    · intro b f
      rw [pay4_apply, tile_prod, Finset.sum_range_one, partSum_of_lt V c b f 0 (by norm_num)]
      show Ideal.ofBits .f32 0x00000000#32 + _ = _
      rw [Ideal.ofBits_zero_f32, zero_add]
    · intro b
      rw [pay5_apply, tile_rows, Finset.sum_range_one, partCnt_of_lt V c b 0 (by norm_num)]
      show Ideal.ofBits .f32 0x00000000#32 + _ = _
      rw [Ideal.ofBits_zero_f32, zero_add]
  | n + 1, h => by
    have hN : cfg0.N = 1250 := N_0
    have hB : ¬(⟨n + 1, h⟩ : Fin cfg0.N).val % 1250 = 0 := by dsimp only; omega
    obtain ⟨ih1, ih2⟩ := outsAt_eq c n (Nat.lt_of_succ_lt h)
    have e : outsAt0 V c (n + 1) h = _ := step_B V c ⟨n + 1, h⟩ hB
    rw [e]; dsimp only
    constructor
    · intro b f
      rw [pay4_apply, tile_prod, Finset.sum_range_succ _ (n + 1), partSum_of_lt V c b f (n + 1) (by omega)]
      show (outsAt0 V c n _).1 (ix2 b f) + _ = _
      rw [ih1 b f]
    · intro b
      rw [pay5_apply, tile_rows, Finset.sum_range_succ _ (n + 1), partCnt_of_lt V c b (n + 1) (by omega)]
      show (outsAt0 V c n _).2 (ix1 b) + _ = _
      rw [ih2 b]

/-- After the last point (1249) they hold the sums over all 1600000 rows. -/
theorem last_sum (c : Dev nD) (t : Fin cfg0.N) (h3 : t.val = 1249) (b : Fin 1024) (f : Fin 128) :
    (outsAt0 V c t.val t.isLt).1 (ix2 b f) = SegSum.segSum (seg V c) (val V c) b f := by
  rw [(outsAt_eq V c t.val t.isLt).1 b f, h3]
  show ∑ j ∈ Finset.range 1250, partSum V c b f j = _
  rw [← Fin.sum_univ_eq_sum_range (fun j => partSum V c b f j) 1250]
  unfold SegSum.segSum
  rw [← SegSum.sum_tiles (J := 1250) (K := 1280) (by norm_num)
    (fun r => if seg V c r = BitVec.ofNat 32 b.val then val V c r f else 0)]
  refine Finset.sum_congr rfl fun j _ => ?_
  rw [partSum_of_lt V c b f j.val j.isLt]
  rfl

theorem last_cnt (c : Dev nD) (t : Fin cfg0.N) (h3 : t.val = 1249) (b : Fin 1024) :
    (outsAt0 V c t.val t.isLt).2 (ix1 b) = SegSum.segCnt (seg V c) b := by
  rw [(outsAt_eq V c t.val t.isLt).2 b, h3]
  show ∑ j ∈ Finset.range 1250, partCnt V c b j = _
  rw [← Fin.sum_univ_eq_sum_range (fun j => partCnt V c b j) 1250]
  unfold SegSum.segCnt
  rw [← SegSum.sum_tiles (J := 1250) (K := 1280) (by norm_num)
    (fun r => if seg V c r = BitVec.ofNat 32 b.val then (1 : EReal) else 0)]
  refine Finset.sum_congr rfl fun j _ => ?_
  rw [partCnt_of_lt V c b j.val j.isLt]
  rfl

/-! ## The result arrays -/

/-- The last point. -/
abbrev tlast : Fin cfg0.N := ⟨1249, by rw [show cfg0.N = 1250 from N_0]; norm_num⟩

/-- The one write-back of the sums, at the last point, writes the segment sums: the block is the whole array. -/
theorem flushed2_eq (c : Dev nD) (t : Fin cfg0.N) (hf : (cfg0.win 2).flush t = true) :
    (dat0 V c).flushed 2 t = ((cfg0.win 2).blk t).view.read (Elt Ideal)
      (fun i => SegSum.segSum (seg V c) (val V c) (i 0) (i 1) : Vec Ideal S1024x128 .f32) := by
  have hN : cfg0.N = 1250 := N_0
  have h3 : t.val = 1249 := by have := (flush0_2 t).mp hf; have := t.isLt; omega
  obtain ⟨-, -, -, -, e4, e5, -⟩ := idx_facts t
  have hG : (outsAt0 V c t.val t.isLt).1
      = (fun i => SegSum.segSum (seg V c) (val V c) (i 0) (i 1) : Vec Ideal S1024x128 .f32) := by
    funext j
    obtain ⟨b, f, rfl⟩ : ∃ (b : Fin 1024) (f : Fin 128), j = ix2 b f := ⟨j 0, j 1, eq_ix2 j⟩
    exact last_sum V c t h3 b f
  show (cfg0.win 2).cut (grid0.coords t) ((dat0 V c).after 2 t) = _
  rw [after0_2, hG]
  have hz' : (fun a => win0_2.index t a * main_v4_0.ty.shape.size a) = fun _ => 0 := funext fun a => by
    match a with
    | ⟨0, _⟩ => show win0_2.index t (0 : Fin 2) * 1024 = 0; rw [e4]
    | ⟨1, _⟩ => show win0_2.index t (1 : Fin 2) * 128 = 0; rw [e5]
  exact (Memref.read_access_unit_zero (Elt Ideal) main_v4_0 hz' (fun a => by rw [congrFun hz' a]; simp) _).symm

/-- The one write-back of the counts, at the last point, writes the segment counts. -/
theorem flushed3_eq (c : Dev nD) (t : Fin cfg0.N) (hf : (cfg0.win 3).flush t = true) :
    (dat0 V c).flushed 3 t = ((cfg0.win 3).blk t).view.read (Elt Ideal)
      (fun i => SegSum.segCnt (B := 1024) (seg V c) (i 0) : Vec Ideal S1024 .f32) := by
  have hN : cfg0.N = 1250 := N_0
  have h3 : t.val = 1249 := by have := (flush0_3 t).mp hf; have := t.isLt; omega
  obtain ⟨-, -, -, -, -, -, e6⟩ := idx_facts t
  have hG : (outsAt0 V c t.val t.isLt).2
      = (fun i => SegSum.segCnt (B := 1024) (seg V c) (i 0) : Vec Ideal S1024 .f32) := by
    funext j
    obtain ⟨b, rfl⟩ : ∃ b : Fin 1024, j = ix1 b := ⟨j 0, eq_ix1 j⟩
    exact last_cnt V c t h3 b
  show (cfg0.win 3).cut (grid0.coords t) ((dat0 V c).after 3 t) = _
  rw [after0_3, hG]
  have hz' : (fun a => win0_3.index t a * main_v4_1.ty.shape.size a) = fun _ => 0 := funext fun a => by
    match a with
    | ⟨0, _⟩ => show win0_3.index t (0 : Fin 1) * 1024 = 0; rw [e6]
  exact (Memref.read_access_unit_zero (Elt Ideal) main_v4_1 hz' (fun a => by rw [congrFun hz' a]; simp) _).symm

/-- The sums' result array after the region. -/
theorem sum_final (c : Dev nD) :
    (dat0 V c).arrAt 2 cfg0.N = (fun i => SegSum.segSum (seg V c) (val V c) (i 0) (i 1) : Vec Ideal S1024x128 .f32) :=
  (dat0 V c).arrAt_eq_of_cover 2 _ (flushed2_eq V c) fun i =>
    ⟨tlast, (flush0_2 tlast).mpr rfl, by
      obtain ⟨-, -, -, -, e4, e5, -⟩ := idx_facts tlast
      show i ∈ ((View.whole main_v4_0).slice (win0_2.rect tlast)).set
      rw [View.set_slice_whole, Rect.mem_set_unit]
      intro a
      have h0 : (i 0 : Nat) < 1024 := (i 0).isLt
      have h1 : (i 1 : Nat) < 128 := (i 1).isLt
      match a with
      | ⟨0, _⟩ =>
        show win0_2.index tlast (0 : Fin 2) * 1024 ≤ (i 0 : Nat) ∧ (i 0 : Nat) < win0_2.index tlast (0 : Fin 2) * 1024 + 1024
        rw [e4]; omega
      | ⟨1, _⟩ =>
        show win0_2.index tlast (1 : Fin 2) * 128 ≤ (i 1 : Nat) ∧ (i 1 : Nat) < win0_2.index tlast (1 : Fin 2) * 128 + 128
        rw [e5]; omega⟩

/-- The counts' result array after the region. -/
theorem cnt_final (c : Dev nD) :
    (dat0 V c).arrAt 3 cfg0.N = (fun i => SegSum.segCnt (B := 1024) (seg V c) (i 0) : Vec Ideal S1024 .f32) :=
  (dat0 V c).arrAt_eq_of_cover 3 _ (flushed3_eq V c) fun i =>
    ⟨tlast, (flush0_3 tlast).mpr rfl, by
      obtain ⟨-, -, -, -, -, -, e6⟩ := idx_facts tlast
      show i ∈ ((View.whole main_v4_1).slice (win0_3.rect tlast)).set
      rw [View.set_slice_whole, Rect.mem_set_unit]
      intro a
      have h0 : (i 0 : Nat) < 1024 := (i 0).isLt
      match a with
      | ⟨0, _⟩ =>
        show win0_3.index tlast (0 : Fin 1) * 1024 ≤ (i 0 : Nat) ∧ (i 0 : Nat) < win0_3.index tlast (0 : Fin 1) * 1024 + 1024
        rw [e6]; omega⟩

end Cert.KernelIdeal.SegK0

end
-- ==== Proof.SegK1.lean ====
/-
  The node scatter kernel's value: over its 79 grid points the two carried output blocks hold the running segment
  sums and segment counts of the tiles seen so far, so after the last point the result arrays are the segment sums
  and counts of all 101,120 rows.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.SegK1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The segment word of row `t`, as the region finds it. -/
abbrev seg (c : Dev nD) (t : Fin 101120) : BitVec 32 := V c main_v14 (ix2 0 t)
/-- Row `t`, column `f` of the values, as the region finds them. -/
abbrev val (c : Dev nD) (t : Fin 101120) (f : Fin 128) : EReal := V c main_v11 (ix2 t f)

/-! ## What each case of the body leaves in the two result blocks, for any float values -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A point after the first leaves in the sums block the carried block plus the tile's product. -/
theorem out_B_2 (c : Dev nD) (i : grid1.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : ¬cond1_0 i)
    (x0 : Vec F S1280x128 .f32) (x1 : Vec F S1x1280 .i32) (xo2 : Vec F S1024x128 .f32) (xo3 : Vec F S1024 .f32) :
    out1_B_2 c i a1 h1 a2 h2 a3 h3 a4 h4 hc x0 x1 xo2 xo3 = k1_pay4 x1 x0 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz2]
  simp only [View.readAt_eq_ld, h1.read_unread, h2.read_unread, h3.read_unread, View.ld_unit_zero (S := S1280x128) hz2,
    View.ld_unit_zero (S := S1x1280) hz2, View.ld_unit_zero (S := S1024x128) hz2, shapeCast_self]

/-- … and in the counts block the carried block plus the tile's row sums. -/
theorem out_B_3 (c : Dev nD) (i : grid1.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : ¬cond1_0 i)
    (x0 : Vec F S1280x128 .f32) (x1 : Vec F S1x1280 .i32) (xo2 : Vec F S1024x128 .f32) (xo3 : Vec F S1024 .f32) :
    out1_B_3 c i a1 h1 a2 h2 a3 h3 a4 h4 hc x0 x1 xo2 xo3 = k1_pay5 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz1]
  simp only [View.readAt_eq_ld, h2.read_unread, h4.read_unread, View.ld_unit_zero (S := S1x1280) hz2,
    View.ld_unit_zero (S := S1024) hz1, shapeCast_self]

/-- The first point stores zeros, reads them back, and leaves in the sums block zero plus the tile's product. -/
theorem out_A_2 (c : Dev nD) (i : grid1.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : cond1_0 i)
    (x0 : Vec F S1280x128 .f32) (x1 : Vec F S1x1280 .i32) :
    out1_A_2 c i a1 h1 a2 h2 a3 h3 a4 h4 hc x0 x1 = k1_pay4 x1 x0 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1024x128) hz2]
  simp only [View.readAt_eq_ld, h1.read_unread, h2.read_unread, View.ld_unit_zero (S := S1280x128) hz2,
    View.ld_unit_zero (S := S1x1280) hz2, View.readCov_unit_zero (S := S1024x128) _ hz2, shapeCast_self]

/-- … and in the counts block zero plus the tile's row sums. -/
theorem out_A_3 (c : Dev nD) (i : grid1.Coords) (a1 : Memref sig .tc .vmem S1280x128 .f32) (h1 : a1.IsWhole)
    (a2 : Memref sig .tc .vmem S1x1280 .i32) (h2 : a2.IsWhole) (a3 : Memref sig .tc .vmem S1024x128 .f32) (h3 : a3.IsWhole)
    (a4 : Memref sig .tc .vmem S1024 .f32) (h4 : a4.IsWhole) (hc : cond1_0 i)
    (x0 : Vec F S1280x128 .f32) (x1 : Vec F S1x1280 .i32) :
    out1_A_3 c i a1 h1 a2 h2 a3 h3 a4 h4 hc x0 x1 = k1_pay5 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1024) hz1]
  simp only [View.readAt_eq_ld, h2.read_unread, View.ld_unit_zero (S := S1x1280) hz2,
    View.readCov_unit_zero (S := S1024) _ hz1, shapeCast_self]

end Pieces

/-! ## The payloads at an index, over the extended reals -/

/-- The compare-widen-convert chain on two words: one when they are equal, else zero. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · have e : IntOp.cmpi .eq x y = 1#1 := by unfold IntOp.cmpi; simp [h]
    rw [e, if_pos h, show ((1#1 : BitVec 1).setWidth 32).toInt = 1 from by decide]
    simp
  · have e : IntOp.cmpi .eq x y = 0#1 := by
      unfold IntOp.cmpi; rw [show (x == y) = false from beq_eq_false_iff_ne.mpr h]; rfl
    rw [e, if_neg h, show ((0#1 : BitVec 1).setWidth 32).toInt = 0 from by decide]
    simp

/-- The iota column broadcast along the lanes reads the row's number. -/
theorem iota_col_apply (b : Fin 1024) (k : Fin 1280) :
    broadcastTo S1024x1280 (iota .tc S1024x1 32 [0] iota_S1024x1_d0_w32) broadcasts_S1024x1_S1024x1280 (ix2 b k)
      = BitVec.ofNat 32 b.val := by
  refine (broadcastTo_apply _ _ (ix2 b k) (ix2 b (0 : Fin 1)) (fun a => ?_)).trans ?_
  · match a with
    | ⟨0, _⟩ => show b.val = if (1024 : Nat) = 1 then 0 else b.val; rw [if_neg (by decide)]
    | ⟨1, _⟩ => show (0 : Nat) = if (1 : Nat) = 1 then 0 else k.val; rw [if_pos rfl]
  · exact iota_single_apply .tc S1024x1 32 0 iota_S1024x1_d0_w32 (ix2 b (0 : Fin 1))

/-- The segment row broadcast along the rows reads the lane's word. -/
theorem seg_row_apply (v : IVec S1x1280 32) (b : Fin 1024) (k : Fin 1280) :
    broadcastTo S1024x1280 v broadcasts_S1x1280_S1024x1280 (ix2 b k) = v (ix2 (0 : Fin 1) k) := by
  refine broadcastTo_apply _ _ (ix2 b k) (ix2 (0 : Fin 1) k) (fun a => ?_)
  match a with
  | ⟨0, _⟩ => show (0 : Nat) = if (1 : Nat) = 1 then 0 else b.val; rw [if_pos rfl]
  | ⟨1, _⟩ => show k.val = if (1280 : Nat) = 1 then 0 else k.val; rw [if_neg (by decide)]

/-- The one-hot matrix: one where the word of row b is the segment word of lane k, else zero. -/
theorem pay3_apply (v3 : Vec Ideal S1x1280 .i32) (b : Fin 1024) (k : Fin 1280) :
    k1_pay3 (F := Ideal) v3 (ix2 b k) = if BitVec.ofNat 32 b.val = v3 (ix2 (0 : Fin 1) k) then (1 : EReal) else 0 := by
  unfold k1_pay3
  simp only [shapeCast_self]
  refine Eq.trans ?_ (onehot_word (BitVec.ofNat 32 b.val) (v3 (ix2 (0 : Fin 1) k)))
  show FloatOps.sitofp (F := Ideal) .f32 ((IntOp.cmpi .eq
      (broadcastTo S1024x1280 (iota .tc S1024x1 32 [0] iota_S1024x1_d0_w32) broadcasts_S1024x1_S1024x1280 (ix2 b k))
      (broadcastTo S1024x1280 v3 broadcasts_S1x1280_S1024x1280 (ix2 b k))).setWidth 32) = _
  rw [iota_col_apply b k, seg_row_apply v3 b k]

/-- The operand indices of the tile product at an output index and a contraction index, axis by axis. -/
theorem lhs_dot_0 (i : S1024x128.Idx) (q : dot_S1024x1280_S1280x128_S1024x128_1_0_0_1_n_n.contr.Idx) :
    (dot_S1024x1280_S1280x128_S1024x128_1_0_0_1_n_n.lhsIdx i q 0).val = (i 0).val := by
  unfold DotDims.lhsIdx
  rw [dif_neg (show ¬(0 : Fin S1024x1280.rank) ∈ dot_S1024x1280_S1280x128_S1024x128_1_0_0_1_n_n.lhsBatch by decide), dif_pos (show (0 : Fin S1024x1280.rank) ∈ dot_S1024x1280_S1280x128_S1024x128_1_0_0_1_n_n.lhsNonContracting by decide)]
  rfl
theorem lhs_dot_1 (i : S1024x128.Idx) (q : dot_S1024x1280_S1280x128_S1024x128_1_0_0_1_n_n.contr.Idx) :
    (dot_S1024x1280_S1280x128_S1024x128_1_0_0_1_n_n.lhsIdx i q 1).val = (q ⟨0, by decide⟩).val :=
  dot_S1024x1280_S1280x128_S1024x128_1_0_0_1_n_n.lhsIdx_val_of_single rfl i q
theorem rhs_dot_0 (i : S1024x128.Idx) (q : dot_S1024x1280_S1280x128_S1024x128_1_0_0_1_n_n.contr.Idx) :
    (dot_S1024x1280_S1280x128_S1024x128_1_0_0_1_n_n.rhsIdx i q 0).val = (q ⟨0, by decide⟩).val :=
  dot_S1024x1280_S1280x128_S1024x128_1_0_0_1_n_n.rhsIdx_val_of_single rfl i q
theorem rhs_dot_1 (i : S1024x128.Idx) (q : dot_S1024x1280_S1280x128_S1024x128_1_0_0_1_n_n.contr.Idx) :
    (dot_S1024x1280_S1280x128_S1024x128_1_0_0_1_n_n.rhsIdx i q 1).val = (i 1).val := by
  unfold DotDims.rhsIdx
  rw [dif_neg (show ¬(1 : Fin S1280x128.rank) ∈ dot_S1024x1280_S1280x128_S1024x128_1_0_0_1_n_n.rhsBatch by decide), dif_pos (show (1 : Fin S1280x128.rank) ∈ dot_S1024x1280_S1280x128_S1024x128_1_0_0_1_n_n.rhsNonContracting by decide)]
  rfl

/-- The tile product into the zero block, at an index: the sum over the 1280 lanes of the operands' products. -/
theorem tile_dot_apply (L : FVec Ideal S1024x1280 .bf16) (R : FVec Ideal S1280x128 .bf16) (b : Fin 1024) (f : Fin 128) :
    matmul (F := Ideal) dot_S1024x1280_S1280x128_S1024x128_1_0_0_1_n_n none L R (constant (F := Ideal) S1024x128 .f32 0x00000000#32) (ix2 b f)
      = ∑ k : Fin 1280, L (ix2 b k) * R (ix2 k f) := by
  simp only [matmul]
  rw [Ideal.matmul_constant_zero_apply, ← Equiv.sum_comp (ValueIdx.contrEquiv1 dot_S1024x1280_S1280x128_S1024x128_1_0_0_1_n_n 1280 rfl rfl).symm]
  refine Finset.sum_congr rfl fun k _ => ?_
  have hk := ValueIdx.contrEquiv1_symm_val dot_S1024x1280_S1280x128_S1024x128_1_0_0_1_n_n 1280 rfl rfl k
  have el : dot_S1024x1280_S1280x128_S1024x128_1_0_0_1_n_n.lhsIdx (ix2 b f) ((ValueIdx.contrEquiv1 dot_S1024x1280_S1280x128_S1024x128_1_0_0_1_n_n 1280 rfl rfl).symm k) = ix2 b k := funext fun a => Fin.ext (by
    match a with
    | ⟨0, _⟩ => exact lhs_dot_0 _ _
    | ⟨1, _⟩ => exact (lhs_dot_1 _ _).trans hk)
  have er : dot_S1024x1280_S1280x128_S1024x128_1_0_0_1_n_n.rhsIdx (ix2 b f) ((ValueIdx.contrEquiv1 dot_S1024x1280_S1280x128_S1024x128_1_0_0_1_n_n 1280 rfl rfl).symm k) = ix2 k f := funext fun a => Fin.ext (by
    match a with
    | ⟨0, _⟩ => exact (rhs_dot_0 _ _).trans hk
    | ⟨1, _⟩ => exact rhs_dot_1 _ _)
  rw [el, er]

/-- The sums payload: the carried block plus the one-hot matrix times the value tile. -/
theorem pay4_apply (v3 : Vec Ideal S1x1280 .i32) (v11 : Vec Ideal S1280x128 .f32) (v13 : Vec Ideal S1024x128 .f32)
    (b : Fin 1024) (f : Fin 128) :
    k1_pay4 (F := Ideal) v3 v11 v13 (ix2 b f)
      = v13 (ix2 b f) + ∑ k : Fin 1280, k1_pay3 (F := Ideal) v3 (ix2 b k) * v11 (ix2 k f) := by
  unfold k1_pay4
  simp only [shapeCast_self]
  refine (addf_apply _ _ (ix2 b f)).trans ?_
  exact congrArg (v13 (ix2 b f) + ·) (tile_dot_apply _ _ b f)

/-- The lane sum of the one-hot matrix, at a row. -/
theorem lane_sum_apply (src : FVec Ideal S1024x1280 .f32) (hφ : FKind.Formats .f32)
    (hacc : (0x00000000#32 : BitVec 32) = FKind.add.neutral .f32 hφ) (b : Fin 1024) :
    multiReduction (F := Ideal) .add [1] S1024 src 0x00000000#32 reduces_S1024x1280_S1024 hφ hacc (ix1 b)
      = ∑ k : Fin 1280, src (ix2 b k) := by
  refine (Ideal.multiReduction_add_single src 0x00000000#32 reduces_S1024x1280_S1024 hφ hacc (ix1 b)).trans ?_
  refine Finset.sum_congr rfl fun k _ => congrArg src (funext fun a => Fin.ext ?_)
  match a with
  | ⟨0, _⟩ => rfl
  | ⟨1, _⟩ => rfl

/-- The counts payload: the carried block plus the row sums of the one-hot matrix. -/
theorem pay5_apply (v3 : Vec Ideal S1x1280 .i32) (v19 : Vec Ideal S1024 .f32) (b : Fin 1024) :
    k1_pay5 (F := Ideal) v3 v19 (ix1 b) = v19 (ix1 b) + ∑ k : Fin 1280, k1_pay3 (F := Ideal) v3 (ix2 b k) := by
  unfold k1_pay5
  simp only [shapeCast_self]
  refine (addf_apply _ _ (ix1 b)).trans ?_
  exact congrArg (v19 (ix1 b) + ·) (lane_sum_apply _ _ _ b)

/-! ## The region's blocks, tile by tile -/

/-- The value tile and the segment-word tile the region's windows hold at a point. -/
abbrev vblk (c : Dev nD) (t : Fin cfg1.N) : Vec Ideal S1280x128 .f32 := iblk1 V c 0 t
abbrev sblk (c : Dev nD) (t : Fin cfg1.N) : Vec Ideal S1x1280 .i32 := iblk1 V c 1 t

/-- A point as a tile number, and row k of tile j among the 101120 rows. -/
abbrev tileOf (t : Fin cfg1.N) : Fin 79 := ⟨t.val, lt_of_lt_of_eq t.isLt N_1⟩
abbrev row (j : Fin 79) (k : Fin 1280) : Fin 101120 := SegSum.tileIdx (by norm_num) j k

/-- The printed index maps, decided over the grid: the value window moves down the rows, the segment window along the
    lanes, the two result blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0 ∧ win1_3.index t (0 : Fin 1) = 0 :=
  (by decide +kernel : ∀ t : Fin grid1.N, _)

/-- The value tile at a point is the tile's rows of the values. -/
theorem vblk_apply (c : Dev nD) (t : Fin cfg1.N) (k : Fin 1280) (f : Fin 128) :
    vblk V c t (ix2 k f) = val V c (row (tileOf t) k) f := by
  obtain ⟨e0, e1, -⟩ := idx_facts t
  show V c main_v11 (((cfg1.win 0).blk t).view.emb (ix2 k f)) = V c main_v11 (ix2 (row (tileOf t) k) f)
  refine congrArg (V c main_v11) (funext fun a => Fin.ext ?_)
  match a with
  | ⟨0, _⟩ => show win1_0.index t (0 : Fin 2) * 1280 + 1 * k.val = 1280 * t.val + k.val; rw [e0]; omega
  | ⟨1, _⟩ => show win1_0.index t (1 : Fin 2) * 128 + 1 * f.val = f.val; rw [e1]; omega

/-- The segment tile at a point is the tile's lanes of the segment row. -/
theorem sblk_apply (c : Dev nD) (t : Fin cfg1.N) (k : Fin 1280) :
    sblk V c t (ix2 (0 : Fin 1) k) = seg V c (row (tileOf t) k) := by
  obtain ⟨-, -, e2, e3, -⟩ := idx_facts t
  show V c main_v14 (((cfg1.win 1).blk t).view.emb (ix2 (0 : Fin 1) k)) = V c main_v14 (ix2 (0 : Fin 1) (row (tileOf t) k))
  refine congrArg (V c main_v14) (funext fun a => Fin.ext ?_)
  match a with
  | ⟨0, _⟩ => show win1_1.index t (0 : Fin 2) * 1 + 1 * 0 = 0; rw [e2]
  | ⟨1, _⟩ => show win1_1.index t (1 : Fin 2) * 1280 + 1 * k.val = 1280 * t.val + k.val; rw [e3]; omega

/-- Tile j's part of the sum of segment b at column f, and of its count. -/
def tileSum (c : Dev nD) (b : Fin 1024) (f : Fin 128) (j : Fin 79) : EReal :=
  ∑ k : Fin 1280, if seg V c (row j k) = BitVec.ofNat 32 b.val then val V c (row j k) f else 0
def tileCnt (c : Dev nD) (b : Fin 1024) (j : Fin 79) : EReal :=
  ∑ k : Fin 1280, if seg V c (row j k) = BitVec.ofNat 32 b.val then (1 : EReal) else 0

/-- The same as functions of every natural number: zero past the last tile. -/
def partSum (c : Dev nD) (b : Fin 1024) (f : Fin 128) (j : ℕ) : EReal := if h : j < 79 then tileSum V c b f ⟨j, h⟩ else 0
def partCnt (c : Dev nD) (b : Fin 1024) (j : ℕ) : EReal := if h : j < 79 then tileCnt V c b ⟨j, h⟩ else 0

theorem partSum_of_lt (c : Dev nD) (b : Fin 1024) (f : Fin 128) (j : ℕ) (h : j < 79) :
    partSum V c b f j = tileSum V c b f ⟨j, h⟩ := dif_pos h
theorem partCnt_of_lt (c : Dev nD) (b : Fin 1024) (j : ℕ) (h : j < 79) :
    partCnt V c b j = tileCnt V c b ⟨j, h⟩ := dif_pos h

/-- The one-hot matrix of a point's segment tile times its value tile, at an index, is the tile's part of the sum. -/
theorem tile_prod (c : Dev nD) (t : Fin cfg1.N) (b : Fin 1024) (f : Fin 128) :
    ∑ k : Fin 1280, k1_pay3 (F := Ideal) (sblk V c t) (ix2 b k) * vblk V c t (ix2 k f) = tileSum V c b f (tileOf t) := by
  unfold tileSum
  refine Finset.sum_congr rfl fun k _ => ?_
  rw [pay3_apply, sblk_apply, vblk_apply]
  by_cases h : seg V c (row (tileOf t) k) = BitVec.ofNat 32 b.val
  · rw [if_pos h.symm, if_pos h, one_mul]
  · rw [if_neg (fun e => h e.symm), if_neg h, zero_mul]

/-- Its row sums are the tile's part of the count. -/
theorem tile_rows (c : Dev nD) (t : Fin cfg1.N) (b : Fin 1024) :
    ∑ k : Fin 1280, k1_pay3 (F := Ideal) (sblk V c t) (ix2 b k) = tileCnt V c b (tileOf t) := by
  unfold tileCnt
  refine Finset.sum_congr rfl fun k _ => ?_
  rw [pay3_apply, sblk_apply]
  by_cases h : seg V c (row (tileOf t) k) = BitVec.ofNat 32 b.val
  · rw [if_pos h.symm, if_pos h]
  · rw [if_neg (fun e => h e.symm), if_neg h]

/-! ## What the result blocks hold after each point -/

/-- At the first point: the payloads over the zero blocks. -/
theorem step_A (c : Dev nD) (t : Fin cfg1.N) (h0 : t.val % 79 = 0) :
    outsAt1 V c t.val t.isLt
      = (k1_pay4 (sblk V c t) (vblk V c t) (k1_pay1 (F := Ideal)), k1_pay5 (sblk V c t) (k1_pay2 (F := Ideal))) := by
  rw [outsAt1_A V c t h0]
  exact congrArg₂ Prod.mk
    (out_A_2 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (out_A_3 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

/-- At a later point: the payloads over what the point before left. -/
theorem step_B (c : Dev nD) (t : Fin cfg1.N) (h0 : ¬t.val % 79 = 0) :
    outsAt1 V c t.val t.isLt
      = (k1_pay4 (sblk V c t) (vblk V c t) (outsAt1 V c (t.val - 1) (Nat.lt_of_le_of_lt (Nat.sub_le _ _) t.isLt)).1,
         k1_pay5 (sblk V c t) (outsAt1 V c (t.val - 1) (Nat.lt_of_le_of_lt (Nat.sub_le _ _) t.isLt)).2) := by
  rw [outsAt1_B V c t h0]
  exact congrArg₂ Prod.mk
    (out_B_2 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)
    (out_B_3 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

/-- After point n the two blocks hold the parts of the tiles 0 … n, summed: by induction on the point. -/
theorem outsAt_eq (c : Dev nD) : ∀ (n : ℕ) (h : n < cfg1.N),
    (∀ (b : Fin 1024) (f : Fin 128), (outsAt1 V c n h).1 (ix2 b f) = ∑ j ∈ Finset.range (n + 1), partSum V c b f j)
    ∧ (∀ b : Fin 1024, (outsAt1 V c n h).2 (ix1 b) = ∑ j ∈ Finset.range (n + 1), partCnt V c b j)
  | 0, h => by
    have e : outsAt1 V c 0 h = _ := step_A V c ⟨0, h⟩ rfl
    rw [e]; dsimp only
    constructor
    · intro b f
      rw [pay4_apply, tile_prod, Finset.sum_range_one, partSum_of_lt V c b f 0 (by norm_num)]
      show Ideal.ofBits .f32 0x00000000#32 + _ = _
      rw [Ideal.ofBits_zero_f32, zero_add]
    · intro b
      rw [pay5_apply, tile_rows, Finset.sum_range_one, partCnt_of_lt V c b 0 (by norm_num)]
      show Ideal.ofBits .f32 0x00000000#32 + _ = _
      rw [Ideal.ofBits_zero_f32, zero_add]
  | n + 1, h => by
    have hN : cfg1.N = 79 := N_1
    have hB : ¬(⟨n + 1, h⟩ : Fin cfg1.N).val % 79 = 0 := by dsimp only; omega
    obtain ⟨ih1, ih2⟩ := outsAt_eq c n (Nat.lt_of_succ_lt h)
    have e : outsAt1 V c (n + 1) h = _ := step_B V c ⟨n + 1, h⟩ hB
    rw [e]; dsimp only
    constructor
    · intro b f
      rw [pay4_apply, tile_prod, Finset.sum_range_succ _ (n + 1), partSum_of_lt V c b f (n + 1) (by omega)]
      show (outsAt1 V c n _).1 (ix2 b f) + _ = _
      rw [ih1 b f]
    · intro b
      rw [pay5_apply, tile_rows, Finset.sum_range_succ _ (n + 1), partCnt_of_lt V c b (n + 1) (by omega)]
      show (outsAt1 V c n _).2 (ix1 b) + _ = _
      rw [ih2 b]

/-- After the last point (78) they hold the sums over all 101120 rows. -/
theorem last_sum (c : Dev nD) (t : Fin cfg1.N) (h3 : t.val = 78) (b : Fin 1024) (f : Fin 128) :
    (outsAt1 V c t.val t.isLt).1 (ix2 b f) = SegSum.segSum (seg V c) (val V c) b f := by
  rw [(outsAt_eq V c t.val t.isLt).1 b f, h3]
  show ∑ j ∈ Finset.range 79, partSum V c b f j = _
  rw [← Fin.sum_univ_eq_sum_range (fun j => partSum V c b f j) 79]
  unfold SegSum.segSum
  rw [← SegSum.sum_tiles (J := 79) (K := 1280) (by norm_num)
    (fun r => if seg V c r = BitVec.ofNat 32 b.val then val V c r f else 0)]
  refine Finset.sum_congr rfl fun j _ => ?_
  rw [partSum_of_lt V c b f j.val j.isLt]
  rfl

theorem last_cnt (c : Dev nD) (t : Fin cfg1.N) (h3 : t.val = 78) (b : Fin 1024) :
    (outsAt1 V c t.val t.isLt).2 (ix1 b) = SegSum.segCnt (seg V c) b := by
  rw [(outsAt_eq V c t.val t.isLt).2 b, h3]
  show ∑ j ∈ Finset.range 79, partCnt V c b j = _
  rw [← Fin.sum_univ_eq_sum_range (fun j => partCnt V c b j) 79]
  unfold SegSum.segCnt
  rw [← SegSum.sum_tiles (J := 79) (K := 1280) (by norm_num)
    (fun r => if seg V c r = BitVec.ofNat 32 b.val then (1 : EReal) else 0)]
  refine Finset.sum_congr rfl fun j _ => ?_
  rw [partCnt_of_lt V c b j.val j.isLt]
  rfl

/-! ## The result arrays -/

/-- The last point. -/
abbrev tlast : Fin cfg1.N := ⟨78, by rw [show cfg1.N = 79 from N_1]; norm_num⟩

/-- The one write-back of the sums, at the last point, writes the segment sums: the block is the whole array. -/
theorem flushed2_eq (c : Dev nD) (t : Fin cfg1.N) (hf : (cfg1.win 2).flush t = true) :
    (dat1 V c).flushed 2 t = ((cfg1.win 2).blk t).view.read (Elt Ideal)
      (fun i => SegSum.segSum (seg V c) (val V c) (i 0) (i 1) : Vec Ideal S1024x128 .f32) := by
  have hN : cfg1.N = 79 := N_1
  have h3 : t.val = 78 := by have := (flush1_2 t).mp hf; have := t.isLt; omega
  obtain ⟨-, -, -, -, e4, e5, -⟩ := idx_facts t
  have hG : (outsAt1 V c t.val t.isLt).1
      = (fun i => SegSum.segSum (seg V c) (val V c) (i 0) (i 1) : Vec Ideal S1024x128 .f32) := by
    funext j
    obtain ⟨b, f, rfl⟩ : ∃ (b : Fin 1024) (f : Fin 128), j = ix2 b f := ⟨j 0, j 1, eq_ix2 j⟩
    exact last_sum V c t h3 b f
  show (cfg1.win 2).cut (grid1.coords t) ((dat1 V c).after 2 t) = _
  rw [after1_2, hG]
  have hz' : (fun a => win1_2.index t a * main_v15_0.ty.shape.size a) = fun _ => 0 := funext fun a => by
    match a with
    | ⟨0, _⟩ => show win1_2.index t (0 : Fin 2) * 1024 = 0; rw [e4]
    | ⟨1, _⟩ => show win1_2.index t (1 : Fin 2) * 128 = 0; rw [e5]
  exact (Memref.read_access_unit_zero (Elt Ideal) main_v15_0 hz' (fun a => by rw [congrFun hz' a]; simp) _).symm

/-- The one write-back of the counts, at the last point, writes the segment counts. -/
theorem flushed3_eq (c : Dev nD) (t : Fin cfg1.N) (hf : (cfg1.win 3).flush t = true) :
    (dat1 V c).flushed 3 t = ((cfg1.win 3).blk t).view.read (Elt Ideal)
      (fun i => SegSum.segCnt (B := 1024) (seg V c) (i 0) : Vec Ideal S1024 .f32) := by
  have hN : cfg1.N = 79 := N_1
  have h3 : t.val = 78 := by have := (flush1_3 t).mp hf; have := t.isLt; omega
  obtain ⟨-, -, -, -, -, -, e6⟩ := idx_facts t
  have hG : (outsAt1 V c t.val t.isLt).2
      = (fun i => SegSum.segCnt (B := 1024) (seg V c) (i 0) : Vec Ideal S1024 .f32) := by
    funext j
    obtain ⟨b, rfl⟩ : ∃ b : Fin 1024, j = ix1 b := ⟨j 0, eq_ix1 j⟩
    exact last_cnt V c t h3 b
  show (cfg1.win 3).cut (grid1.coords t) ((dat1 V c).after 3 t) = _
  rw [after1_3, hG]
  have hz' : (fun a => win1_3.index t a * main_v15_1.ty.shape.size a) = fun _ => 0 := funext fun a => by
    match a with
    | ⟨0, _⟩ => show win1_3.index t (0 : Fin 1) * 1024 = 0; rw [e6]
  exact (Memref.read_access_unit_zero (Elt Ideal) main_v15_1 hz' (fun a => by rw [congrFun hz' a]; simp) _).symm

/-- The sums' result array after the region. -/
theorem sum_final (c : Dev nD) :
    (dat1 V c).arrAt 2 cfg1.N = (fun i => SegSum.segSum (seg V c) (val V c) (i 0) (i 1) : Vec Ideal S1024x128 .f32) :=
  (dat1 V c).arrAt_eq_of_cover 2 _ (flushed2_eq V c) fun i =>
    ⟨tlast, (flush1_2 tlast).mpr rfl, by
      obtain ⟨-, -, -, -, e4, e5, -⟩ := idx_facts tlast
      show i ∈ ((View.whole main_v15_0).slice (win1_2.rect tlast)).set
      rw [View.set_slice_whole, Rect.mem_set_unit]
      intro a
      have h0 : (i 0 : Nat) < 1024 := (i 0).isLt
      have h1 : (i 1 : Nat) < 128 := (i 1).isLt
      match a with
      | ⟨0, _⟩ =>
        show win1_2.index tlast (0 : Fin 2) * 1024 ≤ (i 0 : Nat) ∧ (i 0 : Nat) < win1_2.index tlast (0 : Fin 2) * 1024 + 1024
        rw [e4]; omega
      | ⟨1, _⟩ =>
        show win1_2.index tlast (1 : Fin 2) * 128 ≤ (i 1 : Nat) ∧ (i 1 : Nat) < win1_2.index tlast (1 : Fin 2) * 128 + 128
        rw [e5]; omega⟩

/-- The counts' result array after the region. -/
theorem cnt_final (c : Dev nD) :
    (dat1 V c).arrAt 3 cfg1.N = (fun i => SegSum.segCnt (B := 1024) (seg V c) (i 0) : Vec Ideal S1024 .f32) :=
  (dat1 V c).arrAt_eq_of_cover 3 _ (flushed3_eq V c) fun i =>
    ⟨tlast, (flush1_3 tlast).mpr rfl, by
      obtain ⟨-, -, -, -, -, -, e6⟩ := idx_facts tlast
      show i ∈ ((View.whole main_v15_1).slice (win1_3.rect tlast)).set
      rw [View.set_slice_whole, Rect.mem_set_unit]
      intro a
      have h0 : (i 0 : Nat) < 1024 := (i 0).isLt
      match a with
      | ⟨0, _⟩ =>
        show win1_3.index tlast (0 : Fin 1) * 1024 ≤ (i 0 : Nat) ∧ (i 0 : Nat) < win1_3.index tlast (0 : Fin 1) * 1024 + 1024
        rw [e6]; omega⟩

end Cert.KernelIdeal.SegK1

end
-- ==== Proof.CellK.Lin3.lean ====
/-
  The first layer of the cell's kernel body: three matrix products against the three column blocks of the weight,
  summed, plus the bias row, is the linear layer on `[u | aₙ | aₑ]`.
-/
import proofs.«406655_j37177236914577_1_alg».proof.Proof.Gen.KernelIdeal.Skeleton
import proofs.«406655_j37177236914577_1_alg».proof.Proof.Spec
import Idealize.ShloMosaic.PureOps.Ideal.Laws
import Idealize.ShloMosaic.Lib.Pipeline.Value
import Idealize.ShloMosaic.Lib.ValueLayout

noncomputable section

namespace Cert.KernelIdeal.CellK

open Idealize.ShloMosaic Idealize.ShloMosaic.ValueIdx Cert.KernelIdeal Cert.KernelIdeal.Gen
open scoped BigOperators

/-- The left operand's row coordinate is the output's row. -/
private theorem lhs_dot128_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
/-- The left operand's column coordinate is the contraction index. -/
private theorem lhs_dot128_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
/-- The right operand's row coordinate is the contraction index. -/
private theorem rhs_dot128_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
/-- The right operand's column coordinate is the output's column. -/
private theorem rhs_dot128_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A `[1024,128] × [128,256]` product into the zero accumulator, at `(p, q)`: the 128-term sum of row `p` of the
    left operand against column `q` of the right. -/
private theorem mm128_apply (X : FVec Ideal S1024x128 .bf16) (W : FVec Ideal S128x256 .bf16) (p : Fin 1024) (q : Fin 256) :
    matmul (F := Ideal) dot_S1024x128_S128x256_S1024x256_1_0_0_1_n_n none X W (constant (F := Ideal) S1024x256 .f32 0x00000000#32) (ix2 p q)
      = ∑ k : Fin 128, X (ix2 p k) * W (ix2 k q) := by
  show FloatOps.matmul dot_S1024x128_S128x256_S1024x256_1_0_0_1_n_n none X W (constant (F := Ideal) S1024x256 .f32 0x00000000#32) (ix2 p q) = _
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p q) ((ValueIdx.contrEquiv1 dot_S1024x128_S128x256_S1024x256_1_0_0_1_n_n 128 rfl rfl).symm k) = ix2 p k := funext fun a => Fin.ext (by
    match a with
    | ⟨0, _⟩ => exact lhs_dot128_0 _ _
    | ⟨1, _⟩ => exact (lhs_dot128_1 _ _).trans hk)
  have er : dot_S1024x128_S128x256_S1024x256_1_0_0_1_n_n.rhsIdx (ix2 p q) ((ValueIdx.contrEquiv1 dot_S1024x128_S128x256_S1024x256_1_0_0_1_n_n 128 rfl rfl).symm k) = ix2 k q := funext fun a => Fin.ext (by
    match a with
    | ⟨0, _⟩ => exact (rhs_dot128_0 _ _).trans hk
    | ⟨1, _⟩ => exact rhs_dot128_1 _ _)
  rw [el, er]

/-- The transposed 128-column block of the weight from column `o`, at `(k, q)`: the weight at `(q, o + k)`. -/
private theorem wblock_apply (o : Nat) (ho : o + 128 ≤ 384) (v6 : Vec Ideal S256x384 .f32) (h : S256x384.Slices ![0, o] S256x128)
    (k : Fin 128) (q : Fin 256) :
    transpose S128x256 [1, 0] (truncf (F := Ideal) .bf16 (extractStridedSlice S256x128 ![0, o] v6 h) bitsLt_bf16_f32)
      transposes_S256x128_p1_0_S128x256 (ix2 k q) = v6 (ix2 q (Spec.col o 128 ho k)) := by
  rw [transpose_ix2_apply, truncf_apply, slice2_axis1_eq]

/-- One of the three products at `(p, q)`: row `p` of `X` against the weight's row `q` over the columns `o + k`. -/
private theorem prod_apply (o : Nat) (ho : o + 128 ≤ 384) (X : Vec Ideal S1024x128 .f32) (v6 : Vec Ideal S256x384 .f32)
    (h : S256x384.Slices ![0, o] S256x128) (p : Fin 1024) (q : Fin 256) :
    matmul (F := Ideal) dot_S1024x128_S128x256_S1024x256_1_0_0_1_n_n none (truncf (F := Ideal) .bf16 X bitsLt_bf16_f32)
      (transpose S128x256 [1, 0] (truncf (F := Ideal) .bf16 (extractStridedSlice S256x128 ![0, o] v6 h) bitsLt_bf16_f32)
        transposes_S256x128_p1_0_S128x256)
      (constant (F := Ideal) S1024x256 .f32 0x00000000#32) (ix2 p q)
      = ∑ k : Fin 128, X (ix2 p k) * v6 (ix2 q (Spec.col o 128 ho k)) := by
  rw [mm128_apply]
  refine Finset.sum_congr rfl fun k _ => ?_
  rw [wblock_apply o ho, truncf_apply]

theorem pay3_eq (v0 v1 v3 : Vec Ideal S1024x128 .f32) (v6 : Vec Ideal S256x384 .f32) (v24 : Vec Ideal S1x256 .f32) :
    k2_pay3 (F := Ideal) v0 v1 v3 v6 v24 = Spec.lin3 v0 v1 v3 v6 (Spec.row v24) := by
  funext i
  obtain ⟨p, q, rfl⟩ : ∃ (p : Fin 1024) (q : Fin 256), i = ix2 p q := ⟨i 0, i 1, eq_ix2 i⟩
  unfold k2_pay3 Spec.lin3
  simp only [shapeCast_self]
  rw [addf_apply, addf_apply, addf_apply, prod_apply 0 (by decide), prod_apply 128 (by decide), prod_apply 256 (by decide),
    broadcastTo_1b_ab_apply]
  rfl

end Cert.KernelIdeal.CellK

end
-- ==== Proof.CellK.Norm.lean ====
/-
  The normalisation stage of the cell's kernel body: the row mean, the row variance, and the normalised, scaled,
  shifted and clamped rows fed to the input-gate layer.
-/
import proofs.«406655_j37177236914577_1_alg».proof.Proof.Gen.KernelIdeal.Skeleton
import proofs.«406655_j37177236914577_1_alg».proof.Proof.Spec
import Idealize.ShloMosaic.PureOps.Ideal.Laws
import Idealize.ShloMosaic.Lib.Pipeline.Value
import Idealize.ShloMosaic.Lib.ValueLayout

noncomputable section

namespace Cert.KernelIdeal.CellK

open Idealize.ShloMosaic Idealize.ShloMosaic.ValueIdx Cert.KernelIdeal Cert.KernelIdeal.Gen
open scoped BigOperators

/-! ## Layout steps at an index given by coordinates -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 256 columns of row `p`, as the kernel's one-axis reduction reads it. -/
private theorem rowSum_apply (z : FVec Ideal S1024x256 .f32) (h : S1024x256.Reduces [1] S1024) (hφ : FKind.Formats .f32)
    (hacc : (0x00000000#32 : BitVec 32) = 0x00000000#32) (p : Fin 1024) :
    multiReduction (F := Ideal) .add [1] S1024 z 0x00000000#32 h hφ hacc (ix1 p) = ∑ q : Fin 256, z (ix2 p q) := by
  refine (Ideal.multiReduction_add_single z 0x00000000#32 h hφ hacc (ix1 p)).trans ?_
  refine Finset.sum_congr rfl fun q _ => congrArg z ?_
  funext c
  apply Fin.ext
  match c with
  | ⟨0, _⟩ => rfl
  | ⟨1, _⟩ => rfl

/-- A row's sum over 256, kept as a column, at `(p, u)`. -/
private theorem colDiv_apply (w : FVec Ideal S1024x256 .f32) (h : S1024x256.Reduces [1] S1024) (hφ : FKind.Formats .f32)
    (hacc : (0x00000000#32 : BitVec 32) = 0x00000000#32) (hc : S1024.ShapeCasts S1024x1) (p : Fin 1024) (u : Fin 1) :
    divf (shapeCast S1024x1 (multiReduction (F := Ideal) .add [1] S1024 w 0x00000000#32 h hφ hacc) hc)
        (broadcast S1024x1 (Scalar.ofBits (F := Ideal) .f32 0x43800000#32)) (ix2 p u)
      = Ideal.div (∑ q : Fin 256, w (ix2 p q)) Spec.c256 := by
  rw [divf_apply, shapeCast_a_a1_apply, rowSum_apply]
  rfl

/-! ## The mean and the variance -/

/-- The row mean as the kernel computes it, at `(p, u)`. -/
private theorem meanCol_apply (z : FVec Ideal S1024x256 .f32) (h : S1024x256.Reduces [1] S1024) (hφ : FKind.Formats .f32)
    (hacc : (0x00000000#32 : BitVec 32) = 0x00000000#32) (hc : S1024.ShapeCasts S1024x1) (p : Fin 1024) (u : Fin 1) :
    divf (shapeCast S1024x1 (multiReduction (F := Ideal) .add [1] S1024 z 0x00000000#32 h hφ hacc) hc)
        (broadcast S1024x1 (Scalar.ofBits (F := Ideal) .f32 0x43800000#32)) (ix2 p u)
      = Spec.mean z p :=
  colDiv_apply z h hφ hacc hc p u

/-- The row variance as the kernel computes it from a column `m` that holds the row means, at `(p, u)`. -/
private theorem varCol_apply (z : FVec Ideal S1024x256 .f32) (m : FVec Ideal S1024x1 .f32)
    (hm : ∀ p : Fin 1024, m (ix2 p (0 : Fin 1)) = Spec.mean z p)
    (h : S1024x256.Reduces [1] S1024) (hφ : FKind.Formats .f32)
    (hacc : (0x00000000#32 : BitVec 32) = 0x00000000#32) (hc : S1024.ShapeCasts S1024x1)
    (hb : S1024x1.Broadcasts S1024x256) (p : Fin 1024) (u : Fin 1) :
    divf (shapeCast S1024x1 (multiReduction (F := Ideal) .add [1] S1024
          (mulf (subf z (broadcastTo S1024x256 m hb)) (subf z (broadcastTo S1024x256 m hb))) 0x00000000#32 h hφ hacc) hc)
        (broadcast S1024x1 (Scalar.ofBits (F := Ideal) .f32 0x43800000#32)) (ix2 p u)
      = Spec.var z p := by
  rw [colDiv_apply]
  unfold Spec.var
  refine congrArg (fun s => Ideal.div s Spec.c256) (Finset.sum_congr rfl fun q _ => ?_)
  rw [mulf_apply, subf_apply, broadcastTo_a1_ab_apply, hm]

/-! ## The normalised rows and the input-gate layer -/

/-- A `[1, b]` row, cast to its own shape and broadcast over `a` rows, reads the row at column `c`. -/
private theorem rowBroadcast_apply {α : Type} {a b : ℕ} (v : (⟨2, ![1, b]⟩ : Shape).Idx → α)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) := by
  rw [broadcastTo_1b_ab_apply, shapeCast_self]

/-- The normalised, scaled, shifted and clamped row element at `(p, q)`. -/
private theorem act_apply (z : FVec Ideal S1024x256 .f32) (v46 v50 : Vec Ideal S1x256 .f32)
    (hb1 : S1024x1.Broadcasts S1024x256) (hc : S1x256.ShapeCasts S1x256) (hb : S1x256.Broadcasts S1024x256)
    (p : Fin 1024) (q : Fin 256) :
    maximumf
        (addf
          (mulf
            (mulf (subf z (fun i => Spec.mean z (i 0)))
              (broadcastTo S1024x256
                (rsqrt (addf (fun i : S1024x1.Idx => Spec.var z (i 0))
                  (broadcast S1024x1 (Scalar.ofBits (F := Ideal) .f32 0x3727C5AC#32)))) hb1))
            (broadcastTo S1024x256 (shapeCast S1x256 v46 hc) hb))
          (broadcastTo S1024x256 (shapeCast S1x256 v50 hc) hb))
        (broadcast S1024x256 (Scalar.ofBits (F := Ideal) .f32 0x00000000#32)) (ix2 p q)
      = Spec.normRelu z (Spec.row v46) (Spec.row v50) (ix2 p q) := by
  rw [maximumf_apply, addf_apply, mulf_apply, mulf_apply, subf_apply, broadcastTo_a1_ab_apply, rowBroadcast_apply,
    rowBroadcast_apply, broadcast_apply]
  show max _ (Ideal.ofBits .f32 0x00000000#32) = _
  rw [Ideal.ofBits_zero_f32]
  rfl

/-- The operand indices of the gate product at result index `i` and contraction index `q`, axis by axis: the left one is
    `(i 0, q)`, the right one `(q, i 1)`. -/
private theorem lhs_gate_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide),
    dif_pos (show (0 : Fin S1024x256.rank) ∈ dot_S1024x256_S256x768_S1024x768_1_0_0_1_n_n.lhsNonContracting by decide)]
  rfl
private theorem lhs_gate_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
private theorem rhs_gate_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
private theorem rhs_gate_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide),
    dif_pos (show (1 : Fin S256x768.rank) ∈ dot_S1024x256_S256x768_S1024x768_1_0_0_1_n_n.rhsNonContracting by decide)]
  rfl

/-- The product of the rows `x` with the transposed weight rows `w`, into the zero accumulator, at `(p, c)`: row `p` of
    `x` against row `c` of `w`. -/
private theorem gate_matmul_apply (x : FVec Ideal S1024x256 .bf16) (w : FVec Ideal S768x256 .bf16)
    (ht : S768x256.Transposes [1, 0] S256x768) (p : Fin 1024) (c : Fin 768) :
    matmul (F := Ideal) dot_S1024x256_S256x768_S1024x768_1_0_0_1_n_n none x (transpose S256x768 [1, 0] w ht)
        (constant (F := Ideal) S1024x768 .f32 0x00000000#32) (ix2 p c)
      = ∑ q : Fin 256, x (ix2 p q) * w (ix2 c q) := by
  refine (Ideal.matmul_constant_zero_apply dot_S1024x256_S256x768_S1024x768_1_0_0_1_n_n none x _ (ix2 p c)).trans ?_
  rw [← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 p c)
      ((contrEquiv1 dot_S1024x256_S256x768_S1024x768_1_0_0_1_n_n 256 rfl rfl).symm k) = ix2 p k :=
    funext fun a => Fin.ext (by
      match a with
      | ⟨0, _⟩ => exact lhs_gate_0 _ _
      | ⟨1, _⟩ => exact (lhs_gate_1 _ _).trans hk)
  have er : dot_S1024x256_S256x768_S1024x768_1_0_0_1_n_n.rhsIdx (ix2 p c)
      ((contrEquiv1 dot_S1024x256_S256x768_S1024x768_1_0_0_1_n_n 256 rfl rfl).symm k) = ix2 k c :=
    funext fun a => Fin.ext (by
      match a with
      | ⟨0, _⟩ => exact (rhs_gate_0 _ _).trans hk
      | ⟨1, _⟩ => exact rhs_gate_1 _ _)
  rw [el, er, transpose_ix2_apply]

theorem pay4_eq (v0 v1 v3 : Vec Ideal S1024x128 .f32) (v6 : Vec Ideal S256x384 .f32) (v24 : Vec Ideal S1x256 .f32) :
    k2_pay4 (F := Ideal) v0 v1 v3 v6 v24 = fun i => Spec.mean (k2_pay3 (F := Ideal) v0 v1 v3 v6 v24) (i 0) := by
  funext i
  obtain ⟨p, u, rfl⟩ : ∃ (p : Fin 1024) (u : Fin 1), i = ix2 p u := ⟨i 0, i 1, eq_ix2 i⟩
  unfold k2_pay4
  exact meanCol_apply _ _ _ _ _ p u

theorem pay5_eq (v0 v1 v3 : Vec Ideal S1024x128 .f32) (v6 : Vec Ideal S256x384 .f32) (v24 : Vec Ideal S1x256 .f32) :
    k2_pay5 (F := Ideal) v0 v1 v3 v6 v24 = fun i => Spec.var (k2_pay3 (F := Ideal) v0 v1 v3 v6 v24) (i 0) := by
  funext i
  obtain ⟨p, u, rfl⟩ : ∃ (p : Fin 1024) (u : Fin 1), i = ix2 p u := ⟨i 0, i 1, eq_ix2 i⟩
  unfold k2_pay5
  exact varCol_apply _ _ (fun r => congrFun (pay4_eq v0 v1 v3 v6 v24) (ix2 r (0 : Fin 1))) _ _ _ _ _ p u

theorem pay6_eq (v0 v1 v3 : Vec Ideal S1024x128 .f32) (v6 : Vec Ideal S256x384 .f32) (v24 : Vec Ideal S1x256 .f32) :
    k2_pay6 (F := Ideal) v0 v1 v3 v6 v24 = fun i => Spec.mean (k2_pay3 (F := Ideal) v0 v1 v3 v6 v24) (i 0) := by
  funext i
  obtain ⟨p, q, rfl⟩ : ∃ (p : Fin 1024) (q : Fin 256), i = ix2 p q := ⟨i 0, i 1, eq_ix2 i⟩
  unfold k2_pay6
  refine (broadcastTo_a1_ab_apply _ _ p q).trans ?_
  exact congrFun (pay4_eq v0 v1 v3 v6 v24) (ix2 p (0 : Fin 1))

theorem pay7_eq (z : FVec Ideal S1024x256 .f32) (v46 v50 : Vec Ideal S1x256 .f32) (v57 : Vec Ideal S768x256 .f32)
    (v61 : Vec Ideal S1x768 .f32) :
    k2_pay7 (F := Ideal) z (fun i => Spec.var z (i 0)) (fun i => Spec.mean z (i 0)) v46 v50 v57 v61
      = Spec.lin (Spec.normRelu z (Spec.row v46) (Spec.row v50)) v57 (Spec.row v61) := by
  funext i
  obtain ⟨p, c, rfl⟩ : ∃ (p : Fin 1024) (c : Fin 768), i = ix2 p c := ⟨i 0, i 1, eq_ix2 i⟩
  unfold k2_pay7
  refine (addf_apply _ _ _).trans ?_
  show _ + _ = (∑ q : Fin 256, Spec.normRelu z (Spec.row v46) (Spec.row v50) (ix2 p q) * v57 (ix2 c q))
    + Spec.row v61 (ix1 c)
  refine congrArg₂ (· + ·) ?_ ?_
  · refine (gate_matmul_apply _ _ _ p c).trans ?_
    refine Finset.sum_congr rfl fun q _ => ?_
    rw [truncf_apply, truncf_apply, act_apply]
  · exact rowBroadcast_apply v61 _ _ p c

end Cert.KernelIdeal.CellK

end
-- ==== Proof.CellK.Gates.lean ====
/-
  The gate stage of the cell's kernel body: the hidden-state layer, the three gates read off the column blocks of the
  two gate arrays, the new hidden state, and the output layer on it.
-/
import proofs.«406655_j37177236914577_1_alg».proof.Proof.Gen.KernelIdeal.Skeleton
import proofs.«406655_j37177236914577_1_alg».proof.Proof.Spec
import Idealize.ShloMosaic.PureOps.Ideal.Laws
import Idealize.ShloMosaic.Lib.Pipeline.Value
import Idealize.ShloMosaic.Lib.ValueLayout

noncomputable section

namespace Cert.KernelIdeal.CellK

open Idealize.ShloMosaic Idealize.ShloMosaic.ValueIdx Cert.KernelIdeal Cert.KernelIdeal.Gen
open scoped BigOperators

/-! ## The two matrix products at an index

For each of the two products (onto 768 and onto 128 columns): the operand indices of the product at the output
index `(p, q)` and the contraction position `k` are `(p, k)` on the left and `(k, q)` on the right. -/

private theorem lhs_768_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
private theorem lhs_768_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
private theorem rhs_768_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
private theorem rhs_768_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The product into the zero array, read at `(p, q)`: the sum over the one contracted axis. -/
private theorem matmul_768_apply (X : FVec Ideal S1024x256 .bf16) (W : FVec Ideal S256x768 .bf16) (p : Fin 1024) (q : Fin 768) :
    matmul (F := Ideal) dot_S1024x256_S256x768_S1024x768_1_0_0_1_n_n none X W (constant (F := Ideal) S1024x768 .f32 0x00000000#32) (ix2 p q)
      = ∑ k : Fin 256, X (ix2 p k) * W (ix2 k q) := by
  refine (Ideal.matmul_constant_zero_apply _ none X W (ix2 p q)).trans ?_
  rw [← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 p q) ((ValueIdx.contrEquiv1 dot_S1024x256_S256x768_S1024x768_1_0_0_1_n_n 256 rfl rfl).symm k) = ix2 p k := funext fun a => Fin.ext (by
    match a with
    | ⟨0, _⟩ => exact lhs_768_0 _ _
    | ⟨1, _⟩ => exact (lhs_768_1 _ _).trans hk)
  have er : dot_S1024x256_S256x768_S1024x768_1_0_0_1_n_n.rhsIdx (ix2 p q) ((ValueIdx.contrEquiv1 dot_S1024x256_S256x768_S1024x768_1_0_0_1_n_n 256 rfl rfl).symm k) = ix2 k q := funext fun a => Fin.ext (by
    match a with
    | ⟨0, _⟩ => exact (rhs_768_0 _ _).trans hk
    | ⟨1, _⟩ => exact rhs_768_1 _ _)
  rw [el, er]

private theorem lhs_128_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem lhs_128_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
private theorem rhs_128_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
private theorem rhs_128_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product into the zero array, read at `(p, q)`: the sum over the one contracted axis. -/
private theorem matmul_128_apply (X : FVec Ideal S1024x256 .bf16) (W : FVec Ideal S256x128 .bf16) (p : Fin 1024) (q : Fin 128) :
    matmul (F := Ideal) dot_S1024x256_S256x128_S1024x128_1_0_0_1_n_n none X W (constant (F := Ideal) S1024x128 .f32 0x00000000#32) (ix2 p q)
      = ∑ k : Fin 256, X (ix2 p k) * W (ix2 k q) := by
  refine (Ideal.matmul_constant_zero_apply _ none X W (ix2 p q)).trans ?_
  rw [← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p q) ((ValueIdx.contrEquiv1 dot_S1024x256_S256x128_S1024x128_1_0_0_1_n_n 256 rfl rfl).symm k) = ix2 p k := funext fun a => Fin.ext (by
    match a with
    | ⟨0, _⟩ => exact lhs_128_0 _ _
    | ⟨1, _⟩ => exact (lhs_128_1 _ _).trans hk)
  have er : dot_S1024x256_S256x128_S1024x128_1_0_0_1_n_n.rhsIdx (ix2 p q) ((ValueIdx.contrEquiv1 dot_S1024x256_S256x128_S1024x128_1_0_0_1_n_n 256 rfl rfl).symm k) = ix2 k q := funext fun a => Fin.ext (by
    match a with
    | ⟨0, _⟩ => exact (rhs_128_0 _ _).trans hk
    | ⟨1, _⟩ => exact rhs_128_1 _ _)
  rw [el, er]

theorem pay8_eq (v5 : Vec Ideal S1024x256 .f32) (v66 : Vec Ideal S768x256 .f32) (v70 : Vec Ideal S1x768 .f32) :
    k2_pay8 (F := Ideal) v5 v66 v70 = Spec.lin v5 v66 (Spec.row v70) := by
  funext j
  obtain ⟨p, q, rfl⟩ : ∃ (p : Fin 1024) (q : Fin 768), j = ix2 p q := ⟨j 0, j 1, eq_ix2 j⟩
  unfold k2_pay8
  refine (addf_apply _ _ _).trans ?_
  rw [matmul_768_apply]
  unfold Spec.lin Spec.row
  refine congrArg₂ (· + ·) (Finset.sum_congr rfl fun k _ => ?_) ?_
  · rw [truncf_apply]
    refine congrArg (v5 (ix2 p k) * ·) ?_
    refine (transpose_apply [1, 0] _ transposes_S768x256_p1_0_S256x768 (ix2 k q) (ix2 q k) (fun b => by
      match b with
      | ⟨0, _⟩ => rfl
      | ⟨1, _⟩ => rfl)).trans ?_
    rfl
  · refine (broadcastTo_apply _ broadcasts_S1x768_S1024x768 (ix2 p q) (ix2 0 q) (fun a => by
      match a with
      | ⟨0, _⟩ => rfl
      | ⟨1, _⟩ => rfl)).trans ?_
    rw [shapeCast_self]

/-- The new hidden state's payload at an index: `(1 - z) · tanh (gₙ + r · hₙ) + z · h`. -/
private theorem pay1_apply (h : Vec Ideal S1024x256 .f32) (gin ghn r zg : FVec Ideal S1024x256 .f32) (i : S1024x256.Idx) :
    k2_pay1 (F := Ideal) h gin ghn r zg i
      = (Spec.cone - zg i) * Ideal.tanh (gin i + r i * ghn i) + zg i * h i := rfl

/-- The logistic function of a sum of two arrays, at an index. -/
private theorem logistic_addf_apply (a b : FVec Ideal S1024x256 .f32) (i : S1024x256.Idx) :
    logistic (addf a b) i = Ideal.logistic (a i + b i) := rfl

theorem cell_eq (h : Vec Ideal S1024x256 .f32) (gi gh : FVec Ideal S1024x768 .f32) :
    k2_pay1 (F := Ideal) h
        (extractStridedSlice S1024x256 ![0, 512] gi slices_S1024x768_o0_512_S1024x256)
        (extractStridedSlice S1024x256 ![0, 512] gh slices_S1024x768_o0_512_S1024x256)
        (logistic (addf (extractStridedSlice S1024x256 ![0, 0] gi slices_S1024x768_o0_0_S1024x256)
          (extractStridedSlice S1024x256 ![0, 0] gh slices_S1024x768_o0_0_S1024x256)))
        (logistic (addf (extractStridedSlice S1024x256 ![0, 256] gi slices_S1024x768_o0_256_S1024x256)
          (extractStridedSlice S1024x256 ![0, 256] gh slices_S1024x768_o0_256_S1024x256)))
      = Spec.cell gi gh h := by
  funext j
  obtain ⟨p, q, rfl⟩ : ∃ (p : Fin 1024) (q : Fin 256), j = ix2 p q := ⟨j 0, j 1, eq_ix2 j⟩
  have s0 : ∀ X : FVec Ideal S1024x768 .f32,
      extractStridedSlice S1024x256 ![0, 0] X slices_S1024x768_o0_0_S1024x256 (ix2 p q)
        = X (ix2 p (Spec.col 0 256 (by decide) q)) :=
    fun X => slice2_axis1_apply 0 X slices_S1024x768_o0_0_S1024x256 p q _ rfl
  have s1 : ∀ X : FVec Ideal S1024x768 .f32,
      extractStridedSlice S1024x256 ![0, 256] X slices_S1024x768_o0_256_S1024x256 (ix2 p q)
        = X (ix2 p (Spec.col 256 256 (by decide) q)) :=
    fun X => slice2_axis1_apply 256 X slices_S1024x768_o0_256_S1024x256 p q _ rfl
  have s2 : ∀ X : FVec Ideal S1024x768 .f32,
      extractStridedSlice S1024x256 ![0, 512] X slices_S1024x768_o0_512_S1024x256 (ix2 p q)
        = X (ix2 p (Spec.col 512 256 (by decide) q)) :=
    fun X => slice2_axis1_apply 512 X slices_S1024x768_o0_512_S1024x256 p q _ rfl
  rw [pay1_apply, logistic_addf_apply, logistic_addf_apply]
  simp only [s0, s1, s2]
  rfl

theorem pay2_eq (v5 : Vec Ideal S1024x256 .f32) (v76 v79 v81 v83 : FVec Ideal S1024x256 .f32)
    (v93 : Vec Ideal S128x256 .f32) (v97 : Vec Ideal S1x128 .f32) :
    k2_pay2 (F := Ideal) v5 v76 v79 v81 v83 v93 v97
      = Spec.lin (k2_pay1 (F := Ideal) v5 v76 v79 v81 v83) v93 (Spec.row v97) := by
  funext j
  obtain ⟨p, q, rfl⟩ : ∃ (p : Fin 1024) (q : Fin 128), j = ix2 p q := ⟨j 0, j 1, eq_ix2 j⟩
  unfold k2_pay2
  generalize k2_pay1 (F := Ideal) v5 v76 v79 v81 v83 = H
  refine (addf_apply _ _ _).trans ?_
  rw [matmul_128_apply]
  unfold Spec.lin Spec.row
  refine congrArg₂ (· + ·) (Finset.sum_congr rfl fun k _ => ?_) ?_
  · rw [truncf_apply]
    refine congrArg (H (ix2 p k) * ·) ?_
    refine (transpose_apply [1, 0] _ transposes_S128x256_p1_0_S256x128 (ix2 k q) (ix2 q k) (fun b => by
      match b with
      | ⟨0, _⟩ => rfl
      | ⟨1, _⟩ => rfl)).trans ?_
    rfl
  · refine (broadcastTo_apply _ broadcasts_S1x128_S1024x128 (ix2 p q) (ix2 0 q) (fun a => by
      match a with
      | ⟨0, _⟩ => rfl
      | ⟨1, _⟩ => rfl)).trans ?_
    rw [shapeCast_self]

end Cert.KernelIdeal.CellK

end
-- ==== Proof.CellK.lean ====
/-
  The cell kernel's value: its one grid point stores, into the two result arrays, the new hidden state and the output
  layer on it, as functions of the arrays the region finds.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import proofs.«406655_j37177236914577_1_alg».proof.Proof.CellK.Lin3
import proofs.«406655_j37177236914577_1_alg».proof.Proof.CellK.Norm
import proofs.«406655_j37177236914577_1_alg».proof.Proof.CellK.Gates

noncomputable section

namespace Cert.KernelIdeal.CellK

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The zero offsets of a whole-block access, as a constant function. -/
private theorem hz : (![0, 0] : Fin 2 → Nat) = fun _ => 0 := funext fun a => by
  match a with
  | ⟨0, _⟩ => rfl
  | ⟨1, _⟩ => rfl

/-- The new hidden state the body computes from whole blocks, before it is stored. -/
private theorem hnew_pay (x0 x1 x2 : Vec Ideal S1024x128 .f32) (x3 : Vec Ideal S1024x256 .f32) (x4 : Vec Ideal S256x384 .f32)
    (x5 x6 x7 : Vec Ideal S1x256 .f32) (x8 x9 : Vec Ideal S768x256 .f32) (x10 x11 : Vec Ideal S1x768 .f32) :
    k2_pay1 (F := Ideal) x3
        (k2_pay9 (k2_pay3 x0 x1 x2 x4 x5) (k2_pay5 x0 x1 x2 x4 x5) (k2_pay6 x0 x1 x2 x4 x5) x6 x7 x8 x10)
        (k2_pay10 x3 x9 x11)
        (k2_pay11 x3 (k2_pay3 x0 x1 x2 x4 x5) (k2_pay5 x0 x1 x2 x4 x5) (k2_pay6 x0 x1 x2 x4 x5) x6 x7 x8 x10 x9 x11)
        (k2_pay12 x3 (k2_pay3 x0 x1 x2 x4 x5) (k2_pay5 x0 x1 x2 x4 x5) (k2_pay6 x0 x1 x2 x4 x5) x6 x7 x8 x10 x9 x11)
      = Spec.hnew x0 x1 x2 x3 x4 (Spec.row x5) (Spec.row x6) (Spec.row x7) x8 x9 (Spec.row x10) (Spec.row x11) := by
  rw [pay5_eq, pay6_eq]
  refine (cell_eq x3 (k2_pay7 (F := Ideal) (k2_pay3 x0 x1 x2 x4 x5) (fun i => Spec.var (k2_pay3 (F := Ideal) x0 x1 x2 x4 x5) (i 0))
    (fun i => Spec.mean (k2_pay3 (F := Ideal) x0 x1 x2 x4 x5) (i 0)) x6 x7 x8 x10) (k2_pay8 (F := Ideal) x3 x9 x11)).trans ?_
  rw [pay7_eq, pay8_eq, pay3_eq]
  rfl

/-- What the body leaves in the hidden-state window, of whole input blocks. -/
theorem out2_15_eq (x0 x1 x2 : Vec Ideal S1024x128 .f32) (x3 : Vec Ideal S1024x256 .f32) (x4 : Vec Ideal S256x384 .f32)
    (x5 x6 x7 : Vec Ideal S1x256 .f32) (x8 x9 : Vec Ideal S768x256 .f32) (x10 x11 : Vec Ideal S1x768 .f32)
    (x12 : Vec Ideal S128x256 .f32) (x13 : Vec Ideal S1x128 .f32) :
    out2_15 (F := Ideal) x0 x1 x2 x3 x4 x5 x6 x7 x8 x9 x10 x11 x12 x13
      = Spec.hnew x0 x1 x2 x3 x4 (Spec.row x5) (Spec.row x6) (Spec.row x7) x8 x9 (Spec.row x10) (Spec.row x11) := by
  unfold out2_15
  rw [View.canon_unit_zero hz]
  simp only [View.ld_unit_zero (S := S1024x128) hz, View.ld_unit_zero (S := S1024x256) hz, View.ld_unit_zero (S := S256x384) hz,
    View.ld_unit_zero (S := S1x256) hz, View.ld_unit_zero (S := S768x256) hz, View.ld_unit_zero (S := S1x768) hz]
  exact hnew_pay x0 x1 x2 x3 x4 x5 x6 x7 x8 x9 x10 x11

/-- What the body leaves in the output window, of whole input blocks. -/
theorem out2_14_eq (x0 x1 x2 : Vec Ideal S1024x128 .f32) (x3 : Vec Ideal S1024x256 .f32) (x4 : Vec Ideal S256x384 .f32)
    (x5 x6 x7 : Vec Ideal S1x256 .f32) (x8 x9 : Vec Ideal S768x256 .f32) (x10 x11 : Vec Ideal S1x768 .f32)
    (x12 : Vec Ideal S128x256 .f32) (x13 : Vec Ideal S1x128 .f32) :
    out2_14 (F := Ideal) x0 x1 x2 x3 x4 x5 x6 x7 x8 x9 x10 x11 x12 x13
      = Spec.out x0 x1 x2 x3 x4 (Spec.row x5) (Spec.row x6) (Spec.row x7) x8 x9 (Spec.row x10) (Spec.row x11) x12 (Spec.row x13) := by
  unfold out2_14
  rw [View.canon_unit_zero hz]
  simp only [View.ld_unit_zero (S := S1024x128) hz, View.ld_unit_zero (S := S1024x256) hz, View.ld_unit_zero (S := S256x384) hz,
    View.ld_unit_zero (S := S1x256) hz, View.ld_unit_zero (S := S768x256) hz, View.ld_unit_zero (S := S1x768) hz,
    View.ld_unit_zero (S := S128x256) hz, View.ld_unit_zero (S := S1x128) hz]
  rw [pay2_eq, hnew_pay]
  rfl

/-! ## The one grid point: every window's block is its whole array -/

/-- Window 0's block at the point is its whole array (the first input array). -/
private theorem iblk_0 (c : Dev nD) : (iblk2 V c 0 t2_0 : Vec Ideal S1024x128 .f32) = V c main_arg4 := by
  have hz' : (fun a => win2_0.index t2_0 a * main_arg4.ty.shape.size a) = fun _ => 0 := funext fun a => by
    fin_cases a <;> decide
  exact Memref.read_access_unit_zero (Elt Ideal) main_arg4 hz' (fun a => by rw [congrFun hz' a]; simp) (V c main_arg4)

/-- Window 1's block at the point is its whole array (the second input array). -/
private theorem iblk_1 (c : Dev nD) : (iblk2 V c 1 t2_0 : Vec Ideal S1024x128 .f32) = V c main_v20 := by
  have hz' : (fun a => win2_1.index t2_0 a * main_v20.ty.shape.size a) = fun _ => 0 := funext fun a => by
    fin_cases a <;> decide
  exact Memref.read_access_unit_zero (Elt Ideal) main_v20 hz' (fun a => by rw [congrFun hz' a]; simp) (V c main_v20)

/-- Window 2's block at the point is its whole array (the third input array). -/
private theorem iblk_2 (c : Dev nD) : (iblk2 V c 2 t2_0 : Vec Ideal S1024x128 .f32) = V c main_v9 := by
  have hz' : (fun a => win2_2.index t2_0 a * main_v9.ty.shape.size a) = fun _ => 0 := funext fun a => by
    fin_cases a <;> decide
  exact Memref.read_access_unit_zero (Elt Ideal) main_v9 hz' (fun a => by rw [congrFun hz' a]; simp) (V c main_v9)

/-- Window 3's block at the point is its whole array (the old hidden state). -/
private theorem iblk_3 (c : Dev nD) : (iblk2 V c 3 t2_0 : Vec Ideal S1024x256 .f32) = V c main_arg3 := by
  have hz' : (fun a => win2_3.index t2_0 a * main_arg3.ty.shape.size a) = fun _ => 0 := funext fun a => by
    fin_cases a <;> decide
  exact Memref.read_access_unit_zero (Elt Ideal) main_arg3 hz' (fun a => by rw [congrFun hz' a]; simp) (V c main_arg3)

/-- Window 4's block at the point is its whole array (the first layer's weight). -/
private theorem iblk_4 (c : Dev nD) : (iblk2 V c 4 t2_0 : Vec Ideal S256x384 .f32) = V c main_arg6 := by
  have hz' : (fun a => win2_4.index t2_0 a * main_arg6.ty.shape.size a) = fun _ => 0 := funext fun a => by
    fin_cases a <;> decide
  exact Memref.read_access_unit_zero (Elt Ideal) main_arg6 hz' (fun a => by rw [congrFun hz' a]; simp) (V c main_arg6)

/-- Window 5's block at the point is its whole array (the first layer's bias row). -/
private theorem iblk_5 (c : Dev nD) : (iblk2 V c 5 t2_0 : Vec Ideal S1x256 .f32) = V c main_v21 := by
  have hz' : (fun a => win2_5.index t2_0 a * main_v21.ty.shape.size a) = fun _ => 0 := funext fun a => by
    fin_cases a <;> decide
  exact Memref.read_access_unit_zero (Elt Ideal) main_v21 hz' (fun a => by rw [congrFun hz' a]; simp) (V c main_v21)

/-- Window 6's block at the point is its whole array (the normalisation's scale row). -/
private theorem iblk_6 (c : Dev nD) : (iblk2 V c 6 t2_0 : Vec Ideal S1x256 .f32) = V c main_v22 := by
  have hz' : (fun a => win2_6.index t2_0 a * main_v22.ty.shape.size a) = fun _ => 0 := funext fun a => by
    fin_cases a <;> decide
  exact Memref.read_access_unit_zero (Elt Ideal) main_v22 hz' (fun a => by rw [congrFun hz' a]; simp) (V c main_v22)

/-- Window 7's block at the point is its whole array (the normalisation's shift row). -/
private theorem iblk_7 (c : Dev nD) : (iblk2 V c 7 t2_0 : Vec Ideal S1x256 .f32) = V c main_v23 := by
  have hz' : (fun a => win2_7.index t2_0 a * main_v23.ty.shape.size a) = fun _ => 0 := funext fun a => by
    fin_cases a <;> decide
  exact Memref.read_access_unit_zero (Elt Ideal) main_v23 hz' (fun a => by rw [congrFun hz' a]; simp) (V c main_v23)

/-- Window 8's block at the point is its whole array (the input-gate weight). -/
private theorem iblk_8 (c : Dev nD) : (iblk2 V c 8 t2_0 : Vec Ideal S768x256 .f32) = V c main_arg10 := by
  have hz' : (fun a => win2_8.index t2_0 a * main_arg10.ty.shape.size a) = fun _ => 0 := funext fun a => by
    fin_cases a <;> decide
  exact Memref.read_access_unit_zero (Elt Ideal) main_arg10 hz' (fun a => by rw [congrFun hz' a]; simp) (V c main_arg10)

/-- Window 9's block at the point is its whole array (the hidden-gate weight). -/
private theorem iblk_9 (c : Dev nD) : (iblk2 V c 9 t2_0 : Vec Ideal S768x256 .f32) = V c main_arg11 := by
  have hz' : (fun a => win2_9.index t2_0 a * main_arg11.ty.shape.size a) = fun _ => 0 := funext fun a => by
    fin_cases a <;> decide
  exact Memref.read_access_unit_zero (Elt Ideal) main_arg11 hz' (fun a => by rw [congrFun hz' a]; simp) (V c main_arg11)

/-- Window 10's block at the point is its whole array (the input-gate bias row). -/
private theorem iblk_10 (c : Dev nD) : (iblk2 V c 10 t2_0 : Vec Ideal S1x768 .f32) = V c main_v24 := by
  have hz' : (fun a => win2_10.index t2_0 a * main_v24.ty.shape.size a) = fun _ => 0 := funext fun a => by
    fin_cases a <;> decide
  exact Memref.read_access_unit_zero (Elt Ideal) main_v24 hz' (fun a => by rw [congrFun hz' a]; simp) (V c main_v24)

/-- Window 11's block at the point is its whole array (the hidden-gate bias row). -/
private theorem iblk_11 (c : Dev nD) : (iblk2 V c 11 t2_0 : Vec Ideal S1x768 .f32) = V c main_v25 := by
  have hz' : (fun a => win2_11.index t2_0 a * main_v25.ty.shape.size a) = fun _ => 0 := funext fun a => by
    fin_cases a <;> decide
  exact Memref.read_access_unit_zero (Elt Ideal) main_v25 hz' (fun a => by rw [congrFun hz' a]; simp) (V c main_v25)

/-- Window 12's block at the point is its whole array (the output layer's weight). -/
private theorem iblk_12 (c : Dev nD) : (iblk2 V c 12 t2_0 : Vec Ideal S128x256 .f32) = V c main_arg14 := by
  have hz' : (fun a => win2_12.index t2_0 a * main_arg14.ty.shape.size a) = fun _ => 0 := funext fun a => by
    fin_cases a <;> decide
  exact Memref.read_access_unit_zero (Elt Ideal) main_arg14 hz' (fun a => by rw [congrFun hz' a]; simp) (V c main_arg14)

/-- Window 13's block at the point is its whole array (the output layer's bias row). -/
private theorem iblk_13 (c : Dev nD) : (iblk2 V c 13 t2_0 : Vec Ideal S1x128 .f32) = V c main_v26 := by
  have hz' : (fun a => win2_13.index t2_0 a * main_v26.ty.shape.size a) = fun _ => 0 := funext fun a => by
    fin_cases a <;> decide
  exact Memref.read_access_unit_zero (Elt Ideal) main_v26 hz' (fun a => by rw [congrFun hz' a]; simp) (V c main_v26)

/-! ## The two result arrays -/

/-- The one write-back of the hidden-state window writes the new hidden state of the arrays the region finds. -/
private theorem flushed15_eq (c : Dev nD) (t : Fin cfg2.N) (hf : (cfg2.win 15).flush t = true) :
    (dat2 V c).flushed 15 t = ((cfg2.win 15).blk t).view.read (Elt Ideal)
      (Spec.hnew (V c main_arg4) (V c main_v20) (V c main_v9) (V c main_arg3) (V c main_arg6) (Spec.row (V c main_v21))
          (Spec.row (V c main_v22)) (Spec.row (V c main_v23)) (V c main_arg10) (V c main_arg11) (Spec.row (V c main_v24))
          (Spec.row (V c main_v25)) : Vec Ideal S1024x256 .f32) := by
  obtain rfl : t = t2_0 := fin_N2 t
  show (cfg2.win 15).cut (grid2.coords t2_0) ((dat2 V c).after 15 t2_0) = _
  rw [after2_15, out2_15_eq, iblk_0, iblk_1, iblk_2, iblk_3, iblk_4, iblk_5, iblk_6, iblk_7, iblk_8, iblk_9, iblk_10, iblk_11]
  have hz' : (fun a => win2_15.index t2_0 a * main_v27_1.ty.shape.size a) = fun _ => 0 := funext fun a => by
    fin_cases a <;> decide
  exact (Memref.read_access_unit_zero (Elt Ideal) main_v27_1 hz' (fun a => by rw [congrFun hz' a]; simp) _).symm

/-- The one write-back of the output window writes the output layer on the new hidden state. -/
private theorem flushed14_eq (c : Dev nD) (t : Fin cfg2.N) (hf : (cfg2.win 14).flush t = true) :
    (dat2 V c).flushed 14 t = ((cfg2.win 14).blk t).view.read (Elt Ideal)
      (Spec.out (V c main_arg4) (V c main_v20) (V c main_v9) (V c main_arg3) (V c main_arg6) (Spec.row (V c main_v21))
          (Spec.row (V c main_v22)) (Spec.row (V c main_v23)) (V c main_arg10) (V c main_arg11) (Spec.row (V c main_v24))
          (Spec.row (V c main_v25)) (V c main_arg14) (Spec.row (V c main_v26)) : Vec Ideal S1024x128 .f32) := by
  obtain rfl : t = t2_0 := fin_N2 t
  show (cfg2.win 14).cut (grid2.coords t2_0) ((dat2 V c).after 14 t2_0) = _
  rw [after2_14, out2_14_eq, iblk_0, iblk_1, iblk_2, iblk_3, iblk_4, iblk_5, iblk_6, iblk_7, iblk_8, iblk_9, iblk_10, iblk_11,
    iblk_12, iblk_13]
  have hz' : (fun a => win2_14.index t2_0 a * main_v27_0.ty.shape.size a) = fun _ => 0 := funext fun a => by
    fin_cases a <;> decide
  exact (Memref.read_access_unit_zero (Elt Ideal) main_v27_0 hz' (fun a => by rw [congrFun hz' a]; simp) _).symm

/-- The hidden-state result array after the region. -/
theorem hnew_final (c : Dev nD) :
    (dat2 V c).arrAt 15 cfg2.N
      = (Spec.hnew (V c main_arg4) (V c main_v20) (V c main_v9) (V c main_arg3) (V c main_arg6) (Spec.row (V c main_v21))
          (Spec.row (V c main_v22)) (Spec.row (V c main_v23)) (V c main_arg10) (V c main_arg11) (Spec.row (V c main_v24))
          (Spec.row (V c main_v25)) : Vec Ideal S1024x256 .f32) :=
  (dat2 V c).arrAt_eq_of_cover 15 _ (flushed15_eq V c) fun i =>
    ⟨t2_0, flush2_15 t2_0, by
      show i ∈ ((View.whole main_v27_1).slice (win2_15.rect t2_0)).set
      rw [View.set_slice_whole, Rect.mem_set_unit]
      intro a
      have h0 : (i 0 : Nat) < 1024 := (i 0).isLt
      have h1 : (i 1 : Nat) < 256 := (i 1).isLt
      match a with
      | ⟨0, _⟩ => show win2_15.index t2_0 0 * win2_15.size 0 ≤ (i 0 : Nat) ∧ (i 0 : Nat) < win2_15.index t2_0 0 * win2_15.size 0 + win2_15.xsize (grid2.coords t2_0) 0
                  rw [show win2_15.index t2_0 0 * win2_15.size 0 = 0 from by decide +kernel, show win2_15.xsize (grid2.coords t2_0) 0 = 1024 from by decide +kernel]; omega
      | ⟨1, _⟩ => show win2_15.index t2_0 1 * win2_15.size 1 ≤ (i 1 : Nat) ∧ (i 1 : Nat) < win2_15.index t2_0 1 * win2_15.size 1 + win2_15.xsize (grid2.coords t2_0) 1
                  rw [show win2_15.index t2_0 1 * win2_15.size 1 = 0 from by decide +kernel, show win2_15.xsize (grid2.coords t2_0) 1 = 256 from by decide +kernel]; omega⟩

/-- The output result array after the region. -/
theorem out_final (c : Dev nD) :
    (dat2 V c).arrAt 14 cfg2.N
      = (Spec.out (V c main_arg4) (V c main_v20) (V c main_v9) (V c main_arg3) (V c main_arg6) (Spec.row (V c main_v21))
          (Spec.row (V c main_v22)) (Spec.row (V c main_v23)) (V c main_arg10) (V c main_arg11) (Spec.row (V c main_v24))
          (Spec.row (V c main_v25)) (V c main_arg14) (Spec.row (V c main_v26)) : Vec Ideal S1024x128 .f32) :=
  (dat2 V c).arrAt_eq_of_cover 14 _ (flushed14_eq V c) fun i =>
    ⟨t2_0, flush2_14 t2_0, by
      show i ∈ ((View.whole main_v27_0).slice (win2_14.rect t2_0)).set
      rw [View.set_slice_whole, Rect.mem_set_unit]
      intro a
      have h0 : (i 0 : Nat) < 1024 := (i 0).isLt
      have h1 : (i 1 : Nat) < 128 := (i 1).isLt
      match a with
      | ⟨0, _⟩ => show win2_14.index t2_0 0 * win2_14.size 0 ≤ (i 0 : Nat) ∧ (i 0 : Nat) < win2_14.index t2_0 0 * win2_14.size 0 + win2_14.xsize (grid2.coords t2_0) 0
                  rw [show win2_14.index t2_0 0 * win2_14.size 0 = 0 from by decide +kernel, show win2_14.xsize (grid2.coords t2_0) 0 = 1024 from by decide +kernel]; omega
      | ⟨1, _⟩ => show win2_14.index t2_0 1 * win2_14.size 1 ≤ (i 1 : Nat) ∧ (i 1 : Nat) < win2_14.index t2_0 1 * win2_14.size 1 + win2_14.xsize (grid2.coords t2_0) 1
                  rw [show win2_14.index t2_0 1 * win2_14.size 1 = 0 from by decide +kernel, show win2_14.xsize (grid2.coords t2_0) 1 = 128 from by decide +kernel]; omega⟩

end Cert.KernelIdeal.CellK

end
-- ==== Proof.GlueA.lean ====
/-
  The host operations around the two scatter regions of the kernel program, read back: what the edge region finds (the
  edge values as launched; the segment words gathered from `batch` at the first row of `edge_index`), and what the node
  region finds (the node values and `batch`, each extended by 1120 rows: zeros, and the word 1024 that is no segment's).
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- A reference that no operation of a stretch writes holds after it what it held before. -/
private theorem keep (ops : List (HloOp τ sig (Elt Ideal))) (V : Valuation τ sig (Elt Ideal)) (r : Ref sig .tc)
    (h : ops.Forall fun op => (Proc.devRef .tc r : DevRef τ sig) ∉ op.writes) :
    StableHlo.after ops V (Proc.devRef .tc r) = V (Proc.devRef .tc r) :=
  StableHlo.after_of_forall_not_mem ops V (List.forall_iff_forall_mem.mp h)

/-- The edge region reads the edge values as launched. -/
theorem V3_arg2 (c : Dev nD) : V3 m ρ c main_arg2 = m ((c : Thread nD τ).loc main_arg2) :=
  calc V3 m ρ c main_arg2
    _ = W2 m ρ c (Proc.devRef .tc main_arg2) := keep _ _ main_arg2 (by
          simp only [hostOps0_2, List.Forall, StableHlo.reshape_writes, Finset.mem_singleton]
          repeat' apply And.intro
          all_goals exact StableHlo.devRef_ne_of_ne (by decide))
    _ = W1 m ρ c (Proc.devRef .tc main_arg2) := keep _ _ main_arg2 (by
          simp only [hostOps0_1, List.Forall, StableHlo.nullary_writes, StableHlo.unary_writes, StableHlo.binary_writes,
            StableHlo.ternary_writes, Finset.mem_singleton]
          repeat' apply And.intro
          all_goals exact StableHlo.devRef_ne_of_ne (by decide))
    _ = W0 m ρ c (Proc.devRef .tc main_arg2) := keep _ _ main_arg2 (by
          simp only [hostOps0, List.Forall, StableHlo.unary_writes, StableHlo.reshape_writes, Finset.mem_singleton]
          repeat' apply And.intro
          all_goals exact StableHlo.devRef_ne_of_ne (by decide))
    _ = m ((c : Thread nD τ).loc main_arg2) := rfl

/-- Two stretches run one after the other are their concatenation run as one. -/
private theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons]; exact ih _

/-- A reduction by `and` from the bit 1 over bits that are all 1 is 1. -/
private theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  have h11 : IntOp.andi (1#1 : BitVec 1) 1#1 = 1#1 := by decide
  induction l with
  | nil => rfl
  | cons a l ih => rw [List.foldl_cons, hx a, h11]; exact ih

/-! ### The take `batch[row]` as the program spells it, and what it reads -/

/-- The index of a take: a negative row has the table's length added. -/
private def tkIdx (row : IVec S1600000 32) : IVec S1600000 32 :=
  select (cmpi .slt row (broadcastInDim S1600000 ![] bcast_S_S1600000 (constantI S_ 32 0#32)))
    (addi row (broadcastInDim S1600000 ![] bcast_S_S1600000 (constantI S_ 32 100000#32))) row

/-- The indices as a column. -/
private def tkCol (row : IVec S1600000 32) : IVec S1600000x1 32 :=
  broadcastInDim S1600000x1 ![0] bcast_S1600000_S1600000x1_0 (tkIdx row)

/-- The in-range test `0 ≤ index ≤ 99999`, per entry of a column of indices. -/
private def tkTest (col : IVec S1600000x1 32) : IVec S1600000x1 1 :=
  andi (cmpi .sge col (broadcastInDim S1600000x1 ![] bcast_S_S1600000x1 (constantI S_ 32 0#32)))
    (cmpi .sle col (broadcastInDim S1600000x1 ![0, 1] bcast_S1x1_S1600000x1_0_1
      (broadcastInDim S1x1 ![1] bcast_S1_S1x1_1 (constantI S1 32 99999#32))))

/-- The test reduced over the column's unit axis. -/
private def tkMask (col : IVec S1600000x1 32) : IVec S1600000 1 :=
  Host.reduce IntOp.andi (tkTest col) (constantI S_ 1 1#1) reducesTo_S1600000x1_S1600000_d1 h_S_

/-- The take's result: the table gathered at the column where the mask is set, the word `0x80000000` elsewhere. -/
private def tkOut (mask : IVec S1600000 1) (batch : IVec S100000 32) (col : IVec S1600000x1 32) : IVec S1600000 32 :=
  select mask (Host.gather gather_S100000_S1600000x1_S1600000_n_0_n_n_0_1_1 batch col)
    (broadcastInDim S1600000 ![] bcast_S_S1600000 (constantI S_ 32 2147483648#32))

/-- A row that is an index into the table is not negative: the take's index is the row. -/
private theorem tkIdx_apply (row : IVec S1600000 32) (y : S1600000.Idx) (hy : (row y).toNat < 100000) :
    tkIdx row y = row y := by
  show Scalar.select (IntOp.cmpi .slt (row y) 0#32) (IntOp.addi (row y) 100000#32) (row y) = row y
  have h0 : IntOp.cmpi .slt (row y) 0#32 = 0#1 := eq_zero_of_ne_one fun h =>
    absurd ((StableHlo.Predicate.slt_iff_toNat (by omega) (by decide)).mp h) (Nat.not_lt_zero _)
  rw [h0, select_zero]

/-- Every entry of a column is its first coordinate's. -/
private theorem eq_ixP (i : S1600000x1.Idx) : i = StableHlo.Predicate.ixP (i 0) := funext fun a => by
  match a with
  | ⟨0, _⟩ => rfl
  | ⟨1, h⟩ =>
    refine Fin.ext ?_
    have h1 : (i ⟨1, h⟩).val < 1 := (i ⟨1, h⟩).isLt
    show (i ⟨1, h⟩).val = 0
    omega

/-- The column at entry `p` is the row at `p`, for a row that is an index into the table. -/
private theorem tkCol_apply (row : IVec S1600000 32) (p : Fin 1600000) (hp : (row (Shape.Idx.ofFin p)).toNat < 100000) :
    tkCol row (StableHlo.Predicate.ixP p) = row (Shape.Idx.ofFin p) :=
  (StableHlo.Predicate.bcast_col1 bcast_S1600000_S1600000x1_0 (tkIdx row) p).trans (tkIdx_apply row _ hp)

/-- An index into the table passes the in-range test. -/
private theorem tkTest_apply (col : IVec S1600000x1 32) (i : S1600000x1.Idx) (hi : (col i).toNat < 100000) :
    tkTest col i = 1#1 := by
  show IntOp.andi (IntOp.cmpi .sge (col i) 0#32) (IntOp.cmpi .sle (col i) 99999#32) = 1#1
  have h9 : (99999#32 : BitVec 32).toNat = 99999 := by decide
  have h1 : IntOp.cmpi .sge (col i) 0#32 = 1#1 :=
    (StableHlo.Predicate.sge_iff_toNat (by omega) (by decide)).mpr (Nat.zero_le _)
  have h2 : IntOp.cmpi .sle (col i) 99999#32 = 1#1 :=
    (StableHlo.Predicate.sle_iff_toNat (by omega) (by decide)).mpr (by rw [h9]; omega)
  rw [h1, h2]
  decide

/-- The mask is set on every row when every entry of the column is an index into the table. -/
private theorem tkMask_one (col : IVec S1600000x1 32) (hc : ∀ i, (col i).toNat < 100000) (y : S1600000.Idx) :
    tkMask col y = 1#1 :=
  reduce_andi_ones (tkTest col) (constantI S_ 1 1#1) reducesTo_S1600000x1_S1600000_d1 h_S_ y rfl
    fun i => tkTest_apply col i (hc i)

/-- Where the mask is set, the take's result at row `e` is the table at the column's entry. -/
private theorem tkOut_apply (mask : IVec S1600000 1) (batch : IVec S100000 32) (col : IVec S1600000x1 32) (e : Fin 1600000)
    (hm : mask (ix1 e) = 1#1) (k : Nat) (hk : k < 100000) (hck : (col (StableHlo.Predicate.ixP e)).toNat = k) :
    tkOut mask batch col (ix1 e) = batch (ix1 ⟨k, hk⟩) := by
  have he : (ix1 e : S1600000.Idx) = Shape.Idx.ofFin e := Shape.Idx.eq_ofFin (ix1 e)
  show Scalar.select (mask (ix1 e)) (Host.gather gather_S100000_S1600000x1_S1600000_n_0_n_n_0_1_1 batch col (ix1 e))
    (2147483648#32) = _
  rw [hm, select_one, he]
  refine (StableHlo.Predicate.gather_take gather_S100000_S1600000x1_S1600000_n_0_n_n_0_1_1 rfl rfl rfl rfl batch col e
    (by omega)).trans ?_
  have hi : (col (StableHlo.Predicate.ixP e)).toInt.toNat = k := by
    rw [StableHlo.Predicate.toInt_eq_toNat_of_lt (by omega), Int.toNat_natCast, hck]
  refine congrArg batch ?_
  rw [Shape.Idx.eq_ofFin (ix1 (⟨k, hk⟩ : Fin 100000))]
  refine congrArg Shape.Idx.ofFin (Fin.ext ?_)
  show min (col (StableHlo.Predicate.ixP e)).toInt.toNat (100000 - 1) = k
  rw [hi]
  omega

/-! ### The host operations before the edge region, a stretch at a time over any starting contents -/

/-- After the first stretch: the first row of `edge_index`, as a vector. -/
private theorem stretch0 (V : Valuation τ sig (Elt Ideal)) :
    (StableHlo.after (hostOps0 (F := Ideal)) V (Proc.devRef .tc main_v1) : IVec S1600000 32)
      = fun i => shapeCast S1600000
          (extractStridedSlice S1x1600000 ![0, 0] (V (Proc.devRef .tc main_arg1) : IVec S2x1600000 32) slices_S2x1600000_S1x1600000_0_0)
          shapeCasts_S1x1600000_S1600000 i := by
  after_results
  rfl

/-- The take's operations up to the column of indices. -/
private def opsA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]

/-- The take's operations from the in-range test to its reduction. -/
private def opsB : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The take's gather and final select. -/
private def opsC : List (HloOp τ sig (Elt Ideal)) :=
  [ StableHlo.TRef.binary (.of main_arg5 : StableHlo.TRef sig ⟨S100000, .i32⟩) (.of main_call0_v5 : StableHlo.TRef sig ⟨S1600000x1, .i32⟩) (.of main_call0_v13 : StableHlo.TRef sig ⟨S1600000, .i32⟩) (fun x i => Host.gather gather_S100000_S1600000x1_S1600000_n_0_n_n_0_1_1 x i),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v14 : StableHlo.TRef sig ⟨S1600000, .i32⟩) (broadcastInDim S1600000 ![] bcast_S_S1600000),
    StableHlo.TRef.ternary (.of main_call0_v12 : StableHlo.TRef sig ⟨S1600000, .i1⟩) (.of main_call0_v13 : StableHlo.TRef sig ⟨S1600000, .i32⟩) (.of main_call0_v14 : StableHlo.TRef sig ⟨S1600000, .i32⟩) (.of main_v2 : StableHlo.TRef sig ⟨S1600000, .i32⟩) select ]

private theorem opsA_col (V : Valuation τ sig (Elt Ideal)) :
    (StableHlo.after opsA V (Proc.devRef .tc main_call0_v5) : IVec S1600000x1 32) = tkCol (V (Proc.devRef .tc main_v1)) := by
  unfold opsA
  after_results
  rfl

private theorem opsA_arg5 (V : Valuation τ sig (Elt Ideal)) :
    StableHlo.after opsA V (Proc.devRef .tc main_arg5) = V (Proc.devRef .tc main_arg5) :=
  keep _ _ main_arg5 (by
      simp only [opsA, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))

private theorem opsB_mask (V : Valuation τ sig (Elt Ideal)) :
    (StableHlo.after opsB V (Proc.devRef .tc main_call0_v12) : IVec S1600000 1) = tkMask (V (Proc.devRef .tc main_call0_v5)) := by
  unfold opsB
  after_results
  unfold tkMask
  refine cast_eq_iff_heq.mpr (heq_of_eq ?_)
  rfl

private theorem opsB_v5 (V : Valuation τ sig (Elt Ideal)) :
    StableHlo.after opsB V (Proc.devRef .tc main_call0_v5) = V (Proc.devRef .tc main_call0_v5) :=
  keep _ _ main_call0_v5 (by
      simp only [opsB, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))

private theorem opsB_arg5 (V : Valuation τ sig (Elt Ideal)) :
    StableHlo.after opsB V (Proc.devRef .tc main_arg5) = V (Proc.devRef .tc main_arg5) :=
  keep _ _ main_arg5 (by
      simp only [opsB, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))

private theorem opsC_out (V : Valuation τ sig (Elt Ideal)) :
    (StableHlo.after opsC V (Proc.devRef .tc main_v2) : IVec S1600000 32)
      = tkOut (V (Proc.devRef .tc main_call0_v12)) (V (Proc.devRef .tc main_arg5)) (V (Proc.devRef .tc main_call0_v5)) := by
  unfold opsC
  after_results
  rfl

/-- After the take's stretch: the take of `batch` at the vector of rows. -/
private theorem stretch1 (V : Valuation τ sig (Elt Ideal)) :
    (StableHlo.after (hostOps0_1 (F := Ideal)) V (Proc.devRef .tc main_v2) : IVec S1600000 32)
      = tkOut (tkMask (tkCol (V (Proc.devRef .tc main_v1)))) (V (Proc.devRef .tc main_arg5)) (tkCol (V (Proc.devRef .tc main_v1))) := by
  have hs : (hostOps0_1 (F := Ideal) : List (HloOp τ sig (Elt Ideal))) = opsA ++ (opsB ++ opsC) := rfl
  rw [hs, after_append, after_append, opsC_out, opsB_mask, opsB_v5, opsB_arg5, opsA_col, opsA_arg5]

/-- After the last stretch: the taken vector as a one-row array. -/
private theorem stretch2 (V : Valuation τ sig (Elt Ideal)) :
    (StableHlo.after (hostOps0_2 (F := Ideal)) V (Proc.devRef .tc main_v3) : IVec S1x1600000 32)
      = fun i => shapeCast S1x1600000 (V (Proc.devRef .tc main_v2) : IVec S1600000 32) shapeCasts_S1600000_S1x1600000 i := by
  after_results
  rfl

/-- The vector of rows the take reads: the first row of `edge_index` as launched. -/
private theorem row_apply (c : Dev nD) (p : Fin 1600000) :
    (W1 m ρ c (Proc.devRef .tc main_v1) : IVec S1600000 32) (ix1 p) = m ((c : Thread nD τ).loc main_arg1) (ix2 0 p) :=
  (congrFun (stretch0 (W0 m ρ c)) (ix1 p)).trans
    ((shapeCast_1a_a_apply _ _ p).trans (slice2_axis0_apply 0 _ _ (0 : Fin 1) p (0 : Fin 2) rfl))

/-- The same at any index of the vector. -/
private theorem row_at (c : Dev nD) (y : S1600000.Idx) :
    (W1 m ρ c (Proc.devRef .tc main_v1) : IVec S1600000 32) y = m ((c : Thread nD τ).loc main_arg1) (ix2 0 (y 0)) :=
  (congrArg (W1 m ρ c (Proc.devRef .tc main_v1) : IVec S1600000 32) (eq_ix1 y)).trans (row_apply m ρ c (y 0))

/-- The table the take reads: `batch` as launched. -/
private theorem batch_eq (c : Dev nD) :
    W1 m ρ c (Proc.devRef .tc main_arg5) = m ((c : Thread nD τ).loc main_arg5) :=
  (keep _ _ main_arg5 (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))).trans rfl

/-- The edge region's segment words: where every word of `edge_index`'s first row is an index into `batch`, the
    gathered word is `batch` at it (the in-range test of the take passes on every row). -/
theorem V3_seg (c : Dev nD)
    (hr : ∀ e : Fin 1600000, (m ((c : Thread nD τ).loc main_arg1) (ix2 0 e)).toNat < 100000) (e : Fin 1600000) :
    V3 m ρ c main_v3 (ix2 0 e)
      = Spec.takeSeg (fun e => m ((c : Thread nD τ).loc main_arg1) (ix2 0 e)) (fun n => m ((c : Thread nD τ).loc main_arg5) (ix1 n)) e := by
  have hrow : ∀ y : S1600000.Idx, ((W1 m ρ c (Proc.devRef .tc main_v1) : IVec S1600000 32) y).toNat < 100000 := fun y => by
    rw [row_at m ρ c y]
    exact hr (y 0)
  have hcol : ∀ i : S1600000x1.Idx,
      (tkCol (W1 m ρ c (Proc.devRef .tc main_v1) : IVec S1600000 32) i).toNat < 100000 := fun i => by
    have hi : tkCol (W1 m ρ c (Proc.devRef .tc main_v1) : IVec S1600000 32) i
        = (W1 m ρ c (Proc.devRef .tc main_v1) : IVec S1600000 32) (Shape.Idx.ofFin (i 0)) :=
      (congrArg (tkCol (W1 m ρ c (Proc.devRef .tc main_v1) : IVec S1600000 32)) (eq_ixP i)).trans
        (tkCol_apply _ (i 0) (hrow _))
    rw [hi]
    exact hrow _
  have e3 : V3 m ρ c main_v3 (ix2 0 e) = (W2 m ρ c (Proc.devRef .tc main_v2) : IVec S1600000 32) (ix1 e) :=
    (congrFun (stretch2 (W2 m ρ c)) (ix2 0 e)).trans (shapeCast_a_1a_apply _ _ 0 e)
  have hk : ((tkCol (W1 m ρ c (Proc.devRef .tc main_v1) : IVec S1600000 32)) (StableHlo.Predicate.ixP e)).toNat
      = (m ((c : Thread nD τ).loc main_arg1) (ix2 0 e)).toNat :=
    congrArg BitVec.toNat ((tkCol_apply _ e (hrow _)).trans (row_at m ρ c (Shape.Idx.ofFin e)))
  refine e3.trans ((congrFun (stretch1 (W1 m ρ c)) (ix1 e)).trans ?_)
  refine (tkOut_apply _ _ _ e (tkMask_one _ hcol _) _ (hr e) hk).trans ?_
  rw [batch_eq m ρ c]
  unfold Spec.takeSeg
  rw [dif_pos (hr e)]

end Cert.KernelIdeal.Glue

end
-- ==== Proof.GlueA2.lean ====
/-
  The host operations before the node scatter region of the kernel program, read back: the node values and `batch`,
  each extended by 1120 rows — zeros, and the word 1024 that is no segment's.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- A buffer none of a stretch's operations writes holds after the stretch what it held before. -/
local macro "kept_through " ops:ident : term =>
  `(StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The node values are as launched when the node scatter region's host operations begin. -/
private theorem W4_main_arg0 (c : Dev nD) :
    W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := kept_through hostOps0_2
    _ = W1 m ρ c (Proc.devRef .tc main_arg0) := kept_through hostOps0_1
    _ = W0 m ρ c (Proc.devRef .tc main_arg0) := kept_through hostOps0
    _ = m ((c : Thread nD τ).loc main_arg0) := rfl

/-- `batch` is as launched when the node scatter region's host operations begin. -/
private theorem W4_main_arg5 (c : Dev nD) :
    W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := kept_through hostOps0_2
    _ = W1 m ρ c (Proc.devRef .tc main_arg5) := kept_through hostOps0_1
    _ = W0 m ρ c (Proc.devRef .tc main_arg5) := kept_through hostOps0
    _ = m ((c : Thread nD τ).loc main_arg5) := rfl

/-- The node region's values: the launched node rows followed by a block of zeros. -/
private theorem V5_v11_eq (c : Dev nD) :
    V5 m ρ c main_v11
      = concatenate S101120x128 0
          [⟨S100000x128, (m ((c : Thread nD τ).loc main_arg0) : (⟨S100000x128, .f32⟩ : BufTy).Contents (Elt Ideal))⟩,
           ⟨S1120x128, broadcastInDim S1120x128 ![] bcast_S_S1120x128 (constant (F := Ideal) S_ .f32 0x00000000#32)⟩]
          concatenates_S100000x128_S1120x128_S101120x128_d0 := by
  rw [← W4_main_arg0 m ρ c]
  show StableHlo.after hostOps1 (W4 m ρ c) (Proc.devRef .tc main_v11) = _
  after_results

/-- The node region's segment words: the launched `batch` followed by a block of the word 1024, as one row. -/
private theorem V5_v14_eq (c : Dev nD) :
    V5 m ρ c main_v14
      = shapeCast S1x101120 (concatenate S101120 0
          [⟨S100000, (m ((c : Thread nD τ).loc main_arg5) : (⟨S100000, .i32⟩ : BufTy).Contents (Elt Ideal))⟩,
           ⟨S1120, broadcastInDim S1120 ![] bcast_S_S1120 (constantI S_ 32 1024#32)⟩]
          concatenates_S100000_S1120_S101120_d0) shapeCasts_S101120_S1x101120 := by
  rw [← W4_main_arg5 m ρ c]
  show StableHlo.after hostOps1 (W4 m ρ c) (Proc.devRef .tc main_v14) = _
  after_results
  rfl

/-- The node region's values: the node rows, then zero rows. -/
theorem V5_xpad_lo (c : Dev nD) (t : Fin 101120) (ht : t.val < 100000) (f : Fin 128) :
    V5 m ρ c main_v11 (ix2 t f) = m ((c : Thread nD τ).loc main_arg0) (ix2 ⟨t.val, ht⟩ f) := by
  rw [V5_v11_eq]
  refine concatenate_pair_apply_left (t := S101120x128) (s₁ := S100000x128) (s₂ := S1120x128) 0 _ _ _ (ix2 t f) rfl (ix2 ⟨t.val, ht⟩ f) ?_
  intro b
  match b with
  | ⟨0, _⟩ => rfl
  | ⟨1, _⟩ => rfl

/-- The node region's segment words: `batch`, then the word 1024. -/
theorem V5_seg_lo (c : Dev nD) (t : Fin 101120) (ht : t.val < 100000) :
    V5 m ρ c main_v14 (ix2 0 t) = m ((c : Thread nD τ).loc main_arg5) (ix1 ⟨t.val, ht⟩) := by
  rw [V5_v14_eq]
  refine (shapeCast_a_1a_apply _ shapeCasts_S101120_S1x101120 0 t).trans ?_
  refine concatenate_pair_apply_left (t := S101120) (s₁ := S100000) (s₂ := S1120) 0 _ _ _ (ix1 t) rfl (ix1 ⟨t.val, ht⟩) ?_
  intro b
  match b with
  | ⟨0, _⟩ => rfl

theorem V5_seg_hi (c : Dev nD) (t : Fin 101120) (ht : 100000 ≤ t.val) :
    V5 m ρ c main_v14 (ix2 0 t) = 1024#32 := by
  rw [V5_v14_eq]
  refine (shapeCast_a_1a_apply _ shapeCasts_S101120_S1x101120 0 t).trans ?_
  refine (concatenate_pair_apply_right (t := S101120) (s₁ := S100000) (s₂ := S1120) 0 _ _ _ (ix1 t) rfl rfl (ix1 (⟨t.val - 100000, by have := t.isLt; omega⟩ : Fin 1120)) ?_ ?_).trans ?_
  · intro b hb
    match b with
    | ⟨0, _⟩ => exact absurd rfl hb
  · show t.val - 100000 + 100000 = t.val
    omega
  · rfl

end Cert.KernelIdeal.Glue

end
-- ==== Proof.GlueB.lean ====
/-
  The host operations before the cell region of the kernel program, read back: the two segment means (each scatter
  region's sums over `max (count, 1)`), the arguments the region reads as launched, and the six bias and scale vectors
  as `1 × n` rows.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- A stretch of host operations leaves a buffer none of them writes as it was. -/
local macro "untouched_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- A quotient by the count column, first raised to at least one and laid along the rows, is the segment mean. -/
private theorem segMean_read (s : Vec Ideal S1024x128 .f32) (cnt : Vec Ideal S1024 .f32) :
    (Host.divf s (broadcastInDim S1024x128 ![0, 1] bcast_S1024x1_S1024x128_0_1
        (broadcastInDim S1024x1 ![0] bcast_S1024_S1024x1_0
          (maximumf cnt (broadcastInDim S1024 ![] bcast_S_S1024 (constant (F := Ideal) S_ .f32 0x3F800000#32)))))
      : Vec Ideal S1024x128 .f32) = Spec.segMean s cnt := by
  funext j
  obtain ⟨p, q, rfl⟩ : ∃ p q, j = ix2 p q := ⟨j 0, j 1, eq_ix2 j⟩
  show Ideal.div (s (ix2 p q)) _ = Ideal.div (s (ix2 p q)) (max (cnt (ix1 p)) Spec.cone)
  refine congrArg (Ideal.div (s (ix2 p q))) ?_
  refine (broadcastInDim_apply _ _ _ (ix2 p q) (ix2 p (0 : Fin 1)) (fun a => match a with | ⟨0, _⟩ => rfl | ⟨1, _⟩ => rfl)).trans ?_
  refine (broadcastInDim_apply _ _ _ (ix2 p (0 : Fin 1)) (ix1 p) (fun a => match a with | ⟨0, _⟩ => rfl)).trans ?_
  refine (maximumf_apply _ _ _).trans ?_
  refine congrArg (max (cnt (ix1 p))) ?_
  exact broadcastInDim_apply _ _ _ (ix1 p) ix0 (fun a => a.elim0)

/-- The edge mean the cell region finds. -/
theorem V7_agge (c : Dev nD) :
    V7 m ρ c main_v9 = (Spec.segMean ((dat0 (V3 m ρ) c).arrAt 2 cfg0.N) ((dat0 (V3 m ρ) c).arrAt 3 cfg0.N) : Vec Ideal S1024x128 .f32) := by
  have h7 : W7 m ρ c (Proc.devRef .tc main_v9) = W6 m ρ c (Proc.devRef .tc main_v9) := by untouched_by hostOps2
  have h6 : W6 m ρ c (Proc.devRef .tc main_v9) = W5 m ρ c (Proc.devRef .tc main_v9) := W6_of_ne m ρ c main_v9 (by decide)
  have e0 : W4 m ρ c (Proc.devRef .tc main_v4_0) = (dat0 (V3 m ρ) c).arrAt 2 cfg0.N := W4_arr m ρ c 2
  have e1 : W4 m ρ c (Proc.devRef .tc main_v4_1) = (dat0 (V3 m ρ) c).arrAt 3 cfg0.N := W4_arr m ρ c 3
  refine (h7.trans h6).trans ?_
  show StableHlo.after hostOps1 _ (Proc.devRef .tc main_v9) = _
  after_results
  rw [e0, e1]
  exact segMean_read _ _

/-- The node mean the cell region finds. -/
theorem V7_aggn (c : Dev nD) :
    V7 m ρ c main_v20 = (Spec.segMean ((dat1 (V5 m ρ) c).arrAt 2 cfg1.N) ((dat1 (V5 m ρ) c).arrAt 3 cfg1.N) : Vec Ideal S1024x128 .f32) := by
  have e0 : W6 m ρ c (Proc.devRef .tc main_v15_0) = (dat1 (V5 m ρ) c).arrAt 2 cfg1.N := W6_arr m ρ c 2
  have e1 : W6 m ρ c (Proc.devRef .tc main_v15_1) = (dat1 (V5 m ρ) c).arrAt 3 cfg1.N := W6_arr m ρ c 3
  show StableHlo.after hostOps2 _ (Proc.devRef .tc main_v20) = _
  after_results
  rw [e0, e1]
  exact segMean_read _ _

/-- The arguments the cell region reads are as launched. -/
theorem V7_arg3 (c : Dev nD) : V7 m ρ c main_arg3 = m ((c : Thread nD τ).loc main_arg3) :=
  ((W8_arr m ρ c 3).trans (((dat2 (V7 m ρ) c).arrAt_in 3 rfl _).trans (A_eq2 (V7 m ρ) c 3))).symm.trans (W8_main_arg3 m ρ c)
theorem V7_arg4 (c : Dev nD) : V7 m ρ c main_arg4 = m ((c : Thread nD τ).loc main_arg4) :=
  ((W8_arr m ρ c 0).trans (((dat2 (V7 m ρ) c).arrAt_in 0 rfl _).trans (A_eq2 (V7 m ρ) c 0))).symm.trans (W8_main_arg4 m ρ c)
theorem V7_arg6 (c : Dev nD) : V7 m ρ c main_arg6 = m ((c : Thread nD τ).loc main_arg6) :=
  ((W8_arr m ρ c 4).trans (((dat2 (V7 m ρ) c).arrAt_in 4 rfl _).trans (A_eq2 (V7 m ρ) c 4))).symm.trans (W8_main_arg6 m ρ c)
theorem V7_arg10 (c : Dev nD) : V7 m ρ c main_arg10 = m ((c : Thread nD τ).loc main_arg10) :=
  ((W8_arr m ρ c 8).trans (((dat2 (V7 m ρ) c).arrAt_in 8 rfl _).trans (A_eq2 (V7 m ρ) c 8))).symm.trans (W8_main_arg10 m ρ c)
theorem V7_arg11 (c : Dev nD) : V7 m ρ c main_arg11 = m ((c : Thread nD τ).loc main_arg11) :=
  ((W8_arr m ρ c 9).trans (((dat2 (V7 m ρ) c).arrAt_in 9 rfl _).trans (A_eq2 (V7 m ρ) c 9))).symm.trans (W8_main_arg11 m ρ c)
theorem V7_arg14 (c : Dev nD) : V7 m ρ c main_arg14 = m ((c : Thread nD τ).loc main_arg14) :=
  ((W8_arr m ρ c 12).trans (((dat2 (V7 m ρ) c).arrAt_in 12 rfl _).trans (A_eq2 (V7 m ρ) c 12))).symm.trans (W8_main_arg14 m ρ c)

/-- A vector reshaped to one row, read back as a vector, is the vector. -/
private theorem row_shapeCast {n : ℕ} (x : Spec.Vc n) (h : (⟨1, ![n]⟩ : Shape).ShapeCasts ⟨2, ![1, n]⟩) :
    Spec.row (shapeCast ⟨2, ![1, n]⟩ x h) = x := by
  funext j
  obtain ⟨q, rfl⟩ : ∃ q, j = ix1 q := ⟨j 0, eq_ix1 j⟩
  exact shapeCast_a_1a_apply x h 0 q

/-- The six vectors, reshaped to rows by the host, read back as the vectors. -/
theorem V7_row7 (c : Dev nD) : Spec.row (V7 m ρ c main_v21) = m ((c : Thread nD τ).loc main_arg7) := by
  have h7 : W7 m ρ c (Proc.devRef .tc main_arg7) = W6 m ρ c (Proc.devRef .tc main_arg7) := by untouched_by hostOps2
  have h8 : W6 m ρ c (Proc.devRef .tc main_arg7) = m ((c : Thread nD τ).loc main_arg7) :=
    (h7.symm.trans (W8_of_ne m ρ c main_arg7 (by decide)).symm).trans (W8_main_arg7 m ρ c)
  have e : (V7 m ρ c main_v21 : Vec Ideal S1x256 .f32)
      = shapeCast S1x256 (W6 m ρ c (Proc.devRef .tc main_arg7) : Vec Ideal S256 .f32) shapeCasts_S256_S1x256 := by
    show StableHlo.after hostOps2 _ (Proc.devRef .tc main_v21) = _
    after_results
    rfl
  rw [e, h8]
  exact row_shapeCast _ _
theorem V7_row8 (c : Dev nD) : Spec.row (V7 m ρ c main_v22) = m ((c : Thread nD τ).loc main_arg8) := by
  have h7 : W7 m ρ c (Proc.devRef .tc main_arg8) = W6 m ρ c (Proc.devRef .tc main_arg8) := by untouched_by hostOps2
  have h8 : W6 m ρ c (Proc.devRef .tc main_arg8) = m ((c : Thread nD τ).loc main_arg8) :=
    (h7.symm.trans (W8_of_ne m ρ c main_arg8 (by decide)).symm).trans (W8_main_arg8 m ρ c)
  have e : (V7 m ρ c main_v22 : Vec Ideal S1x256 .f32)
      = shapeCast S1x256 (W6 m ρ c (Proc.devRef .tc main_arg8) : Vec Ideal S256 .f32) shapeCasts_S256_S1x256 := by
    show StableHlo.after hostOps2 _ (Proc.devRef .tc main_v22) = _
    after_results
    rfl
  rw [e, h8]
  exact row_shapeCast _ _
theorem V7_row9 (c : Dev nD) : Spec.row (V7 m ρ c main_v23) = m ((c : Thread nD τ).loc main_arg9) := by
  have h7 : W7 m ρ c (Proc.devRef .tc main_arg9) = W6 m ρ c (Proc.devRef .tc main_arg9) := by untouched_by hostOps2
  have h8 : W6 m ρ c (Proc.devRef .tc main_arg9) = m ((c : Thread nD τ).loc main_arg9) :=
    (h7.symm.trans (W8_of_ne m ρ c main_arg9 (by decide)).symm).trans (W8_main_arg9 m ρ c)
  have e : (V7 m ρ c main_v23 : Vec Ideal S1x256 .f32)
      = shapeCast S1x256 (W6 m ρ c (Proc.devRef .tc main_arg9) : Vec Ideal S256 .f32) shapeCasts_S256_S1x256 := by
    show StableHlo.after hostOps2 _ (Proc.devRef .tc main_v23) = _
    after_results
    rfl
  rw [e, h8]
  exact row_shapeCast _ _
theorem V7_row12 (c : Dev nD) : Spec.row (V7 m ρ c main_v24) = m ((c : Thread nD τ).loc main_arg12) := by
  have h7 : W7 m ρ c (Proc.devRef .tc main_arg12) = W6 m ρ c (Proc.devRef .tc main_arg12) := by untouched_by hostOps2
  have h8 : W6 m ρ c (Proc.devRef .tc main_arg12) = m ((c : Thread nD τ).loc main_arg12) :=
    (h7.symm.trans (W8_of_ne m ρ c main_arg12 (by decide)).symm).trans (W8_main_arg12 m ρ c)
  have e : (V7 m ρ c main_v24 : Vec Ideal S1x768 .f32)
      = shapeCast S1x768 (W6 m ρ c (Proc.devRef .tc main_arg12) : Vec Ideal S768 .f32) shapeCasts_S768_S1x768 := by
    show StableHlo.after hostOps2 _ (Proc.devRef .tc main_v24) = _
    after_results
    rfl
  rw [e, h8]
  exact row_shapeCast _ _
theorem V7_row13 (c : Dev nD) : Spec.row (V7 m ρ c main_v25) = m ((c : Thread nD τ).loc main_arg13) := by
  have h7 : W7 m ρ c (Proc.devRef .tc main_arg13) = W6 m ρ c (Proc.devRef .tc main_arg13) := by untouched_by hostOps2
  have h8 : W6 m ρ c (Proc.devRef .tc main_arg13) = m ((c : Thread nD τ).loc main_arg13) :=
    (h7.symm.trans (W8_of_ne m ρ c main_arg13 (by decide)).symm).trans (W8_main_arg13 m ρ c)
  have e : (V7 m ρ c main_v25 : Vec Ideal S1x768 .f32)
      = shapeCast S1x768 (W6 m ρ c (Proc.devRef .tc main_arg13) : Vec Ideal S768 .f32) shapeCasts_S768_S1x768 := by
    show StableHlo.after hostOps2 _ (Proc.devRef .tc main_v25) = _
    after_results
    rfl
  rw [e, h8]
  exact row_shapeCast _ _
theorem V7_row15 (c : Dev nD) : Spec.row (V7 m ρ c main_v26) = m ((c : Thread nD τ).loc main_arg15) := by
  have h7 : W7 m ρ c (Proc.devRef .tc main_arg15) = W6 m ρ c (Proc.devRef .tc main_arg15) := by untouched_by hostOps2
  have h8 : W6 m ρ c (Proc.devRef .tc main_arg15) = m ((c : Thread nD τ).loc main_arg15) :=
    (h7.symm.trans (W8_of_ne m ρ c main_arg15 (by decide)).symm).trans (W8_main_arg15 m ρ c)
  have e : (V7 m ρ c main_v26 : Vec Ideal S1x128 .f32)
      = shapeCast S1x128 (W6 m ρ c (Proc.devRef .tc main_arg15) : Vec Ideal S128 .f32) shapeCasts_S128_S1x128 := by
    show StableHlo.after hostOps2 _ (Proc.devRef .tc main_v26) = _
    after_results
    rfl
  rw [e, h8]
  exact row_shapeCast _ _

end Cert.KernelIdeal.Glue

end
-- ==== Proof.AssembleK.lean ====
/-
  The kernel program's two results as closed forms of its arguments: the cell's new hidden state and output at the
  node mean and the edge mean, every host stretch and region read back.
-/
import proofs.«406655_j37177236914577_1_alg».proof.Proof.Gen.KernelIdeal.Frame
import proofs.«406655_j37177236914577_1_alg».proof.Proof.Spec
import proofs.«406655_j37177236914577_1_alg».proof.Proof.SegSum
import Idealize.ShloMosaic.PureOps.Ideal.Laws
import Idealize.ShloMosaic.Lib.Pipeline.Value
import Idealize.ShloMosaic.Lib.ValueLayout
import Idealize.ShloMosaic.Lib.StableHlo.Run
import proofs.«406655_j37177236914577_1_alg».proof.Proof.Closed
import proofs.«406655_j37177236914577_1_alg».proof.Proof.SegK0
import proofs.«406655_j37177236914577_1_alg».proof.Proof.SegK1
import proofs.«406655_j37177236914577_1_alg».proof.Proof.CellK
import proofs.«406655_j37177236914577_1_alg».proof.Proof.GlueA
import proofs.«406655_j37177236914577_1_alg».proof.Proof.GlueA2
import proofs.«406655_j37177236914577_1_alg».proof.Proof.GlueB

noncomputable section

namespace Cert.KernelIdeal.Assemble

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The word 1024, under which the appended rows are filed, is no segment's word. -/
theorem sentinel_ne (b : Fin 1024) : (1024#32 : BitVec 32) ≠ BitVec.ofNat 32 b.val := by
  intro h
  have h2 := congrArg BitVec.toNat h
  simp only [BitVec.toNat_ofNat] at h2
  have := b.isLt
  omega

/-- The edge mean the cell region finds is the closed form. -/
theorem agge_eq (c : Dev nD)
    (hr : ∀ e : Fin 1600000, (m ((c : Thread nD τ).loc main_arg1) (ix2 0 e)).toNat < 100000) :
    V7 m ρ c main_v9 = (Closed.aggE (m ((c : Thread nD τ).loc main_arg2)) (m ((c : Thread nD τ).loc main_arg1)) (m ((c : Thread nD τ).loc main_arg5)) : Vec Ideal S1024x128 .f32) := by
  have hseg : SegK0.seg (V3 m ρ) c = Closed.eseg (m ((c : Thread nD τ).loc main_arg1)) (m ((c : Thread nD τ).loc main_arg5)) :=
    funext (Glue.V3_seg m ρ c hr)
  have hval : SegK0.val (V3 m ρ) c = fun t f => (m ((c : Thread nD τ).loc main_arg2)) (ix2 t f) := by
    funext t f
    show V3 m ρ c main_arg2 (ix2 t f) = _
    rw [Glue.V3_arg2]
  rw [Glue.V7_agge, SegK0.sum_final, SegK0.cnt_final, hseg, hval]
  rfl

/-- The node mean the cell region finds is the closed form: the appended rows count for no segment. -/
theorem aggn_eq (c : Dev nD) :
    V7 m ρ c main_v20 = (Closed.aggN (m ((c : Thread nD τ).loc main_arg0)) (m ((c : Thread nD τ).loc main_arg5)) : Vec Ideal S1024x128 .f32) := by
  have hs : (fun i => SegSum.segSum (SegK1.seg (V5 m ρ) c) (SegK1.val (V5 m ρ) c) (i 0) (i 1) : Vec Ideal S1024x128 .f32)
      = fun i => SegSum.segSum (fun t : Fin 100000 => (m ((c : Thread nD τ).loc main_arg5)) (ix1 t)) (fun t f => (m ((c : Thread nD τ).loc main_arg0)) (ix2 t f)) (i 0) (i 1) := by
    funext i
    exact SegSum.segSum_pad (T := 100000) (T' := 101120) (by decide) _ _ _ _
      (fun t => Glue.V5_seg_lo m ρ c ⟨t.val, by have := t.isLt; omega⟩ t.isLt)
      (fun t f => Glue.V5_xpad_lo m ρ c ⟨t.val, by have := t.isLt; omega⟩ t.isLt f)
      (fun t ht b => by rw [show SegK1.seg (V5 m ρ) c t = 1024#32 from Glue.V5_seg_hi m ρ c t ht]; exact sentinel_ne b) (i 0) (i 1)
  have hc : (fun i => SegSum.segCnt (B := 1024) (SegK1.seg (V5 m ρ) c) (i 0) : Vec Ideal S1024 .f32)
      = fun i => SegSum.segCnt (B := 1024) (fun t : Fin 100000 => (m ((c : Thread nD τ).loc main_arg5)) (ix1 t)) (i 0) := by
    funext i
    exact SegSum.segCnt_pad (T := 100000) (T' := 101120) (by decide) _ _
      (fun t => Glue.V5_seg_lo m ρ c ⟨t.val, by have := t.isLt; omega⟩ t.isLt)
      (fun t ht b => by rw [show SegK1.seg (V5 m ρ) c t = 1024#32 from Glue.V5_seg_hi m ρ c t ht]; exact sentinel_ne b) (i 0)
  rw [Glue.V7_aggn, SegK1.sum_final, SegK1.cnt_final, hs, hc]
  rfl

/-- The new hidden state the kernel program returns. -/
theorem kernel_hnew (c : Dev nD)
    (hr : ∀ e : Fin 1600000, (m ((c : Thread nD τ).loc main_arg1) (ix2 0 e)).toNat < 100000) :
    W8 m ρ c (Proc.devRef .tc main_v27_1)
      = (Spec.hnew (m ((c : Thread nD τ).loc main_arg4)) (Closed.aggN (m ((c : Thread nD τ).loc main_arg0)) (m ((c : Thread nD τ).loc main_arg5)))
          (Closed.aggE (m ((c : Thread nD τ).loc main_arg2)) (m ((c : Thread nD τ).loc main_arg1)) (m ((c : Thread nD τ).loc main_arg5))) (m ((c : Thread nD τ).loc main_arg3)) (m ((c : Thread nD τ).loc main_arg6))
          (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) : Vec Ideal S1024x256 .f32) := by
  refine (W8_arr m ρ c 15).trans ?_
  rw [CellK.hnew_final, Glue.V7_arg4, Glue.V7_arg3, Glue.V7_arg6, Glue.V7_arg10, Glue.V7_arg11, Glue.V7_row7, Glue.V7_row8,
    Glue.V7_row9, Glue.V7_row12, Glue.V7_row13, aggn_eq, agge_eq m ρ c hr]

/-- The output the kernel program returns. -/
theorem kernel_out (c : Dev nD)
    (hr : ∀ e : Fin 1600000, (m ((c : Thread nD τ).loc main_arg1) (ix2 0 e)).toNat < 100000) :
    W8 m ρ c (Proc.devRef .tc main_v27_0)
      = (Spec.out (m ((c : Thread nD τ).loc main_arg4)) (Closed.aggN (m ((c : Thread nD τ).loc main_arg0)) (m ((c : Thread nD τ).loc main_arg5)))
          (Closed.aggE (m ((c : Thread nD τ).loc main_arg2)) (m ((c : Thread nD τ).loc main_arg1)) (m ((c : Thread nD τ).loc main_arg5))) (m ((c : Thread nD τ).loc main_arg3)) (m ((c : Thread nD τ).loc main_arg6))
          (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) : Vec Ideal S1024x128 .f32) := by
  refine (W8_arr m ρ c 14).trans ?_
  rw [CellK.out_final, Glue.V7_arg4, Glue.V7_arg3, Glue.V7_arg6, Glue.V7_arg10, Glue.V7_arg11, Glue.V7_arg14, Glue.V7_row7,
    Glue.V7_row8, Glue.V7_row9, Glue.V7_row12, Glue.V7_row13, Glue.V7_row15, aggn_eq, agge_eq m ρ c hr]

end Cert.KernelIdeal.Assemble

end
-- ==== Proof.SegR.lean ====
/-
  The reference's four accumulating scatters, read back: a scatter of rows (or of ones) into a zero array at segment
  words is the segment sum (or count); a word outside `[0, 1024)` lands nowhere.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout
import proofs.«406655_j37177236914577_1_alg».proof.Proof.SegSum
import Idealize.ShloMosaic.Lib.StableHlo.Predicate
import Idealize.ShloMosaic.Lib.IdealHost

noncomputable section

namespace Cert.ReferenceIdeal.SegR

open Idealize.ShloMosaic Idealize.ShloMosaic.ValueIdx Cert.ReferenceIdeal Cert.ReferenceIdeal.Gen Cert.ReferenceIdeal.Read
open scoped BigOperators

/-! ## The accumulating scatter of rows at one index word per row -/

section Rows
variable {T w : ℕ}

/-- The dimension numbers of a scatter of `T` rows of 128 into 1024 rows: the row is inserted at the word, the
    128 columns are the window. -/
abbrev rowsDims (T : ℕ) (wf : ScatterDims.WF ⟨2, ![1024, 128]⟩ ⟨2, ![T, 1]⟩ ⟨2, ![T, 128]⟩ [1] [0] [0] 1) :
    ScatterDims ⟨2, ![1024, 128]⟩ ⟨2, ![T, 1]⟩ ⟨2, ![T, 128]⟩ where
  updateWindowDims := [1]
  insertedWindowDims := [0]
  scatterDimsToOperandDims := [0]
  indexVectorDim := 1
  wf := wf

variable (wf : ScatterDims.WF ⟨2, ![1024, 128]⟩ ⟨2, ![T, 1]⟩ ⟨2, ![T, 128]⟩ [1] [0] [0] 1)

theorem rows_start0 (j : (⟨2, ![T, 128]⟩ : Shape).Idx) (idx : IVec ⟨2, ![T, 1]⟩ w) :
    (rowsDims T wf).start j idx 0 = (idx (ix2 (j 0) 0)).toInt := by
  unfold ScatterDims.start
  rw [dif_pos (show (0 : Fin 2) ∈ ([0] : List (Fin 2)) from List.mem_singleton.mpr rfl)]
  congr 2
  funext b
  refine Fin.ext ?_
  match b with
  | ⟨0, _⟩ => rfl
  | ⟨1, _⟩ => rfl

theorem rows_start1 (j : (⟨2, ![T, 128]⟩ : Shape).Idx) (idx : IVec ⟨2, ![T, 1]⟩ w) :
    (rowsDims T wf).start j idx 1 = 0 := by
  unfold ScatterDims.start
  rw [dif_neg (show ¬ (1 : Fin 2) ∈ ([0] : List (Fin 2)) by decide)]

theorem rows_window0 (j : (⟨2, ![T, 128]⟩ : Shape).Idx) : (rowsDims T wf).window j 0 = 0 := by
  have h : ¬ (0 : Fin 2) ∈ (rowsDims T wf).sKept := by
    show ¬ (0 : Fin 2) ∈ ([1] : List (Fin 2)); decide
  unfold ScatterDims.window
  rw [dif_neg h]

theorem rows_window1 (j : (⟨2, ![T, 128]⟩ : Shape).Idx) : (rowsDims T wf).window j 1 = (j 1).val := by
  have h : (1 : Fin 2) ∈ (rowsDims T wf).sKept := by
    show (1 : Fin 2) ∈ ([1] : List (Fin 2)); decide
  unfold ScatterDims.window
  rw [dif_pos h]
  rfl

/-- Update element `(t, f)` lands on `(b, f')` exactly when row `t`'s word, read signed, is `b` and `f = f'`. -/
theorem rows_resultIdx (j : (⟨2, ![T, 128]⟩ : Shape).Idx) (idx : IVec ⟨2, ![T, 1]⟩ w)
    (i : (⟨2, ![1024, 128]⟩ : Shape).Idx) :
    (rowsDims T wf).resultIdx? j idx = some i ↔
      (idx (ix2 (j 0) 0)).toInt = ((i 0).val : ℤ) ∧ (j 1).val = (i 1).val := by
  have hi0 : (i 0).val < 1024 := (i 0).isLt
  have hi1 : (i 1).val < 128 := (i 1).isLt
  have hj1 : (j 1).val < 128 := (j 1).isLt
  unfold ScatterDims.resultIdx?
  split
  · next h =>
    have h0 : 0 ≤ (rowsDims T wf).start j idx 0 + ((rowsDims T wf).window j 0 : ℕ)
        ∧ (rowsDims T wf).start j idx 0 + ((rowsDims T wf).window j 0 : ℕ) < ((1024 : ℕ) : ℤ) := h 0
    rw [rows_start0, rows_window0] at h0
    rw [Option.some.injEq]
    constructor
    · intro e
      have e0 : ((rowsDims T wf).start j idx 0 + ((rowsDims T wf).window j 0 : ℕ)).toNat = (i 0).val :=
        congrArg (fun g => (g 0).val) e
      have e1 : ((rowsDims T wf).start j idx 1 + ((rowsDims T wf).window j 1 : ℕ)).toNat = (i 1).val :=
        congrArg (fun g => (g 1).val) e
      rw [rows_start0, rows_window0] at e0
      rw [rows_start1, rows_window1] at e1
      constructor <;> omega
    · rintro ⟨e0, e1⟩
      funext a
      refine Fin.ext ?_
      match a with
      | ⟨0, _⟩ =>
        show ((rowsDims T wf).start j idx 0 + ((rowsDims T wf).window j 0 : ℕ)).toNat = (i 0).val
        rw [rows_start0, rows_window0]; omega
      | ⟨1, _⟩ =>
        show ((rowsDims T wf).start j idx 1 + ((rowsDims T wf).window j 1 : ℕ)).toNat = (i 1).val
        rw [rows_start1, rows_window1]; omega
  · next h =>
    constructor
    · intro e; exact absurd e (by simp)
    · rintro ⟨e0, e1⟩
      exfalso; apply h
      intro a
      match a with
      | ⟨0, _⟩ =>
        show 0 ≤ (rowsDims T wf).start j idx 0 + ((rowsDims T wf).window j 0 : ℕ)
          ∧ (rowsDims T wf).start j idx 0 + ((rowsDims T wf).window j 0 : ℕ) < ((1024 : ℕ) : ℤ)
        rw [rows_start0, rows_window0]; omega
      | ⟨1, _⟩ =>
        show 0 ≤ (rowsDims T wf).start j idx 1 + ((rowsDims T wf).window j 1 : ℕ)
          ∧ (rowsDims T wf).start j idx 1 + ((rowsDims T wf).window j 1 : ℕ) < ((128 : ℕ) : ℤ)
        rw [rows_start1, rows_window1]; omega

/-- The scatter of rows, read at `(b, f)`: the operand there plus the rows whose word, read signed, is `b`, at
    column `f`. -/
theorem rows_scatter_apply (x : (⟨2, ![1024, 128]⟩ : Shape).Idx → EReal) (idx : IVec ⟨2, ![T, 1]⟩ w)
    (upd : (⟨2, ![T, 128]⟩ : Shape).Idx → EReal) (i : (⟨2, ![1024, 128]⟩ : Shape).Idx) :
    Ideal.hostScatterAdd (rowsDims T wf) x idx upd i
      = x i + ∑ t : Fin T, if (idx (ix2 t 0)).toInt = ((i 0).val : ℤ) then upd (ix2 t (i 1)) else 0 := by
  unfold Ideal.hostScatterAdd
  congr 1
  rw [Finset.sum_filter, sum_idx2]
  refine Finset.sum_congr rfl fun t _ => ?_
  by_cases hC : (idx (ix2 t 0)).toInt = ((i 0).val : ℤ)
  · rw [if_pos hC]
    refine (Fintype.sum_eq_single (i 1 : Fin 128) ?_).trans ?_
    · intro f hf
      rw [if_neg]
      intro h
      exact hf (Fin.ext ((rows_resultIdx wf _ idx i).1 h).2)
    · rw [if_pos ((rows_resultIdx wf _ idx i).2 ⟨hC, rfl⟩)]
  · rw [if_neg hC]
    refine Finset.sum_eq_zero fun f _ => ?_
    rw [if_neg]
    intro h
    exact hC ((rows_resultIdx wf _ idx i).1 h).1

end Rows

/-! ## The accumulating scatter of one value per row at one index word per row -/

section Ones
variable {T w : ℕ}

/-- The dimension numbers of a scatter of `T` values into 1024: the position is inserted at the word, no window. -/
abbrev onesDims (T : ℕ) (wf : ScatterDims.WF ⟨1, ![1024]⟩ ⟨2, ![T, 1]⟩ ⟨1, ![T]⟩ [] [0] [0] 1) :
    ScatterDims ⟨1, ![1024]⟩ ⟨2, ![T, 1]⟩ ⟨1, ![T]⟩ where
  updateWindowDims := []
  insertedWindowDims := [0]
  scatterDimsToOperandDims := [0]
  indexVectorDim := 1
  wf := wf

variable (wf : ScatterDims.WF ⟨1, ![1024]⟩ ⟨2, ![T, 1]⟩ ⟨1, ![T]⟩ [] [0] [0] 1)

theorem ones_start0 (j : (⟨1, ![T]⟩ : Shape).Idx) (idx : IVec ⟨2, ![T, 1]⟩ w) :
    (onesDims T wf).start j idx 0 = (idx (ix2 (j 0) 0)).toInt := by
  unfold ScatterDims.start
  rw [dif_pos (show (0 : Fin 1) ∈ ([0] : List (Fin 1)) from List.mem_singleton.mpr rfl)]
  congr 2
  funext b
  refine Fin.ext ?_
  match b with
  | ⟨0, _⟩ => rfl
  | ⟨1, _⟩ => rfl

theorem ones_window0 (j : (⟨1, ![T]⟩ : Shape).Idx) : (onesDims T wf).window j 0 = 0 := by
  have h : ¬ (0 : Fin 1) ∈ (onesDims T wf).sKept := by
    show ¬ (0 : Fin 1) ∈ ([] : List (Fin 1)); decide
  unfold ScatterDims.window
  rw [dif_neg h]

/-- Update element `t` lands on `b` exactly when its word, read signed, is `b`. -/
theorem ones_resultIdx (j : (⟨1, ![T]⟩ : Shape).Idx) (idx : IVec ⟨2, ![T, 1]⟩ w)
    (i : (⟨1, ![1024]⟩ : Shape).Idx) :
    (onesDims T wf).resultIdx? j idx = some i ↔ (idx (ix2 (j 0) 0)).toInt = ((i 0).val : ℤ) := by
  have hi0 : (i 0).val < 1024 := (i 0).isLt
  unfold ScatterDims.resultIdx?
  split
  · next h =>
    have h0 : 0 ≤ (onesDims T wf).start j idx 0 + ((onesDims T wf).window j 0 : ℕ)
        ∧ (onesDims T wf).start j idx 0 + ((onesDims T wf).window j 0 : ℕ) < ((1024 : ℕ) : ℤ) := h 0
    rw [ones_start0, ones_window0] at h0
    rw [Option.some.injEq]
    constructor
    · intro e
      have e0 : ((onesDims T wf).start j idx 0 + ((onesDims T wf).window j 0 : ℕ)).toNat = (i 0).val :=
        congrArg (fun g => (g 0).val) e
      rw [ones_start0, ones_window0] at e0
      omega
    · intro e0
      funext a
      refine Fin.ext ?_
      match a with
      | ⟨0, _⟩ =>
        show ((onesDims T wf).start j idx 0 + ((onesDims T wf).window j 0 : ℕ)).toNat = (i 0).val
        rw [ones_start0, ones_window0]; omega
  · next h =>
    constructor
    · intro e; exact absurd e (by simp)
    · intro e0
      exfalso; apply h
      intro a
      match a with
      | ⟨0, _⟩ =>
        show 0 ≤ (onesDims T wf).start j idx 0 + ((onesDims T wf).window j 0 : ℕ)
          ∧ (onesDims T wf).start j idx 0 + ((onesDims T wf).window j 0 : ℕ) < ((1024 : ℕ) : ℤ)
        rw [ones_start0, ones_window0]; omega

/-- A sum over a rank-1 index is the sum over its coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The scatter of values, read at `b`: the operand there plus the values whose word, read signed, is `b`. -/
theorem ones_scatter_apply (x : (⟨1, ![1024]⟩ : Shape).Idx → EReal) (idx : IVec ⟨2, ![T, 1]⟩ w)
    (upd : (⟨1, ![T]⟩ : Shape).Idx → EReal) (i : (⟨1, ![1024]⟩ : Shape).Idx) :
    Ideal.hostScatterAdd (onesDims T wf) x idx upd i
      = x i + ∑ t : Fin T, if (idx (ix2 t 0)).toInt = ((i 0).val : ℤ) then upd (ix1 t) else 0 := by
  unfold Ideal.hostScatterAdd
  congr 1
  rw [Finset.sum_filter, sum_idx1]
  refine Finset.sum_congr rfl fun t _ => ?_
  by_cases hC : (idx (ix2 t 0)).toInt = ((i 0).val : ℤ)
  · rw [if_pos hC, if_pos ((ones_resultIdx wf _ idx i).2 hC)]
  · rw [if_neg hC, if_neg (fun h => hC ((ones_resultIdx wf _ idx i).1 h))]

end Ones

/-- A 32-bit word read signed is `b < 1024` exactly when it is the word of `b`. -/
theorem toInt_eq_iff (v : BitVec 32) (b : ℕ) (hb : b < 1024) :
    v.toInt = (b : ℤ) ↔ v = BitVec.ofNat 32 b := by
  have hs : (BitVec.ofNat 32 b).toInt = (b : ℤ) := StableHlo.Predicate.toInt_ofNat_small b (by omega)
  constructor
  · intro h; exact BitVec.eq_of_toInt_eq (h.trans hs.symm)
  · intro h; rw [h, hs]

/-- A scatter of rows into zeros at the words `seg` is the segment sum. -/
theorem rows_segSum {T : ℕ} (wf : ScatterDims.WF ⟨2, ![1024, 128]⟩ ⟨2, ![T, 1]⟩ ⟨2, ![T, 128]⟩ [1] [0] [0] 1)
    (x : (⟨2, ![1024, 128]⟩ : Shape).Idx → EReal) (idx : IVec ⟨2, ![T, 1]⟩ 32)
    (upd : (⟨2, ![T, 128]⟩ : Shape).Idx → EReal) (seg : Fin T → BitVec 32)
    (hidx : ∀ t, idx (ix2 t 0) = seg t) (hx : ∀ i, x i = 0) (i : (⟨2, ![1024, 128]⟩ : Shape).Idx) :
    Ideal.hostScatterAdd (rowsDims T wf) x idx upd i
      = SegSum.segSum seg (fun t f => upd (ix2 t f)) (i 0) (i 1) := by
  rw [rows_scatter_apply, hx, zero_add]
  unfold SegSum.segSum
  refine Finset.sum_congr rfl fun t _ => ?_
  rw [hidx]
  by_cases hC : seg t = BitVec.ofNat 32 (i 0).val
  · rw [if_pos hC, if_pos ((toInt_eq_iff _ _ (i 0).isLt).2 hC)]
  · rw [if_neg hC, if_neg (fun h => hC ((toInt_eq_iff _ _ (i 0).isLt).1 h))]

/-- A scatter of ones into zeros at the words `seg` is the segment count. -/
theorem ones_segCnt {T : ℕ} (wf : ScatterDims.WF ⟨1, ![1024]⟩ ⟨2, ![T, 1]⟩ ⟨1, ![T]⟩ [] [0] [0] 1)
    (x : (⟨1, ![1024]⟩ : Shape).Idx → EReal) (idx : IVec ⟨2, ![T, 1]⟩ 32)
    (upd : (⟨1, ![T]⟩ : Shape).Idx → EReal) (seg : Fin T → BitVec 32)
    (hidx : ∀ t, idx (ix2 t 0) = seg t) (hx : ∀ i, x i = 0) (hu : ∀ j, upd j = 1)
    (i : (⟨1, ![1024]⟩ : Shape).Idx) :
    Ideal.hostScatterAdd (onesDims T wf) x idx upd i = SegSum.segCnt seg (i 0) := by
  rw [ones_scatter_apply, hx, zero_add]
  unfold SegSum.segCnt
  refine Finset.sum_congr rfl fun t _ => ?_
  rw [hidx, hu]
  by_cases hC : seg t = BitVec.ofNat 32 (i 0).val
  · rw [if_pos hC, if_pos ((toInt_eq_iff _ _ (i 0).isLt).2 hC)]
  · rw [if_neg hC, if_neg (fun h => hC ((toInt_eq_iff _ _ (i 0).isLt).1 h))]

/-- The same two facts at any record carrying those dimension numbers, as the host operation states them. -/
theorem rows_segSum' {T : ℕ} (d : ScatterDims ⟨2, ![1024, 128]⟩ ⟨2, ![T, 1]⟩ ⟨2, ![T, 128]⟩)
    (h1 : d.updateWindowDims = [1]) (h2 : d.insertedWindowDims = [0]) (h3 : d.scatterDimsToOperandDims = [0])
    (h4 : d.indexVectorDim = 1)
    (x : (⟨2, ![1024, 128]⟩ : Shape).Idx → EReal) (idx : IVec ⟨2, ![T, 1]⟩ 32)
    (upd : (⟨2, ![T, 128]⟩ : Shape).Idx → EReal) (seg : Fin T → BitVec 32)
    (hidx : ∀ t, idx (ix2 t 0) = seg t) (hx : ∀ i, x i = 0) (i : (⟨2, ![1024, 128]⟩ : Shape).Idx) :
    Host.scatterAdd (F := Ideal) (φ := .f32) d x idx upd i
      = SegSum.segSum seg (fun t f => upd (ix2 t f)) (i 0) (i 1) := by
  obtain ⟨uw, iw, sd, iv, wf⟩ := d
  simp only at h1 h2 h3 h4
  subst h1 h2 h3 h4
  exact rows_segSum wf x idx upd seg hidx hx i

theorem ones_segCnt' {T : ℕ} (d : ScatterDims ⟨1, ![1024]⟩ ⟨2, ![T, 1]⟩ ⟨1, ![T]⟩)
    (h1 : d.updateWindowDims = []) (h2 : d.insertedWindowDims = [0]) (h3 : d.scatterDimsToOperandDims = [0])
    (h4 : d.indexVectorDim = 1)
    (x : (⟨1, ![1024]⟩ : Shape).Idx → EReal) (idx : IVec ⟨2, ![T, 1]⟩ 32)
    (upd : (⟨1, ![T]⟩ : Shape).Idx → EReal) (seg : Fin T → BitVec 32)
    (hidx : ∀ t, idx (ix2 t 0) = seg t) (hx : ∀ i, x i = 0) (hu : ∀ j, upd j = 1)
    (i : (⟨1, ![1024]⟩ : Shape).Idx) :
    Host.scatterAdd (F := Ideal) (φ := .f32) d x idx upd i = SegSum.segCnt seg (i 0) := by
  obtain ⟨uw, iw, sd, iv, wf⟩ := d
  simp only at h1 h2 h3 h4
  subst h1 h2 h3 h4
  exact ones_segCnt wf x idx upd seg hidx hx hu i

/-- A rank-1 index is `ix1` of the row its coordinate names. -/
theorem idx1_eq {n : ℕ} (k : (⟨1, ![n]⟩ : Shape).Idx) (t : Fin n) (h : (k 0).val = t.val) : k = ix1 t := by
  funext a; match a with | ⟨0, _⟩ => exact Fin.ext h

theorem v11_eq (x1 : (⟨S2x1600000, .i32⟩ : BufTy).Contents (Elt Ideal)) (x2 : (⟨S1600000x128, .f32⟩ : BufTy).Contents (Elt Ideal)) (x5 : (⟨S100000, .i32⟩ : BufTy).Contents (Elt Ideal)) :
    val_main_v11 (F := Ideal) x1 x2 x5
      = fun i => SegSum.segSum (fun t : Fin 1600000 => val_main_v8 (F := Ideal) x1 x5 (ix1 t)) (fun t f => x2 (ix2 t f)) (i 0) (i 1) := by
  funext i
  unfold val_main_v11
  refine rows_segSum' scatter_S1024x128_S1600000x1_S1600000x128_1_0_0_1 rfl rfl rfl rfl (val_main_v9 (F := Ideal))
    (val_main_v10 (F := Ideal) x1 x5) x2 (fun t => val_main_v8 (F := Ideal) x1 x5 (ix1 t)) (fun t => ?_) (fun i => ?_) i
  · exact (val_main_v10_apply x1 x5 _).trans (congrArg (val_main_v8 (F := Ideal) x1 x5) (idx1_eq _ t rfl))
  · rw [val_main_v9_apply]; exact Ideal.ofBits_zero_f32

theorem v15_eq (x1 : (⟨S2x1600000, .i32⟩ : BufTy).Contents (Elt Ideal)) (x5 : (⟨S100000, .i32⟩ : BufTy).Contents (Elt Ideal)) :
    val_main_v15 (F := Ideal) x1 x5
      = fun i => SegSum.segCnt (B := 1024) (fun t : Fin 1600000 => val_main_v8 (F := Ideal) x1 x5 (ix1 t)) (i 0) := by
  funext i
  unfold val_main_v15
  refine ones_segCnt' scatter_S1024_S1600000x1_S1600000_n_0_0_1 rfl rfl rfl rfl (val_main_v13 (F := Ideal))
    (val_main_v14 (F := Ideal) x1 x5) (val_main_v12 (F := Ideal)) (fun t => val_main_v8 (F := Ideal) x1 x5 (ix1 t))
    (fun t => ?_) (fun i => ?_) (fun j => ?_) i
  · exact (val_main_v14_apply x1 x5 _).trans (congrArg (val_main_v8 (F := Ideal) x1 x5) (idx1_eq _ t rfl))
  · rw [val_main_v13_apply]; exact Ideal.ofBits_zero_f32
  · rw [val_main_v12_apply]; exact Ideal.ofBits_one_f32

theorem v23_eq (x0 : (⟨S100000x128, .f32⟩ : BufTy).Contents (Elt Ideal)) (x5 : (⟨S100000, .i32⟩ : BufTy).Contents (Elt Ideal)) :
    val_main_v23 (F := Ideal) x0 x5
      = fun i => SegSum.segSum (fun t : Fin 100000 => x5 (ix1 t)) (fun t f => x0 (ix2 t f)) (i 0) (i 1) := by
  funext i
  unfold val_main_v23
  refine rows_segSum' scatter_S1024x128_S100000x1_S100000x128_1_0_0_1 rfl rfl rfl rfl (val_main_v21 (F := Ideal))
    (val_main_v22 (F := Ideal) x5) x0 (fun t => x5 (ix1 t)) (fun t => ?_) (fun i => ?_) i
  · exact (val_main_v22_apply x5 _).trans (congrArg x5 (idx1_eq _ t rfl))
  · rw [val_main_v21_apply]; exact Ideal.ofBits_zero_f32

theorem v27_eq (x5 : (⟨S100000, .i32⟩ : BufTy).Contents (Elt Ideal)) :
    val_main_v27 (F := Ideal) x5 = fun i => SegSum.segCnt (B := 1024) (fun t : Fin 100000 => x5 (ix1 t)) (i 0) := by
  funext i
  unfold val_main_v27
  refine ones_segCnt' scatter_S1024_S100000x1_S100000_n_0_0_1 rfl rfl rfl rfl (val_main_v25 (F := Ideal))
    (val_main_v26 (F := Ideal) x5) (val_main_v24 (F := Ideal)) (fun t => x5 (ix1 t))
    (fun t => ?_) (fun i => ?_) (fun j => ?_) i
  · exact (val_main_v26_apply x5 _).trans (congrArg x5 (idx1_eq _ t rfl))
  · rw [val_main_v25_apply]; exact Ideal.ofBits_zero_f32
  · rw [val_main_v24_apply]; exact Ideal.ofBits_one_f32

end Cert.ReferenceIdeal.SegR

end
-- ==== Proof.SegRG.lean ====
/-
  The reference's gather of `batch` at the first row of `edge_index`, where those words are indices into `batch`, and
  its two segment means (sums over `max (count, 1)`), read back.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout
import proofs.«406655_j37177236914577_1_alg».proof.Proof.SegSum
import Idealize.ShloMosaic.Lib.StableHlo.Predicate

noncomputable section

namespace Cert.ReferenceIdeal.SegRG

open Idealize.ShloMosaic Idealize.ShloMosaic.ValueIdx Cert.ReferenceIdeal Cert.ReferenceIdeal.Gen Cert.ReferenceIdeal.Read
open scoped BigOperators

/-! ### Where each layout operation reads -/

/-- The rank-1 index at coordinate `e`, in its two spellings. -/
private theorem ix1_eq_ofFin {n : Nat} (e : Fin n) : (ix1 e : (⟨1, ![n]⟩ : Shape).Idx) = Shape.Idx.ofFin e := by
  funext a
  obtain rfl : a = 0 := Subsingleton.elim _ _
  exact Fin.ext rfl

private theorem idx_row0 (e : Fin 1600000) : idx_main_v0 (idx_main_v1 (ix1 e)) = ix2 (0 : Fin 2) e := by
  funext a
  match a with
  | ⟨0, _⟩ => exact Fin.ext rfl
  | ⟨1, _⟩ => exact Fin.ext (Nat.mod_eq_of_lt e.isLt)

private theorem idx_col7 (e : Fin 1600000) : idx_main_v7 (StableHlo.Predicate.ixP e) = ix1 e := by
  funext a; match a with | ⟨0, _⟩ => rfl

private theorem idx_col19 (p : Fin 1024) (q : Fin 128) : idx_main_v18 (idx_main_v19 (ix2 p q)) = ix1 p := by
  funext a; match a with | ⟨0, _⟩ => rfl

private theorem idx_col31 (p : Fin 1024) (q : Fin 128) : idx_main_v30 (idx_main_v31 (ix2 p q)) = ix1 p := by
  funext a; match a with | ⟨0, _⟩ => rfl

/-! ### The index column -/

/-- The first row of the index array, read as a vector. -/
private theorem v1_eq (x1 : (⟨S2x1600000, .i32⟩ : BufTy).Contents (Elt Ideal)) (e : Fin 1600000) :
    val_main_v1 (F := Ideal) x1 (ix1 e) = x1 (ix2 0 e) := by
  rw [val_main_v1_apply, val_main_v0_apply, idx_row0 e]

/-- A word below `100000` is not negative, so the wrap-around of negative indices keeps it. -/
private theorem v7_eq (x1 : (⟨S2x1600000, .i32⟩ : BufTy).Contents (Elt Ideal)) (e : Fin 1600000)
    (hw : (x1 (ix2 0 e)).toNat < 100000) :
    val_main_v7 (F := Ideal) x1 (StableHlo.Predicate.ixP e) = x1 (ix2 0 e) := by
  rw [val_main_v7_apply, idx_col7 e, val_main_v6_apply, val_main_v3_apply, v1_eq, val_main_v2_apply, val_main_c_apply]
  have hlt : IntOp.cmpi .slt (x1 (ix2 0 e)) 0#32 = 0#1 :=
    eq_zero_of_ne_one fun h => Nat.not_lt_zero _ ((StableHlo.Predicate.slt_iff_toNat (by omega) (by decide)).1 h)
  rw [hlt, select_zero]

/-- The gathered segment word of edge `e`, where every index word is in range. -/
theorem v8_eq (x1 : (⟨S2x1600000, .i32⟩ : BufTy).Contents (Elt Ideal)) (x5 : (⟨S100000, .i32⟩ : BufTy).Contents (Elt Ideal)) (hr : ∀ e : Fin 1600000, (x1 (ix2 0 e)).toNat < 100000) (e : Fin 1600000) :
    val_main_v8 (F := Ideal) x1 x5 (ix1 e) = Spec.takeSeg (fun e => x1 (ix2 0 e)) (fun n => x5 (ix1 n)) e := by
  have hw : (x1 (ix2 0 e)).toNat < 100000 := hr e
  unfold val_main_v8
  rw [ix1_eq_ofFin e]
  refine (StableHlo.Predicate.gather_take gather_S100000_S1600000x1_S1600000_n_0_n_n_0_1_1 rfl rfl rfl rfl x5
    (val_main_v7 (F := Ideal) x1) e (by decide)).trans ?_
  unfold Spec.takeSeg
  rw [dif_pos hw]
  refine congrArg x5 ?_
  funext a
  obtain rfl : a = 0 := Subsingleton.elim _ _
  refine Fin.ext ?_
  show min (val_main_v7 (F := Ideal) x1 (StableHlo.Predicate.ixP e)).toInt.toNat (100000 - 1) = (x1 (ix2 0 e)).toNat
  rw [v7_eq x1 e hw, StableHlo.Predicate.toInt_eq_toNat_of_lt (by omega), Int.toNat_natCast]
  exact Nat.min_eq_left (by omega)

/-- The edge mean. -/
theorem v20_eq (x1 : (⟨S2x1600000, .i32⟩ : BufTy).Contents (Elt Ideal)) (x2 : (⟨S1600000x128, .f32⟩ : BufTy).Contents (Elt Ideal)) (x5 : (⟨S100000, .i32⟩ : BufTy).Contents (Elt Ideal)) :
    val_main_v20 (F := Ideal) x1 x2 x5 = Spec.segMean (val_main_v11 (F := Ideal) x1 x2 x5) (val_main_v15 (F := Ideal) x1 x5) := by
  funext j
  obtain ⟨p, q, rfl⟩ : ∃ p q, j = ix2 p q := ⟨j 0, j 1, eq_ix2 j⟩
  rw [val_main_v20_apply, val_main_v19_apply, val_main_v18_apply, idx_col19 p q, val_main_v17_apply, val_main_v16_apply,
    val_main_cst_3_apply]
  rfl

/-- The node mean. -/
theorem v32_eq (x0 : (⟨S100000x128, .f32⟩ : BufTy).Contents (Elt Ideal)) (x5 : (⟨S100000, .i32⟩ : BufTy).Contents (Elt Ideal)) :
    val_main_v32 (F := Ideal) x0 x5 = Spec.segMean (val_main_v23 (F := Ideal) x0 x5) (val_main_v27 (F := Ideal) x5) := by
  funext j
  obtain ⟨p, q, rfl⟩ : ∃ p q, j = ix2 p q := ⟨j 0, j 1, eq_ix2 j⟩
  rw [val_main_v32_apply, val_main_v31_apply, val_main_v30_apply, idx_col31 p q, val_main_v29_apply, val_main_v28_apply,
    val_main_cst_7_apply]
  rfl

end Cert.ReferenceIdeal.SegRG

end
-- ==== Proof.CellR.Lin3.lean ====
/-
  The reference's first layer: the product of the concatenated row `[u | aₙ | aₑ]` with the transposed weight, plus the
  bias, is three 128-term sums against the weight's three column blocks.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout
import Mathlib.Algebra.BigOperators.Fin

noncomputable section

namespace Cert.ReferenceIdeal.CellR

open Idealize.ShloMosaic Idealize.ShloMosaic.ValueIdx Cert.ReferenceIdeal Cert.ReferenceIdeal.Gen Cert.ReferenceIdeal.Read
open scoped BigOperators

/-- The concatenation of three 128-column arrays read at a column of the first block. -/
private theorem cat3_block0 (a0 a1 a2 : (⟨S1024x128, .f32⟩ : BufTy).Contents (Elt Ideal)) (p : Fin 1024) (q : Fin 128) :
    concatenate S1024x384 1 [⟨S1024x128, a0⟩, ⟨S1024x128, a1⟩, ⟨S1024x128, a2⟩]
      concatenates_S1024x128_S1024x128_S1024x128_S1024x384_d1 (ix2 p (Spec.col 0 128 (by decide) q)) = a0 (ix2 p q) := by
  refine concatenate_apply_piece 1 [⟨S1024x128, a0⟩, ⟨S1024x128, a1⟩, ⟨S1024x128, a2⟩] concatenates_S1024x128_S1024x128_S1024x128_S1024x384_d1 _ 0 (by simp) S1024x128 a0 rfl rfl 0 rfl (ix2 p q) ?_ ?_
  · intro b hb
    match b with
    | ⟨0, _⟩ => rfl
    | ⟨1, _⟩ => exact absurd rfl hb
  · rfl

private theorem cat3_block1 (a0 a1 a2 : (⟨S1024x128, .f32⟩ : BufTy).Contents (Elt Ideal)) (p : Fin 1024) (q : Fin 128) :
    concatenate S1024x384 1 [⟨S1024x128, a0⟩, ⟨S1024x128, a1⟩, ⟨S1024x128, a2⟩]
      concatenates_S1024x128_S1024x128_S1024x128_S1024x384_d1 (ix2 p (Spec.col 128 128 (by decide) q)) = a1 (ix2 p q) := by
  refine concatenate_apply_piece 1 [⟨S1024x128, a0⟩, ⟨S1024x128, a1⟩, ⟨S1024x128, a2⟩] concatenates_S1024x128_S1024x128_S1024x128_S1024x384_d1 _ 1 (by simp) S1024x128 a1 rfl rfl 128 rfl (ix2 p q) ?_ ?_
  · intro b hb
    match b with
    | ⟨0, _⟩ => rfl
    | ⟨1, _⟩ => exact absurd rfl hb
  · rfl

private theorem cat3_block2 (a0 a1 a2 : (⟨S1024x128, .f32⟩ : BufTy).Contents (Elt Ideal)) (p : Fin 1024) (q : Fin 128) :
    concatenate S1024x384 1 [⟨S1024x128, a0⟩, ⟨S1024x128, a1⟩, ⟨S1024x128, a2⟩]
      concatenates_S1024x128_S1024x128_S1024x128_S1024x384_d1 (ix2 p (Spec.col 256 128 (by decide) q)) = a2 (ix2 p q) := by
  refine concatenate_apply_piece 1 [⟨S1024x128, a0⟩, ⟨S1024x128, a1⟩, ⟨S1024x128, a2⟩] concatenates_S1024x128_S1024x128_S1024x128_S1024x384_d1 _ 2 (by simp) S1024x128 a2 rfl rfl 256 rfl (ix2 p q) ?_ ?_
  · intro b hb
    match b with
    | ⟨0, _⟩ => rfl
    | ⟨1, _⟩ => exact absurd rfl hb
  · rfl

/-- A 384-term sum is the sum of its three 128-term blocks. -/
private theorem sum_three_blocks (f : Fin 384 → EReal) :
    ∑ k : Fin 384, f k
      = (∑ q : Fin 128, f (Spec.col 0 128 (by decide) q)) + (∑ q : Fin 128, f (Spec.col 128 128 (by decide) q))
        + (∑ q : Fin 128, f (Spec.col 256 128 (by decide) q)) := by
  have h1 : ∑ k : Fin 384, f k
      = ∑ k : Fin 256, f (Fin.castAdd 128 k) + ∑ q : Fin 128, f (Fin.natAdd 256 q) :=
    Fin.sum_univ_add (a := 256) (b := 128) f
  have h2 : ∑ k : Fin 256, f (Fin.castAdd 128 k)
      = ∑ q : Fin 128, f (Fin.castAdd 128 (Fin.castAdd 128 q)) + ∑ q : Fin 128, f (Fin.castAdd 128 (Fin.natAdd 128 q)) :=
    Fin.sum_univ_add (a := 128) (b := 128) fun k => f (Fin.castAdd 128 k)
  rw [h1, h2]
  refine congrArg₂ (· + ·) (congrArg₂ (· + ·) ?_ ?_) ?_
  · exact Finset.sum_congr rfl fun q _ => congrArg f (Fin.ext (Nat.zero_add _).symm)
  · exact Finset.sum_congr rfl fun q _ => congrArg f (Fin.ext rfl)
  · exact Finset.sum_congr rfl fun q _ => congrArg f (Fin.ext rfl)

/-- The product's left index at row `p`, contracted position `k`. -/
private theorem lidx_eq (p : Fin 1024) (r : Fin 256) (k : Fin 384) : lidx_main_v35 (ix2 p r) k = ix2 p k := by
  funext a
  match a with
  | ⟨0, _⟩ => rfl
  | ⟨1, _⟩ => rfl

/-- The transposed weight at contracted position `k`, column `r`, is the weight at row `r`, column `k`. -/
private theorem w_eq (x6 : (⟨S256x384, .f32⟩ : BufTy).Contents (Elt Ideal)) (p : Fin 1024) (r : Fin 256) (k : Fin 384) :
    val_main_v34 (F := Ideal) x6 (ridx_main_v35 (ix2 p r) k) = x6 (ix2 r k) := by
  rw [val_main_v34_apply]
  congr 1
  funext a
  match a with
  | ⟨0, _⟩ => rfl
  | ⟨1, _⟩ => rfl

/-- The bias broadcast over the rows, at row `p`, column `r`. -/
private theorem bias_eq (x7 : (⟨S256, .f32⟩ : BufTy).Contents (Elt Ideal)) (p : Fin 1024) (r : Fin 256) :
    val_main_v37 (F := Ideal) x7 (ix2 p r) = x7 (ix1 r) := by
  rw [val_main_v37_apply, val_main_v36_apply]
  congr 1
  funext a
  match a with
  | ⟨0, _⟩ => rfl

theorem v38_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) :
    val_main_v38 (F := Ideal) x0 x1 x2 x4 x5 x6 x7
      = Spec.lin3 x4 (val_main_v32 (F := Ideal) x0 x5) (val_main_v20 (F := Ideal) x1 x2 x5) x6 x7 := by
  funext i
  obtain ⟨p, r, rfl⟩ : ∃ p r, i = ix2 p r := ⟨i 0, i 1, eq_ix2 i⟩
  rw [val_main_v38_apply, val_main_v35_apply, Ideal.addf_def, bias_eq]
  unfold val_main_v33
  generalize val_main_v32 (F := Ideal) x0 x5 = y1
  generalize val_main_v20 (F := Ideal) x1 x2 x5 = y2
  rw [sum_three_blocks]
  unfold Spec.lin3
  refine congrArg₂ (· + ·) (congrArg₂ (· + ·) (congrArg₂ (· + ·) ?_ ?_) ?_) rfl
  · refine Finset.sum_congr rfl fun q _ => ?_
    rw [lidx_eq, w_eq, cat3_block0]
  · refine Finset.sum_congr rfl fun q _ => ?_
    rw [lidx_eq, w_eq, cat3_block1]
  · refine Finset.sum_congr rfl fun q _ => ?_
    rw [lidx_eq, w_eq, cat3_block2]

end Cert.ReferenceIdeal.CellR

end
-- ==== Proof.CellR.Norm.lean ====
/-
  The reference's normalisation: dividing the centred rows by `√(var + ε)` is multiplying them by `(var + ε)^(-1/2)`,
  because a mean of squares is never negative and `ε` is positive.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout

noncomputable section

namespace Cert.ReferenceIdeal.CellR

open Idealize.ShloMosaic Idealize.ShloMosaic.ValueIdx Cert.ReferenceIdeal Cert.ReferenceIdeal.Gen Cert.ReferenceIdeal.Read
open scoped BigOperators

/-! ### The two float words: `256` and a positive `ε` -/

private theorem c256_eq : Spec.c256 = ((256 : ℝ) : EReal) := by
  simp [Ideal.ofBits, Ideal.ieee, -EReal.coe_mul]; norm_num

private theorem c256_pos : (0 : EReal) < Spec.c256 := by
  rw [c256_eq]; exact EReal.coe_pos.2 (by norm_num)

private theorem ceps_pos : (0 : EReal) < Spec.ceps := by
  have h : Spec.ceps = (((10995116 : ℝ) * (2 : ℝ) ^ (-40 : ℤ) : ℝ) : EReal) := by
    simp [Ideal.ofBits, Ideal.ieee, -EReal.coe_mul]
  rw [h]; exact EReal.coe_pos.2 (by positivity)

/-! ### The one mathematical step -/

/-- A square is never negative, at the infinities too. -/
private theorem mul_self_nonneg_ereal (x : EReal) : 0 ≤ x * x := by
  induction x using EReal.rec with
  | bot => simp
  | top => simp
  | coe r => rw [← EReal.coe_mul]; exact EReal.coe_nonneg.2 (mul_self_nonneg r)

/-- A nonnegative value over a positive one is nonnegative. -/
private theorem div_nonneg_of_pos (s c : EReal) (hs : 0 ≤ s) (hc : 0 < c) : 0 ≤ Ideal.div s c := by
  unfold Ideal.div
  rw [if_neg hc.ne']
  exact mul_nonneg hs (EReal.inv_nonneg_of_nonneg hc.le)

/-- Over a positive `v`, dividing by `√v` is multiplying by `v^(-1/2)`: both are `a · (√v)⁻¹` at a finite `v` and
    `a · 0` at `v = ⊤`. -/
private theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := EReal.coe_pos.1 hv
    have hs : 0 < Real.sqrt r := Real.sqrt_pos.2 hr
    show Ideal.div a (if r < 0 then ⊥ else (Real.sqrt r : EReal))
      = a * (if r < 0 then (⊥ : EReal) else if r = 0 then (⊤ : EReal) else (((Real.sqrt r)⁻¹ : ℝ) : EReal))
    rw [if_neg (not_lt.2 hr.le), if_neg (not_lt.2 hr.le), if_neg hr.ne']
    unfold Ideal.div
    rw [if_neg (by exact_mod_cast hs.ne'), EReal.coe_inv]

/-- The variance is never negative. -/
private theorem var_nonneg (z : Spec.Mat 1024 256) (r : Fin 1024) : 0 ≤ Spec.var z r := by
  unfold Spec.var
  exact div_nonneg_of_pos _ _ (Finset.sum_nonneg fun q _ => mul_self_nonneg_ereal _) c256_pos

private theorem var_add_eps_pos (z : Spec.Mat 1024 256) (r : Fin 1024) : 0 < Spec.var z r + Spec.ceps :=
  lt_of_lt_of_le ceps_pos (le_add_of_nonneg_left (var_nonneg z r))

/-! ### Where each layout operation reads -/

private theorem idx_row_sum (p : Fin 1024) (k : Fin 256) :
    idx_main_v39 (idx_main_v40 (ix2 p (0 : Fin 1))) k = ix2 p k := by
  funext a; match a with | ⟨0, _⟩ => rfl | ⟨1, _⟩ => rfl

private theorem idx_row_sum' (p : Fin 1024) (k : Fin 256) :
    idx_main_v46 (idx_main_v47 (ix2 p (0 : Fin 1))) k = ix2 p k := by
  funext a; match a with | ⟨0, _⟩ => rfl | ⟨1, _⟩ => rfl

private theorem idx_col43 (p : Fin 1024) (q : Fin 256) : idx_main_v43 (ix2 p q) = ix2 p (0 : Fin 1) := by
  funext a; match a with | ⟨0, _⟩ => rfl | ⟨1, _⟩ => rfl

private theorem idx_col50 (p : Fin 1024) (q : Fin 256) : idx_main_v50 (ix2 p q) = ix2 p (0 : Fin 1) := by
  funext a; match a with | ⟨0, _⟩ => rfl | ⟨1, _⟩ => rfl

private theorem idx_col55 (p : Fin 1024) (q : Fin 256) : idx_main_v55 (ix2 p q) = ix2 p (0 : Fin 1) := by
  funext a; match a with | ⟨0, _⟩ => rfl | ⟨1, _⟩ => rfl

private theorem idx_vec58 (p : Fin 1024) (q : Fin 256) : idx_main_v57 (idx_main_v58 (ix2 p q)) = ix1 q := by
  funext a; match a with | ⟨0, _⟩ => rfl

private theorem idx_vec61 (p : Fin 1024) (q : Fin 256) : idx_main_v60 (idx_main_v61 (ix2 p q)) = ix1 q := by
  funext a; match a with | ⟨0, _⟩ => rfl

/-! ### The stages, read at an index -/

section Stages

variable (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal))

/-- The row mean. -/
private theorem mean_eq (p : Fin 1024) :
    val_main_v42 (F := Ideal) x0 x1 x2 x4 x5 x6 x7 (ix2 p (0 : Fin 1)) = Spec.mean (val_main_v38 (F := Ideal) x0 x1 x2 x4 x5 x6 x7) p := by
  rw [val_main_v42_apply, val_main_v40_apply, val_main_v39_apply, val_main_v41_apply, val_main_cst_9_apply,
    val_main_cst_8_apply]
  simp only [Ideal.hostDivf_def, Ideal.ofBits_def, Ideal.ofBits_zero_f32, zero_add]
  unfold Spec.mean
  refine congrArg (fun s => Ideal.div s _) (Finset.sum_congr rfl fun k _ => ?_)
  exact congrArg _ (idx_row_sum p k)

/-- The centred element (first use: under the square). -/
private theorem cen_eq (p : Fin 1024) (q : Fin 256) :
    val_main_v44 (F := Ideal) x0 x1 x2 x4 x5 x6 x7 (ix2 p q) = (val_main_v38 (F := Ideal) x0 x1 x2 x4 x5 x6 x7) (ix2 p q) - Spec.mean (val_main_v38 (F := Ideal) x0 x1 x2 x4 x5 x6 x7) p := by
  rw [val_main_v44_apply, val_main_v43_apply, idx_col43 p q, mean_eq]
  rfl

/-- The centred element (second use: the numerator). -/
private theorem cen_eq' (p : Fin 1024) (q : Fin 256) :
    val_main_v51 (F := Ideal) x0 x1 x2 x4 x5 x6 x7 (ix2 p q) = (val_main_v38 (F := Ideal) x0 x1 x2 x4 x5 x6 x7) (ix2 p q) - Spec.mean (val_main_v38 (F := Ideal) x0 x1 x2 x4 x5 x6 x7) p := by
  rw [val_main_v51_apply, val_main_v50_apply, idx_col50 p q, mean_eq]
  rfl

/-- The row variance. -/
private theorem var_eq (p : Fin 1024) :
    val_main_v49 (F := Ideal) x0 x1 x2 x4 x5 x6 x7 (ix2 p (0 : Fin 1)) = Spec.var (val_main_v38 (F := Ideal) x0 x1 x2 x4 x5 x6 x7) p := by
  rw [val_main_v49_apply, val_main_v47_apply, val_main_v46_apply, val_main_v48_apply, val_main_cst_11_apply,
    val_main_cst_10_apply]
  simp only [Ideal.hostDivf_def, Ideal.ofBits_def, Ideal.ofBits_zero_f32, zero_add]
  unfold Spec.var
  refine congrArg (fun s => Ideal.div s _) (Finset.sum_congr rfl fun k _ => ?_)
  rw [idx_row_sum' p k, val_main_v45_apply, cen_eq]
  rfl

/-- The denominator: the root of the variance plus `ε`. -/
private theorem den_eq (p : Fin 1024) (q : Fin 256) :
    val_main_v55 (F := Ideal) x0 x1 x2 x4 x5 x6 x7 (ix2 p q) = Ideal.sqrt (Spec.var (val_main_v38 (F := Ideal) x0 x1 x2 x4 x5 x6 x7) p + Spec.ceps) := by
  rw [val_main_v55_apply, idx_col55 p q, val_main_v54_apply, val_main_v53_apply, var_eq, val_main_v52_apply,
    val_main_cst_12_apply]
  rfl

end Stages

theorem v63_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) :
    val_main_v63 (F := Ideal) x0 x1 x2 x4 x5 x6 x7 x8 x9 = Spec.normRelu (val_main_v38 (F := Ideal) x0 x1 x2 x4 x5 x6 x7) x8 x9 := by
  funext j
  obtain ⟨p, q, rfl⟩ : ∃ p q, j = ix2 p q := ⟨j 0, j 1, eq_ix2 j⟩
  rw [val_main_v63_apply, val_main_v62_apply, val_main_v59_apply, val_main_v56_apply, cen_eq', den_eq,
    val_main_v58_apply, val_main_v57_apply, idx_vec58 p q, val_main_v61_apply, val_main_v60_apply, idx_vec61 p q,
    val_main_call0_v0_apply, val_main_call0_cst_apply]
  simp only [Ideal.hostDivf_def, Ideal.ofBits_def, Ideal.ofBits_zero_f32, Ideal.maximumf_def, Ideal.addf_def,
    Ideal.mulf_def]
  rw [div_sqrt_eq_mul_rsqrt _ _ (var_add_eps_pos _ p)]
  rfl

end Cert.ReferenceIdeal.CellR

end
-- ==== Proof.CellR.Gates.lean ====
/-
  The reference's gate stage: the two gate layers, the gates written out as `1 / (1 + e^(-x))`, the new hidden state
  and the output layer.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout

noncomputable section

namespace Cert.ReferenceIdeal.CellR

open Idealize.ShloMosaic Idealize.ShloMosaic.ValueIdx Cert.ReferenceIdeal Cert.ReferenceIdeal.Gen Cert.ReferenceIdeal.Read
open scoped BigOperators

/-- The float word of `1.0` denotes the extended real `1`. -/
private theorem ofBits_one : Ideal.ofBits .f32 0x3F800000#32 = (1 : EReal) := by
  simp [Ideal.ofBits, Ideal.ieee, -EReal.coe_mul]; norm_num

/-- The gate function `1 / (1 + e^(-x))`, its two ones written as the float word of `1.0`. -/
private theorem logistic_eq (x : EReal) :
    Ideal.logistic x = Ideal.div Spec.cone (Spec.cone + Ideal.exp (-x)) := by
  unfold Ideal.logistic Spec.cone
  rw [ofBits_one]

theorem v68_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S768x256, .f32⟩ : BufTy).Contents (Elt Ideal)) (x12 : (⟨S768, .f32⟩ : BufTy).Contents (Elt Ideal)) :
    val_main_v68 (F := Ideal) x0 x1 x2 x4 x5 x6 x7 x8 x9 x10 x12 = Spec.lin (val_main_v63 (F := Ideal) x0 x1 x2 x4 x5 x6 x7 x8 x9) x10 x12 := by
  funext i
  obtain ⟨p, q, rfl⟩ : ∃ (p : Fin 1024) (q : Fin 768), i = ix2 p q := ⟨i 0, i 1, eq_ix2 i⟩
  rw [val_main_v68_apply, val_main_v65_apply, val_main_v67_apply, val_main_v66_apply]
  generalize val_main_v63 (F := Ideal) x0 x1 x2 x4 x5 x6 x7 x8 x9 = X
  unfold Spec.lin
  rw [Ideal.addf_def]
  congr 1
  · refine Finset.sum_congr rfl fun k _ => ?_
    rw [val_main_v64_apply]
    have e1 : lidx_main_v65 (ix2 p q) k = ix2 p k :=
      funext fun a => Fin.ext (by match a with | ⟨0, _⟩ => rfl | ⟨1, _⟩ => rfl)
    have e2 : idx_main_v64 (ridx_main_v65 (ix2 p q) k) = ix2 q k :=
      funext fun a => Fin.ext (by match a with | ⟨0, _⟩ => rfl | ⟨1, _⟩ => rfl)
    rw [e1, e2]
  · have e3 : idx_main_v66 (idx_main_v67 (ix2 p q)) = ix1 q :=
      funext fun a => Fin.ext (by match a with | ⟨0, _⟩ => rfl)
    rw [e3]

theorem v73_eq (x3 : (⟨S1024x256, .f32⟩ : BufTy).Contents (Elt Ideal)) (x11 : (⟨S768x256, .f32⟩ : BufTy).Contents (Elt Ideal)) (x13 : (⟨S768, .f32⟩ : BufTy).Contents (Elt Ideal)) :
    val_main_v73 (F := Ideal) x3 x11 x13 = Spec.lin x3 x11 x13 := by
  funext i
  obtain ⟨p, q, rfl⟩ : ∃ (p : Fin 1024) (q : Fin 768), i = ix2 p q := ⟨i 0, i 1, eq_ix2 i⟩
  rw [val_main_v73_apply, val_main_v70_apply, val_main_v72_apply, val_main_v71_apply]
  unfold Spec.lin
  rw [Ideal.addf_def]
  congr 1
  · refine Finset.sum_congr rfl fun k _ => ?_
    rw [val_main_v69_apply]
    have e1 : lidx_main_v70 (ix2 p q) k = ix2 p k :=
      funext fun a => Fin.ext (by match a with | ⟨0, _⟩ => rfl | ⟨1, _⟩ => rfl)
    have e2 : idx_main_v69 (ridx_main_v70 (ix2 p q) k) = ix2 q k :=
      funext fun a => Fin.ext (by match a with | ⟨0, _⟩ => rfl | ⟨1, _⟩ => rfl)
    rw [e1, e2]
  · have e3 : idx_main_v71 (idx_main_v72 (ix2 p q)) = ix1 q :=
      funext fun a => Fin.ext (by match a with | ⟨0, _⟩ => rfl)
    rw [e3]

theorem v101_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1024x256, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S768x256, .f32⟩ : BufTy).Contents (Elt Ideal)) (x11 : (⟨S768x256, .f32⟩ : BufTy).Contents (Elt Ideal)) (x12 : (⟨S768, .f32⟩ : BufTy).Contents (Elt Ideal)) (x13 : (⟨S768, .f32⟩ : BufTy).Contents (Elt Ideal)) :
    val_main_v101 (F := Ideal) x0 x1 x2 x3 x4 x5 x6 x7 x8 x9 x10 x11 x12 x13
      = Spec.cell (val_main_v68 (F := Ideal) x0 x1 x2 x4 x5 x6 x7 x8 x9 x10 x12) (val_main_v73 (F := Ideal) x3 x11 x13) x3 := by
  funext i
  obtain ⟨p, q, rfl⟩ : ∃ (p : Fin 1024) (q : Fin 256), i = ix2 p q := ⟨i 0, i 1, eq_ix2 i⟩
  have e74 : idx_main_v74 (ix2 p q) = ix2 p (Spec.col 0 256 (by decide) q) :=
    funext fun a => Fin.ext (by
      match a with
      | ⟨0, _⟩ => rfl
      | ⟨1, _⟩ => show q.val = 0 + q.val; omega)
  have e75 : idx_main_v75 (ix2 p q) = ix2 p (Spec.col 256 256 (by decide) q) :=
    funext fun a => Fin.ext (by match a with | ⟨0, _⟩ => rfl | ⟨1, _⟩ => rfl)
  have e76 : idx_main_v76 (ix2 p q) = ix2 p (Spec.col 512 256 (by decide) q) :=
    funext fun a => Fin.ext (by match a with | ⟨0, _⟩ => rfl | ⟨1, _⟩ => rfl)
  have e77 : idx_main_v77 (ix2 p q) = ix2 p (Spec.col 0 256 (by decide) q) :=
    funext fun a => Fin.ext (by
      match a with
      | ⟨0, _⟩ => rfl
      | ⟨1, _⟩ => show q.val = 0 + q.val; omega)
  have e78 : idx_main_v78 (ix2 p q) = ix2 p (Spec.col 256 256 (by decide) q) :=
    funext fun a => Fin.ext (by match a with | ⟨0, _⟩ => rfl | ⟨1, _⟩ => rfl)
  have e79 : idx_main_v79 (ix2 p q) = ix2 p (Spec.col 512 256 (by decide) q) :=
    funext fun a => Fin.ext (by match a with | ⟨0, _⟩ => rfl | ⟨1, _⟩ => rfl)
  simp only [val_main_v101_apply, val_main_v100_apply, val_main_v99_apply, val_main_v98_apply, val_main_v97_apply,
    val_main_cst_17_apply, val_main_v96_apply, val_main_v95_apply, val_main_v94_apply, val_main_v93_apply,
    val_main_v92_apply, val_main_cst_16_apply, val_main_v91_apply, val_main_v90_apply, val_main_cst_15_apply,
    val_main_v89_apply, val_main_v88_apply, val_main_v87_apply, val_main_v86_apply, val_main_v85_apply,
    val_main_cst_14_apply, val_main_v84_apply, val_main_v83_apply, val_main_cst_13_apply, val_main_v82_apply,
    val_main_v81_apply, val_main_v80_apply, val_main_v79_apply, val_main_v78_apply, val_main_v77_apply,
    val_main_v76_apply, val_main_v75_apply, val_main_v74_apply, e74, e75, e76, e77, e78, e79,
    Ideal.addf_def, Ideal.subf_def, Ideal.mulf_def, Ideal.hostDivf_def, Ideal.hostUnary_exp_def,
    Ideal.hostUnary_tanh_def, Ideal.hostNegf_def, Ideal.negf_def, Ideal.ofBits_def, Spec.cell, logistic_eq]

theorem v106_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1024x256, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S768x256, .f32⟩ : BufTy).Contents (Elt Ideal)) (x11 : (⟨S768x256, .f32⟩ : BufTy).Contents (Elt Ideal)) (x12 : (⟨S768, .f32⟩ : BufTy).Contents (Elt Ideal)) (x13 : (⟨S768, .f32⟩ : BufTy).Contents (Elt Ideal)) (x14 : (⟨S128x256, .f32⟩ : BufTy).Contents (Elt Ideal)) (x15 : (⟨S128, .f32⟩ : BufTy).Contents (Elt Ideal)) :
    val_main_v106 (F := Ideal) x0 x1 x2 x3 x4 x5 x6 x7 x8 x9 x10 x11 x12 x13 x14 x15 = Spec.lin (val_main_v101 (F := Ideal) x0 x1 x2 x3 x4 x5 x6 x7 x8 x9 x10 x11 x12 x13) x14 x15 := by
  funext i
  obtain ⟨p, q, rfl⟩ : ∃ (p : Fin 1024) (q : Fin 128), i = ix2 p q := ⟨i 0, i 1, eq_ix2 i⟩
  rw [val_main_v106_apply, val_main_v103_apply, val_main_v105_apply, val_main_v104_apply]
  generalize val_main_v101 (F := Ideal) x0 x1 x2 x3 x4 x5 x6 x7 x8 x9 x10 x11 x12 x13 = X
  unfold Spec.lin
  rw [Ideal.addf_def]
  congr 1
  · refine Finset.sum_congr rfl fun k _ => ?_
    rw [val_main_v102_apply]
    have e1 : lidx_main_v103 (ix2 p q) k = ix2 p k :=
      funext fun a => Fin.ext (by match a with | ⟨0, _⟩ => rfl | ⟨1, _⟩ => rfl)
    have e2 : idx_main_v102 (ridx_main_v103 (ix2 p q) k) = ix2 q k :=
      funext fun a => Fin.ext (by match a with | ⟨0, _⟩ => rfl | ⟨1, _⟩ => rfl)
    rw [e1, e2]
  · have e3 : idx_main_v104 (idx_main_v105 (ix2 p q)) = ix1 q :=
      funext fun a => Fin.ext (by match a with | ⟨0, _⟩ => rfl)
    rw [e3]

end Cert.ReferenceIdeal.CellR

end
-- ==== Proof.AssembleR.lean ====
/-
  The reference program's two results as the same closed forms of its arguments.
-/
import proofs.«406655_j37177236914577_1_alg».proof.Proof.Gen.ReferenceIdeal.Read
import proofs.«406655_j37177236914577_1_alg».proof.Proof.Spec
import Idealize.ShloMosaic.PureOps.Ideal.Laws
import Idealize.ShloMosaic.Lib.Pipeline.Value
import Idealize.ShloMosaic.Lib.ValueLayout
import proofs.«406655_j37177236914577_1_alg».proof.Proof.SegSum
import Idealize.ShloMosaic.Lib.StableHlo.Predicate
import proofs.«406655_j37177236914577_1_alg».proof.Proof.Closed
import proofs.«406655_j37177236914577_1_alg».proof.Proof.SegR
import proofs.«406655_j37177236914577_1_alg».proof.Proof.SegRG
import proofs.«406655_j37177236914577_1_alg».proof.Proof.CellR.Lin3
import proofs.«406655_j37177236914577_1_alg».proof.Proof.CellR.Norm
import proofs.«406655_j37177236914577_1_alg».proof.Proof.CellR.Gates

noncomputable section

namespace Cert.ReferenceIdeal.Assemble

open Idealize.ShloMosaic Idealize.ShloMosaic.ValueIdx Cert.ReferenceIdeal Cert.ReferenceIdeal.Gen Cert.ReferenceIdeal.Read
open scoped BigOperators

/-- The node mean. -/
theorem aggn_ref (x0 : (⟨S100000x128, .f32⟩ : BufTy).Contents (Elt Ideal)) (x5 : (⟨S100000, .i32⟩ : BufTy).Contents (Elt Ideal)) : val_main_v32 (F := Ideal) x0 x5 = Closed.aggN x0 x5 := by
  rw [SegRG.v32_eq, SegR.v23_eq, SegR.v27_eq]
  rfl

/-- The edge mean, where every first-row word of `edge_index` is an index into `batch`. -/
theorem agge_ref (x1 : (⟨S2x1600000, .i32⟩ : BufTy).Contents (Elt Ideal)) (x2 : (⟨S1600000x128, .f32⟩ : BufTy).Contents (Elt Ideal)) (x5 : (⟨S100000, .i32⟩ : BufTy).Contents (Elt Ideal)) (hr : ∀ e : Fin 1600000, (x1 (ix2 0 e)).toNat < 100000) :
    val_main_v20 (F := Ideal) x1 x2 x5 = Closed.aggE x2 x1 x5 := by
  have hseg : (fun t : Fin 1600000 => val_main_v8 (F := Ideal) x1 x5 (ix1 t)) = Closed.eseg x1 x5 :=
    funext (SegRG.v8_eq x1 x5 hr)
  rw [SegRG.v20_eq, SegR.v11_eq, SegR.v15_eq, hseg]
  rfl

/-- The new hidden state the reference returns. -/
theorem ref_hnew (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1024x256, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S768x256, .f32⟩ : BufTy).Contents (Elt Ideal)) (x11 : (⟨S768x256, .f32⟩ : BufTy).Contents (Elt Ideal)) (x12 : (⟨S768, .f32⟩ : BufTy).Contents (Elt Ideal)) (x13 : (⟨S768, .f32⟩ : BufTy).Contents (Elt Ideal)) (hr : ∀ e : Fin 1600000, (x1 (ix2 0 e)).toNat < 100000) :
    val_main_v101 (F := Ideal) x0 x1 x2 x3 x4 x5 x6 x7 x8 x9 x10 x11 x12 x13
      = Spec.hnew x4 (Closed.aggN x0 x5) (Closed.aggE x2 x1 x5) x3 x6 x7 x8 x9 x10 x11 x12 x13 := by
  rw [CellR.v101_eq, CellR.v68_eq, CellR.v73_eq, CellR.v63_eq, CellR.v38_eq, aggn_ref, agge_ref x1 x2 x5 hr]
  rfl

/-- The output the reference returns. -/
theorem ref_out (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S1024x256, .f32⟩ : BufTy).Contents (Elt Ideal)) (x4 : (⟨S1024x128, .f32⟩ : BufTy).Contents (Elt Ideal)) (x5 : (⟨S100000, .i32⟩ : BufTy).Contents (Elt Ideal)) (x6 : (⟨S256x384, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S768x256, .f32⟩ : BufTy).Contents (Elt Ideal)) (x11 : (⟨S768x256, .f32⟩ : BufTy).Contents (Elt Ideal)) (x12 : (⟨S768, .f32⟩ : BufTy).Contents (Elt Ideal)) (x13 : (⟨S768, .f32⟩ : BufTy).Contents (Elt Ideal)) (x14 : (⟨S128x256, .f32⟩ : BufTy).Contents (Elt Ideal)) (x15 : (⟨S128, .f32⟩ : BufTy).Contents (Elt Ideal)) (hr : ∀ e : Fin 1600000, (x1 (ix2 0 e)).toNat < 100000) :
    val_main_v106 (F := Ideal) x0 x1 x2 x3 x4 x5 x6 x7 x8 x9 x10 x11 x12 x13 x14 x15
      = Spec.out x4 (Closed.aggN x0 x5) (Closed.aggE x2 x1 x5) x3 x6 x7 x8 x9 x10 x11 x12 x13 x14 x15 := by
  rw [CellR.v106_eq, ref_hnew x0 x1 x2 x3 x4 x5 x6 x7 x8 x9 x10 x11 x12 x13 hr]
  rfl

end Cert.ReferenceIdeal.Assemble

end
-- ==== Proof.lean ====
/-
  The certificate of the graph-network global update: the kernel program (two segment means computed by one-hot matrix
  products accumulated over a grid, then one kernel for the first layer, the row normalisation, the gated cell and the
  output layer) against its jnp reference (segment sums by scatter-add, the same cell written with host operations).

  The frames of the two kernel programs are the generated ones; the reference's frame is its generated run with the
  results dropped. The ideal pass rewrote nothing, so `preserves` is `True`. For `algebraic`: under the precondition every
  word of the first row of `edge_index` is an index into `batch`, so the kernel's masked take and the reference's clamped
  gather read the same segment words; both programs' results are then the cell (`Spec.hnew`, `Spec.out`) at the node mean
  and the edge mean (`Closed.aggN`, `Closed.aggE`) of the arguments, on which the two memories agree.
-/
import proofs.«406655_j37177236914577_1_alg».proof.Defs
import proofs.«406655_j37177236914577_1_alg».proof.Proof.Gen.Kernel
import proofs.«406655_j37177236914577_1_alg».proof.Proof.Gen.Kernel.Frame
import proofs.«406655_j37177236914577_1_alg».proof.Proof.Gen.KernelIdeal
import proofs.«406655_j37177236914577_1_alg».proof.Proof.Gen.KernelIdeal.Frame
import proofs.«406655_j37177236914577_1_alg».proof.Proof.Gen.ReferenceIdeal
import proofs.«406655_j37177236914577_1_alg».proof.Proof.Gen.ReferenceIdeal.Run
import proofs.«406655_j37177236914577_1_alg».proof.Proof.Gen.ReferenceIdeal.Read
import proofs.«406655_j37177236914577_1_alg».proof.Proof.Gen.Pre_finite_inputs
import proofs.«406655_j37177236914577_1_alg».proof.Proof.KernelRun
import proofs.«406655_j37177236914577_1_alg».proof.Proof.PreRange
import proofs.«406655_j37177236914577_1_alg».proof.Proof.AssembleK
import proofs.«406655_j37177236914577_1_alg».proof.Proof.AssembleR
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the cell of the two segment means of the arguments. -/
theorem algebraic : Cert.algebraic_KernelIdeal_ReferenceIdeal := by
  intro m ρ m' ρ' hpre hagree
  have hr : ∀ (c : Dev Cert.KernelIdeal.nD) (e : Fin 1600000),
      ((m ((c.tc : Thread Cert.KernelIdeal.nD Cert.KernelIdeal.τ).loc Cert.KernelIdeal.main_arg1)) (ix2 0 e)).toNat < 100000 := fun c e =>
    Cert.Pre_finite_inputs.Range.row_range (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c) e
  refine ⟨fun c => Cert.KernelIdeal.Gen.W8 m ρ c (Proc.devRef .tc Cert.KernelIdeal.main_v27_0),
    fun c => Cert.KernelIdeal.Gen.W8 m ρ c (Proc.devRef .tc Cert.KernelIdeal.main_v27_1),
    Cert.KernelIdeal.Run.run_results (F := Ideal) m ρ, ?_⟩
  refine (θ_run Cert.ReferenceIdeal.defs _ _).mono (fun _ h c => ?_) (Cert.ReferenceIdeal.Value.run (F := Ideal) m' ρ')
  obtain ⟨h0, h1, hrest⟩ := h c
  obtain ⟨e0, e1, e2, e3, e4, e5, e6, e7, e8, e9, e10, e11, e12, e13, e14, e15⟩ := hagree c
  have hr' : ∀ e : Fin 1600000, ((m' ((c.tc : Thread Cert.ReferenceIdeal.nD Cert.ReferenceIdeal.τ).loc Cert.ReferenceIdeal.main_arg1)) (ix2 0 e)).toNat < 100000 := by
    intro e; rw [e1]; exact hr c e
  refine ⟨h0.trans ?_, h1.trans ?_, hrest⟩
  · show _ = Cert.KernelIdeal.Gen.W8 m ρ c (Proc.devRef .tc Cert.KernelIdeal.main_v27_0)
    rw [Cert.ReferenceIdeal.Read.val_main_v106_eq, Cert.ReferenceIdeal.Assemble.ref_out _ _ _ _ _ _ _ _ _ _ _ _ _ _ _ _ hr',
        Cert.KernelIdeal.Assemble.kernel_out m ρ c (hr c), e0, e1, e2, e3, e4, e5, e6, e7, e8, e9, e10, e11, e12, e13, e14, e15]
  · show _ = Cert.KernelIdeal.Gen.W8 m ρ c (Proc.devRef .tc Cert.KernelIdeal.main_v27_1)
    rw [Cert.ReferenceIdeal.Read.val_main_v101_eq, Cert.ReferenceIdeal.Assemble.ref_hnew _ _ _ _ _ _ _ _ _ _ _ _ _ _ hr',
        Cert.KernelIdeal.Assemble.kernel_hnew m ρ c (hr c), e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
